-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S200000x64 : Shape := ⟨2, ![200000, 64]⟩
abbrev S128x128 : Shape := ⟨2, ![128, 128]⟩
abbrev S128 : Shape := ⟨1, ![128]⟩
abbrev S128x192 : Shape := ⟨2, ![128, 192]⟩
abbrev S1000000 : Shape := ⟨1, ![1000000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S200000x64 : S_.BroadcastsInDim S200000x64 (![] : Fin 0 → Fin S200000x64.rank)
  reducesTo_S200000x64_S_d0_1 : S200000x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x192 : S_.BroadcastsInDim S128x192 (![] : Fin 0 → Fin S128x192.rank)
  reducesTo_S128x192_S_d0_1 : S128x192.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S128 .f32) (main_arg12 : FVec F S128 .f32) (main_arg13 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg7 : FVec F S128 .f32) (main_arg8 : FVec F S128x128 .f32) (main_arg9 : FVec F S128 .f32) (main_arg10 : FVec F S128x128 .f32) (main_arg11 : FVec F S128 .f32) (main_arg12 : FVec F S128 .f32) (main_arg13 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_v48 main_v49 main_v50

def fn_part1 {F : FTy → Type} [FloatOps F] (main_arg4 : FVec F S128x192 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128 .f32) (main_arg13 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x192 .f32 := Host.absf main_arg4
  let main_cst_6 : FVec F S_ .f32 := constant S_ .f32 0x7F800000#32
  let main_v20 : FVec F S128x192 .f32 := broadcastInDim S128x192 ![] bcast_S_S128x192 main_cst_6
  let main_v21 : IVec S128x192 1 := cmpf .olt main_v19 main_v20
  let main_c_7 : IVec S_ 1 := constantI S_ 1 1#1
  let main_v22 : IVec S_ 1 := (fun x v => Host.reduce IntOp.andi x v reducesTo_S128x192_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S100000x128 .f32) (main_arg1 : FVec F S200000x64 .f32) (main_arg2 : FVec F S128x128 .f32) (main_arg3 : FVec F S128 .f32) (main_arg4 : FVec F S128x192 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128 .f32) (main_arg13 : FVec F S128 .f32) (main_arg14 : IVec S1000000 32) (main_arg15 : IVec S1000000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S200000x64 .f32 := Host.absf main_arg1
  let main_cst_0 : FVec F S_ .f32 := constant S_ .f32 0x7F800000#32
  let main_v5 : FVec F S200000x64 .f32 := broadcastInDim S200000x64 ![] bcast_S_S200000x64 main_cst_0
  let main_v6 : IVec S200000x64 1 := cmpf .olt main_v4 main_v5
  let main_c_1 : IVec S_ 1 := constantI S_ 1 1#1
  let main_v7 : IVec S_ 1 := (fun x v => Host.reduce IntOp.andi x v reducesTo_S200000x64_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_v13 main_v16
-- ==== Kernel.lean ====
abbrev S100000x128 : Shape := ⟨2, ![100000, 128]⟩
abbrev S200000x64 : Shape := ⟨2, ![200000, 64]⟩
abbrev S128x128 : Shape := ⟨2, ![128, 128]⟩
abbrev S128 : Shape := ⟨1, ![128]⟩
abbrev S128x192 : Shape := ⟨2, ![128, 192]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S200000x128 : Shape := ⟨2, ![200000, 128]⟩
abbrev S200000x1 : Shape := ⟨2, ![200000, 1]⟩
abbrev S128x64 : Shape := ⟨2, ![128, 64]⟩
abbrev S64x128 : Shape := ⟨2, ![64, 128]⟩
abbrev S1x128 : Shape := ⟨2, ![1, 128]⟩
abbrev S5000x128 : Shape := ⟨2, ![5000, 128]⟩
abbrev S5000x64 : Shape := ⟨2, ![5000, 64]⟩
abbrev S100000x1 : Shape := ⟨2, ![100000, 1]⟩
abbrev S5000 : Shape := ⟨1, ![5000]⟩
abbrev S5000x1 : Shape := ⟨2, ![5000, 1]⟩

abbrev nBuf : Space → Nat
  | .hbm => 81
  | .vmem => 25
  | .smem => 0
  | _ => 0

abbrev bufTy : (tb : Table) → Fin (tcTables nBuf tb) → BufTy
  | .hbm, ⟨0, _⟩ => ⟨S100000x128, .f32⟩
  | .hbm, ⟨1, _⟩ => ⟨S200000x64, .f32⟩
  | .hbm, ⟨2, _⟩ => ⟨S128x128, .f32⟩
  | .hbm, ⟨3, _⟩ => ⟨S128, .f32⟩
  | .hbm, ⟨4, _⟩ => ⟨S128x192, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S1000000, .i32⟩
  | .hbm, ⟨15, _⟩ => ⟨S1000000, .i32⟩
  | .hbm, ⟨16, _⟩ => ⟨S_, .i32⟩
  | .hbm, ⟨17, _⟩ => ⟨S1000000, .i32⟩
  | .hbm, ⟨18, _⟩ => ⟨S1000000, .i1⟩
  | .hbm, ⟨19, _⟩ => ⟨S_, .i32⟩
  | .hbm, ⟨20, _⟩ => ⟨S1000000, .i32⟩
  | .hbm, ⟨21, _⟩ => ⟨S1000000, .i32⟩
  | .hbm, ⟨22, _⟩ => ⟨S1000000, .i32⟩
  | .hbm, ⟨23, _⟩ => ⟨S1000000x1, .i32⟩
  | .hbm, ⟨24, _⟩ => ⟨S1000000x128, .f32⟩
  | .hbm, ⟨25, _⟩ => ⟨S_, .f32⟩
  | .hbm, ⟨26, _⟩ => ⟨S200000x128, .f32⟩
  | .hbm, ⟨27, _⟩ => ⟨S1000000x1, .i32⟩
  | .hbm, ⟨28, _⟩ => ⟨S200000x128, .f32⟩
  | .hbm, ⟨29, _⟩ => ⟨S_, .f32⟩
  | .hbm, ⟨30, _⟩ => ⟨S1000000x1, .f32⟩
  | .hbm, ⟨31, _⟩ => ⟨S_, .f32⟩
  | .hbm, ⟨32, _⟩ => ⟨S200000x1, .f32⟩
  | .hbm, ⟨33, _⟩ => ⟨S1000000x1, .i32⟩
  | .hbm, ⟨34, _⟩ => ⟨S200000x1, .f32⟩
  | .hbm, ⟨35, _⟩ => ⟨S_, .f32⟩
  | .hbm, ⟨36, _⟩ => ⟨S200000x1, .f32⟩
  | .hbm, ⟨37, _⟩ => ⟨S200000x1, .f32⟩
  | .hbm, ⟨38, _⟩ => ⟨S200000x128, .f32⟩
  | .hbm, ⟨39, _⟩ => ⟨S200000x128, .f32⟩
  | .hbm, ⟨40, _⟩ => ⟨S128x128, .f32⟩
  | .hbm, ⟨41, _⟩ => ⟨S128x64, .f32⟩
  | .hbm, ⟨42, _⟩ => ⟨S128x128, .f32⟩
  | .hbm, ⟨43, _⟩ => ⟨S64x128, .f32⟩
  | .hbm, ⟨44, _⟩ => ⟨S128x128, .f32⟩
  | .hbm, ⟨45, _⟩ => ⟨S1x128, .f32⟩
  | .hbm, ⟨46, _⟩ => ⟨S1x128, .f32⟩
  | .hbm, ⟨47, _⟩ => ⟨S200000x128, .f32⟩
  | .hbm, ⟨48, _⟩ => ⟨S_, .i32⟩
  | .hbm, ⟨49, _⟩ => ⟨S1000000, .i32⟩
  | .hbm, ⟨50, _⟩ => ⟨S1000000, .i1⟩
  | .hbm, ⟨51, _⟩ => ⟨S_, .i32⟩
  | .hbm, ⟨52, _⟩ => ⟨S1000000, .i32⟩
  | .hbm, ⟨53, _⟩ => ⟨S1000000, .i32⟩
  | .hbm, ⟨54, _⟩ => ⟨S1000000, .i32⟩
  | .hbm, ⟨55, _⟩ => ⟨S1000000x1, .i32⟩
  | .hbm, ⟨56, _⟩ => ⟨S1000000x128, .f32⟩
  | .hbm, ⟨57, _⟩ => ⟨S_, .f32⟩
  | .hbm, ⟨58, _⟩ => ⟨S100000x128, .f32⟩
  | .hbm, ⟨59, _⟩ => ⟨S1000000x1, .i32⟩
  | .hbm, ⟨60, _⟩ => ⟨S100000x128, .f32⟩
  | .hbm, ⟨61, _⟩ => ⟨S_, .f32⟩
  | .hbm, ⟨62, _⟩ => ⟨S1000000x1, .f32⟩
  | .hbm, ⟨63, _⟩ => ⟨S_, .f32⟩
  | .hbm, ⟨64, _⟩ => ⟨S100000x1, .f32⟩
  | .hbm, ⟨65, _⟩ => ⟨S1000000x1, .i32⟩
  | .hbm, ⟨66, _⟩ => ⟨S100000x1, .f32⟩
  | .hbm, ⟨67, _⟩ => ⟨S_, .f32⟩
  | .hbm, ⟨68, _⟩ => ⟨S100000x1, .f32⟩
  | .hbm, ⟨69, _⟩ => ⟨S100000x1, .f32⟩
  | .hbm, ⟨70, _⟩ => ⟨S100000x128, .f32⟩
  | .hbm, ⟨71, _⟩ => ⟨S100000x128, .f32⟩
  | .hbm, ⟨72, _⟩ => ⟨S128x128, .f32⟩
  | .hbm, ⟨73, _⟩ => ⟨S128x128, .f32⟩
  | .hbm, ⟨74, _⟩ => ⟨S128x128, .f32⟩
  | .hbm, ⟨75, _⟩ => ⟨S1x128, .f32⟩
  | .hbm, ⟨76, _⟩ => ⟨S1x128, .f32⟩
  | .hbm, ⟨77, _⟩ => ⟨S1x128, .f32⟩
  | .hbm, ⟨78, _⟩ => ⟨S1x128, .f32⟩
  | .hbm, ⟨79, _⟩ => ⟨S1x128, .f32⟩
  | .hbm, ⟨80, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x64, .f32⟩
  | .local _ .vmem, ⟨3, _⟩ => ⟨S5000x64, .f32⟩
  | .local _ .vmem, ⟨4, _⟩ => ⟨S128x128, .f32⟩
  | .local _ .vmem, ⟨5, _⟩ => ⟨S64x128, .f32⟩
  | .local _ .vmem, ⟨6, _⟩ => ⟨S1x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S128x128, .f32⟩
  | .local _ .vmem, ⟨16, _⟩ => ⟨S1x128, .f32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S5000x128, .f32⟩
  | .local _ .vmem, ⟨24, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_3 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c_4 : Ref sig .tc := ⟨.hbm, 48, rfl⟩
abbrev main_v26 : Ref sig .tc := ⟨.hbm, 49, rfl⟩
abbrev main_v27 : Ref sig .tc := ⟨.hbm, 50, rfl⟩
abbrev main_c_5 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_6 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_7 : Ref sig .tc := ⟨.hbm, 61, rfl⟩
abbrev main_v36 : Ref sig .tc := ⟨.hbm, 62, rfl⟩
abbrev main_cst_8 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_9 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg10_0 : Ref sig .tc := ⟨.vmem, 23, rfl⟩
abbrev cc1_stg10_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem10_0 : DmaSem sig := 23
abbrev cc1_sem10_1 : DmaSem sig := 24

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S5000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S200000x128 : S_.BroadcastsInDim S200000x128 (![] : Fin 0 → Fin S200000x128.rank)
  bcast_S_S1000000x1 : S_.BroadcastsInDim S1000000x1 (![] : Fin 0 → Fin S1000000x1.rank)
  bcast_S_S200000x1 : S_.BroadcastsInDim S200000x1 (![] : Fin 0 → Fin S200000x1.rank)
  bcast_S200000x1_S200000x128_0_1 : S200000x1.BroadcastsInDim S200000x128 (![0, 1] : Fin 2 → Fin S200000x128.rank)
  slices_S128x192_S128x128_0_0 : S128x192.Slices ![0, 0] S128x128
  slices_S128x192_S128x64_0_128 : S128x192.Slices ![0, 128] S128x64
  transposes_S128x128_S128x128_1_0 : S128x128.Transposes [1, 0] S128x128
  transposes_S128x64_S64x128_1_0 : S128x64.Transposes [1, 0] S64x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S5000x64_S5000x64_0_0 : ∀ a, (![0, 0] : Fin 2 → Nat) a + S5000x64.size a ≤ S5000x64.size a
  h_S5000x64 : 0 < S5000x64.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S100000x128 : S_.BroadcastsInDim S100000x128 (![] : Fin 0 → Fin S100000x128.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  reduces_S5000x128_S5000 : S5000x128.Reduces [1] S5000
  shapeCasts_S5000_S5000x1 : S5000.ShapeCasts S5000x1
  broadcasts_S5000x1_S5000x128 : S5000x1.Broadcasts S5000x128
  gather_S100000x128_S1000000x1_S1000000x128_1_0_n_n_0_1_1128_wf : GatherDims.WF S100000x128 S1000000x1 S1000000x128 [1] [0] [] [0] [] 1 ![1, 128]
  scatter_S200000x128_S1000000x1_S1000000x128_1_0_0_1_wf : ScatterDims.WF S200000x128 S1000000x1 S1000000x128 [1] [0] [0] 1
  scatter_S200000x1_S1000000x1_S1000000x1_1_0_0_1_wf : ScatterDims.WF S200000x1 S1000000x1 S1000000x1 [1] [0] [0] 1
  dot_S5000x128_S128x128_S5000x128_1_0_0_1_n_n_wf : DotDims.WF S5000x128 S128x128 S5000x128 [1] [0] [0] [1] [] []
  dot_S5000x64_S64x128_S5000x128_1_0_0_1_n_n_wf : DotDims.WF S5000x64 S64x128 S5000x128 [1] [0] [0] [1] [] []
  gather_S200000x128_S1000000x1_S1000000x128_1_0_n_n_0_1_1128_wf : GatherDims.WF S200000x128 S1000000x1 S1000000x128 [1] [0] [] [0] [] 1 ![1, 128]
  scatter_S100000x128_S1000000x1_S1000000x128_1_0_0_1_wf : ScatterDims.WF S100000x128 S1000000x1 S1000000x128 [1] [0] [0] 1
  scatter_S100000x1_S1000000x1_S1000000x1_1_0_0_1_wf : ScatterDims.WF S100000x1 S1000000x1 S1000000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S200000x128.size a
  hwx0_0 : ∀ i : grid0.Coords, EltTy.bits .f32 = 32 ∨ (Rect.block (s := S200000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S200000x64.size a
  hwx0_1 : ∀ i : grid0.Coords, EltTy.bits .f32 = 32 ∨ (Rect.block (s := S200000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S200000x128.size a
  hwx0_7 : ∀ i : grid0.Coords, EltTy.bits .f32 = 32 ∨ (Rect.block (s := S200000x128) S5000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x128.size a ≤ S100000x128.size a
  hwx1_10 : ∀ i : grid1.Coords, EltTy.bits .f32 = 32 ∨ (Rect.block (s := S100000x128) S5000x128.size (cc1_transform_10 i) (hinb1_10 i)).WholeWords (EltTy.packing .f32)

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S200000x128_S1000000x1_S1000000x128_1_0_0_1 : ScatterDims S200000x128 S1000000x1 S1000000x128 where
  updateWindowDims := [1]
  insertedWindowDims := [0]
  scatterDimsToOperandDims := [0]
  indexVectorDim := 1
  wf := scatter_S200000x128_S1000000x1_S1000000x128_1_0_0_1_wf
def scatter_S200000x1_S1000000x1_S1000000x1_1_0_0_1 : ScatterDims S200000x1 S1000000x1 S1000000x1 where
  updateWindowDims := [1]
  insertedWindowDims := [0]
  scatterDimsToOperandDims := [0]
  indexVectorDim := 1
  wf := scatter_S200000x1_S1000000x1_S1000000x1_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S200000x128_S1000000x1_S1000000x128_1_0_n_n_0_1_1128 : GatherDims S200000x128 S1000000x1 S1000000x128 where
  offsetDims := [1]
  collapsedSliceDims := [0]
  operandBatchingDims := []
  startIndicesBatchingDims := []
  startIndexMap := [0]
  indexVectorDim := 1
  sliceSizes := ![1, 128]
  wf := gather_S200000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000x1_S1000000x1_S1000000x1_1_0_0_1 : ScatterDims S100000x1 S1000000x1 S1000000x1 where
  updateWindowDims := [1]
  insertedWindowDims := [0]
  scatterDimsToOperandDims := [0]
  indexVectorDim := 1
  wf := scatter_S100000x1_S1000000x1_S1000000x1_1_0_0_1_wf

abbrev win0_0 : Pipeline.Window sig grid0 :=
  Pipeline.Window.ofSpec (Memref.whole main_v17) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v46) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v49) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v50) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v51) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v52) S5000x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S100000x128 : Shape := ⟨2, ![100000, 128]⟩
abbrev S200000x64 : Shape := ⟨2, ![200000, 64]⟩
abbrev S128x128 : Shape := ⟨2, ![128, 128]⟩
abbrev S128 : Shape := ⟨1, ![128]⟩
abbrev S128x192 : Shape := ⟨2, ![128, 192]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S200000x128 : Shape := ⟨2, ![200000, 128]⟩
abbrev S200000x1 : Shape := ⟨2, ![200000, 1]⟩
abbrev S200000x192 : Shape := ⟨2, ![200000, 192]⟩
abbrev S192x128 : Shape := ⟨2, ![192, 128]⟩
abbrev S1x128 : Shape := ⟨2, ![1, 128]⟩
abbrev S100000x1 : Shape := ⟨2, ![100000, 1]⟩
abbrev S100000 : Shape := ⟨1, ![100000]⟩

abbrev nBuf : Space → Nat
  | .hbm => 144
  | .vmem => 0
  | .smem => 0
  | _ => 0

abbrev hbmTy0_0 (i : Nat) : BufTy := match i % 128 with
  | 0 => ⟨S100000x128, .f32⟩
  | 1 => ⟨S200000x64, .f32⟩
  | 2 => ⟨S128x128, .f32⟩
  | 3 => ⟨S128, .f32⟩
  | 4 => ⟨S128x192, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128, .f32⟩
  | 13 => ⟨S128, .f32⟩
  | 14 => ⟨S1000000, .i32⟩
  | 15 => ⟨S1000000, .i32⟩
  | 16 => ⟨S_, .i32⟩
  | 17 => ⟨S1000000, .i32⟩
  | 18 => ⟨S1000000, .i1⟩
  | 19 => ⟨S_, .i32⟩
  | 20 => ⟨S1000000, .i32⟩
  | 21 => ⟨S1000000, .i32⟩
  | 22 => ⟨S1000000, .i32⟩
  | 23 => ⟨S1000000x1, .i32⟩
  | 24 => ⟨S1000000x128, .f32⟩
  | 25 => ⟨S_, .f32⟩
  | 26 => ⟨S200000x128, .f32⟩
  | 27 => ⟨S1000000x1, .i32⟩
  | 28 => ⟨S200000x128, .f32⟩
  | 29 => ⟨S_, .f32⟩
  | 30 => ⟨S1000000x1, .f32⟩
  | 31 => ⟨S_, .f32⟩
  | 32 => ⟨S200000x1, .f32⟩
  | 33 => ⟨S1000000x1, .i32⟩
  | 34 => ⟨S200000x1, .f32⟩
  | 35 => ⟨S_, .f32⟩
  | 36 => ⟨S200000x1, .f32⟩
  | 37 => ⟨S200000x1, .f32⟩
  | 38 => ⟨S200000x128, .f32⟩
  | 39 => ⟨S200000x128, .f32⟩
  | 40 => ⟨S200000x192, .f32⟩
  | 41 => ⟨S192x128, .f32⟩
  | 42 => ⟨S200000x128, .f32⟩
  | 43 => ⟨S1x128, .f32⟩
  | 44 => ⟨S200000x128, .f32⟩
  | 45 => ⟨S200000x128, .f32⟩
  | 46 => ⟨S_, .f32⟩
  | 47 => ⟨S200000x128, .f32⟩
  | 48 => ⟨S200000x128, .f32⟩
  | 49 => ⟨S128x128, .f32⟩
  | 50 => ⟨S200000x128, .f32⟩
  | 51 => ⟨S1x128, .f32⟩
  | 52 => ⟨S200000x128, .f32⟩
  | 53 => ⟨S200000x128, .f32⟩
  | 54 => ⟨S_, .i32⟩
  | 55 => ⟨S1000000, .i32⟩
  | 56 => ⟨S1000000, .i1⟩
  | 57 => ⟨S_, .i32⟩
  | 58 => ⟨S1000000, .i32⟩
  | 59 => ⟨S1000000, .i32⟩
  | 60 => ⟨S1000000, .i32⟩
  | 61 => ⟨S1000000x1, .i32⟩
  | 62 => ⟨S1000000x128, .f32⟩
  | 63 => ⟨S_, .f32⟩
  | 64 => ⟨S100000x128, .f32⟩
  | 65 => ⟨S1000000x1, .i32⟩
  | 66 => ⟨S100000x128, .f32⟩
  | 67 => ⟨S_, .f32⟩
  | 68 => ⟨S1000000x1, .f32⟩
  | 69 => ⟨S_, .f32⟩
  | 70 => ⟨S100000x1, .f32⟩
  | 71 => ⟨S1000000x1, .i32⟩
  | 72 => ⟨S100000x1, .f32⟩
  | 73 => ⟨S_, .f32⟩
  | 74 => ⟨S100000x1, .f32⟩
  | 75 => ⟨S100000x1, .f32⟩
  | 76 => ⟨S100000x128, .f32⟩
  | 77 => ⟨S100000x128, .f32⟩
  | 78 => ⟨S128x128, .f32⟩
  | 79 => ⟨S100000x128, .f32⟩
  | 80 => ⟨S1x128, .f32⟩
  | 81 => ⟨S100000x128, .f32⟩
  | 82 => ⟨S100000x128, .f32⟩
  | 83 => ⟨S128x128, .f32⟩
  | 84 => ⟨S100000x128, .f32⟩
  | 85 => ⟨S1x128, .f32⟩
  | 86 => ⟨S100000x128, .f32⟩
  | 87 => ⟨S100000x128, .f32⟩
  | 88 => ⟨S_, .f32⟩
  | 89 => ⟨S100000x128, .f32⟩
  | 90 => ⟨S100000x128, .f32⟩
  | 91 => ⟨S128x128, .f32⟩
  | 92 => ⟨S100000x128, .f32⟩
  | 93 => ⟨S1x128, .f32⟩
  | 94 => ⟨S100000x128, .f32⟩
  | 95 => ⟨S100000x128, .f32⟩
  | 96 => ⟨S100000x128, .f32⟩
  | 97 => ⟨S_, .f32⟩
  | 98 => ⟨S100000x128, .f32⟩
  | 99 => ⟨S100000x128, .f32⟩
  | 100 => ⟨S_, .f32⟩
  | 101 => ⟨S100000, .f32⟩
  | 102 => ⟨S100000x1, .f32⟩
  | 103 => ⟨S_, .f32⟩
  | 104 => ⟨S100000x1, .f32⟩
  | 105 => ⟨S100000x1, .f32⟩
  | 106 => ⟨S_, .i32⟩
  | 107 => ⟨S_, .f32⟩
  | 108 => ⟨S100000, .f32⟩
  | 109 => ⟨S100000x1, .f32⟩
  | 110 => ⟨S_, .f32⟩
  | 111 => ⟨S100000x1, .f32⟩
  | 112 => ⟨S100000x1, .f32⟩
  | 113 => ⟨S100000x128, .f32⟩
  | 114 => ⟨S100000x128, .f32⟩
  | 115 => ⟨S100000x128, .f32⟩
  | 116 => ⟨S_, .f32⟩
  | 117 => ⟨S_, .f32⟩
  | 118 => ⟨S_, .f32⟩
  | 119 => ⟨S_, .f32⟩
  | 120 => ⟨S100000, .f32⟩
  | 121 => ⟨S100000x1, .f32⟩
  | 122 => ⟨S100000x1, .f32⟩
  | 123 => ⟨S100000x1, .f32⟩
  | 124 => ⟨S_, .f32⟩
  | 125 => ⟨S_, .i1⟩
  | 126 => ⟨S_, .f32⟩
  | 127 => ⟨S_, .f32⟩
  | _ => ⟨S100000x128, .f32⟩

abbrev hbmTy0_1 (i : Nat) : BufTy := match i % 128 with
  | 0 => ⟨S100000x1, .f32⟩
  | 1 => ⟨S100000x1, .f32⟩
  | 2 => ⟨S100000x128, .f32⟩
  | 3 => ⟨S100000x128, .f32⟩
  | 4 => ⟨S_, .f32⟩
  | 5 => ⟨S100000x1, .f32⟩
  | 6 => ⟨S100000x1, .f32⟩
  | 7 => ⟨S100000x1, .f32⟩
  | 8 => ⟨S100000x128, .f32⟩
  | 9 => ⟨S100000x128, .f32⟩
  | 10 => ⟨S1x128, .f32⟩
  | 11 => ⟨S100000x128, .f32⟩
  | 12 => ⟨S100000x128, .f32⟩
  | 13 => ⟨S1x128, .f32⟩
  | 14 => ⟨S100000x128, .f32⟩
  | 15 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_3 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_call0_cst : Ref sig .tc := ⟨.hbm, 46, rfl⟩
abbrev main_call0_v0 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_4 : Ref sig .tc := ⟨.hbm, 54, rfl⟩
abbrev main_v30 : Ref sig .tc := ⟨.hbm, 55, rfl⟩
abbrev main_v31 : Ref sig .tc := ⟨.hbm, 56, rfl⟩
abbrev main_c_5 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_6 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_7 : Ref sig .tc := ⟨.hbm, 67, rfl⟩
abbrev main_v40 : Ref sig .tc := ⟨.hbm, 68, rfl⟩
abbrev main_cst_8 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_9 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_call1_cst : Ref sig .tc := ⟨.hbm, 88, rfl⟩
abbrev main_call1_v0 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_call2_cst : Ref sig .tc := ⟨.hbm, 97, rfl⟩
abbrev main_call2_v0 : Ref sig .tc := ⟨.hbm, 98, rfl⟩
abbrev main_v65 : Ref sig .tc := ⟨.hbm, 99, rfl⟩
abbrev main_cst_10 : Ref sig .tc := ⟨.hbm, 100, rfl⟩
abbrev main_v66 : Ref sig .tc := ⟨.hbm, 101, rfl⟩
abbrev main_v67 : Ref sig .tc := ⟨.hbm, 102, rfl⟩
abbrev main_cst_11 : Ref sig .tc := ⟨.hbm, 103, rfl⟩
abbrev main_v68 : Ref sig .tc := ⟨.hbm, 104, rfl⟩
abbrev main_v69 : Ref sig .tc := ⟨.hbm, 105, rfl⟩
abbrev main_c_12 : Ref sig .tc := ⟨.hbm, 106, rfl⟩
abbrev main_call3_cst : Ref sig .tc := ⟨.hbm, 107, rfl⟩
abbrev main_call3_v0 : Ref sig .tc := ⟨.hbm, 108, rfl⟩
abbrev main_call3_v1 : Ref sig .tc := ⟨.hbm, 109, rfl⟩
abbrev main_call3_cst_0 : Ref sig .tc := ⟨.hbm, 110, rfl⟩
abbrev main_call3_v2 : Ref sig .tc := ⟨.hbm, 111, rfl⟩
abbrev main_call3_v3 : Ref sig .tc := ⟨.hbm, 112, rfl⟩
abbrev main_call3_v4 : Ref sig .tc := ⟨.hbm, 113, rfl⟩
abbrev main_call3_v5 : Ref sig .tc := ⟨.hbm, 114, rfl⟩
abbrev main_call3_v6 : Ref sig .tc := ⟨.hbm, 115, rfl⟩
abbrev main_call3_v7 : Ref sig .tc := ⟨.hbm, 116, rfl⟩
abbrev main_call3_cst_1 : Ref sig .tc := ⟨.hbm, 117, rfl⟩
abbrev main_call3_v8 : Ref sig .tc := ⟨.hbm, 118, rfl⟩
abbrev main_call3_cst_2 : Ref sig .tc := ⟨.hbm, 119, rfl⟩
abbrev main_call3_v9 : Ref sig .tc := ⟨.hbm, 120, rfl⟩
abbrev main_call3_v10 : Ref sig .tc := ⟨.hbm, 121, rfl⟩
abbrev main_call3_v11 : Ref sig .tc := ⟨.hbm, 122, rfl⟩
abbrev main_call3_v12 : Ref sig .tc := ⟨.hbm, 123, rfl⟩
abbrev main_call3_cst_3 : Ref sig .tc := ⟨.hbm, 124, rfl⟩
abbrev main_call3_v13 : Ref sig .tc := ⟨.hbm, 125, rfl⟩
abbrev main_call3_cst_4 : Ref sig .tc := ⟨.hbm, 126, rfl⟩
abbrev main_call3_call0_v0 : Ref sig .tc := ⟨.hbm, 127, rfl⟩
abbrev main_call3_call0_v1 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_cst_13 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S200000x128 : S_.BroadcastsInDim S200000x128 (![] : Fin 0 → Fin S200000x128.rank)
  bcast_S_S1000000x1 : S_.BroadcastsInDim S1000000x1 (![] : Fin 0 → Fin S1000000x1.rank)
  bcast_S_S200000x1 : S_.BroadcastsInDim S200000x1 (![] : Fin 0 → Fin S200000x1.rank)
  bcast_S200000x1_S200000x128_0_1 : S200000x1.BroadcastsInDim S200000x128 (![0, 1] : Fin 2 → Fin S200000x128.rank)
  concatenates_S200000x128_S200000x64_S200000x192_d1 : Shape.Concatenates [S200000x128, S200000x64] S200000x192 1
  transposes_S128x192_S192x128_1_0 : S128x192.Transposes [1, 0] S192x128
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  transposes_S128x128_S128x128_1_0 : S128x128.Transposes [1, 0] S128x128
  bcast_S_S100000x128 : S_.BroadcastsInDim S100000x128 (![] : Fin 0 → Fin S100000x128.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  gather_S100000x128_S1000000x1_S1000000x128_1_0_n_n_0_1_1128_wf : GatherDims.WF S100000x128 S1000000x1 S1000000x128 [1] [0] [] [0] [] 1 ![1, 128]
  scatter_S200000x128_S1000000x1_S1000000x128_1_0_0_1_wf : ScatterDims.WF S200000x128 S1000000x1 S1000000x128 [1] [0] [0] 1
  scatter_S200000x1_S1000000x1_S1000000x1_1_0_0_1_wf : ScatterDims.WF S200000x1 S1000000x1 S1000000x1 [1] [0] [0] 1
  dot_S200000x192_S192x128_S200000x128_1_0_0_1_n_n_wf : DotDims.WF S200000x192 S192x128 S200000x128 [1] [0] [0] [1] [] []
  dot_S200000x128_S128x128_S200000x128_1_0_0_1_n_n_wf : DotDims.WF S200000x128 S128x128 S200000x128 [1] [0] [0] [1] [] []
  gather_S200000x128_S1000000x1_S1000000x128_1_0_n_n_0_1_1128_wf : GatherDims.WF S200000x128 S1000000x1 S1000000x128 [1] [0] [] [0] [] 1 ![1, 128]
  scatter_S100000x128_S1000000x1_S1000000x128_1_0_0_1_wf : ScatterDims.WF S100000x128 S1000000x1 S1000000x128 [1] [0] [0] 1
  scatter_S100000x1_S1000000x1_S1000000x1_1_0_0_1_wf : ScatterDims.WF S100000x1 S1000000x1 S1000000x1 [1] [0] [0] 1
  dot_S100000x128_S128x128_S100000x128_1_0_0_1_n_n_wf : DotDims.WF S100000x128 S128x128 S100000x128 [1] [0] [0] [1] [] []

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S200000x128_S1000000x1_S1000000x128_1_0_0_1 : ScatterDims S200000x128 S1000000x1 S1000000x128 where
  updateWindowDims := [1]
  insertedWindowDims := [0]
  scatterDimsToOperandDims := [0]
  indexVectorDim := 1
  wf := scatter_S200000x128_S1000000x1_S1000000x128_1_0_0_1_wf
def scatter_S200000x1_S1000000x1_S1000000x1_1_0_0_1 : ScatterDims S200000x1 S1000000x1 S1000000x1 where
  updateWindowDims := [1]
  insertedWindowDims := [0]
  scatterDimsToOperandDims := [0]
  indexVectorDim := 1
  wf := scatter_S200000x1_S1000000x1_S1000000x1_1_0_0_1_wf
def dot_S200000x192_S192x128_S200000x128_1_0_0_1_n_n : DotDims S200000x192 S192x128 S200000x128 where
  lhsContracting := [1]
  rhsContracting := [0]
  lhsNonContracting := [0]
  rhsNonContracting := [1]
  lhsBatch := []
  rhsBatch := []
  wf := dot_S200000x192_S192x128_S200000x128_1_0_0_1_n_n_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def gather_S200000x128_S1000000x1_S1000000x128_1_0_n_n_0_1_1128 : GatherDims S200000x128 S1000000x1 S1000000x128 where
  offsetDims := [1]
  collapsedSliceDims := [0]
  operandBatchingDims := []
  startIndicesBatchingDims := []
  startIndexMap := [0]
  indexVectorDim := 1
  sliceSizes := ![1, 128]
  wf := gather_S200000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000x1_S1000000x1_S1000000x1_1_0_0_1 : ScatterDims S100000x1 S1000000x1 S1000000x1 where
  updateWindowDims := [1]
  insertedWindowDims := [0]
  scatterDimsToOperandDims := [0]
  indexVectorDim := 1
  wf := scatter_S100000x1_S1000000x1_S1000000x1_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelHost.lean ====
/-
  The contents the two kernel regions find and leave, read back through @main's host operations to the
  launch memory.

  Before region 0 the host gathers node rows, segment-sums them per hyperedge and divides by the clamped
  counts (the mean of member features), and lays the weights out for the kernel: the two column blocks of
  the first edge weight transposed, the second edge weight transposed, the biases as one row.  Between the
  regions it gathers the edge messages, segment-sums them per node and divides (the mean incident
  message), and transposes / reshapes the node weights.  No host operation writes an argument.
-/
import proofs.«175380_j12695923327692_1_alg».proof.Proof.KernelRun
import Idealize.ShloMosaic.Lib.StableHlo.Run

set_option maxRecDepth 16384

noncomputable section

namespace Cert.KernelIdeal.HostValue

open Idealize.ShloMosaic Idealize.ShloMosaic.TcCoe Idealize.SL.Sem Idealize.ShloMosaic.StableHlo
open Cert.KernelIdeal Cert.KernelIdeal.Gen Cert.KernelIdeal.GenP

variable {F : FTy → Type} [FloatOps F]
variable (m : (ℓ : Loc nD τ sig) → Buf (Elt F) ℓ) (ρ : Dev nD → PrngReg)

/-- Mean of the gathered node rows per hyperedge, as @main's first host stretch computes it. -/
def enmK (x : FVec F S100000x128 .f32) (fg res : IVec S1000000 32) : FVec F S200000x128 .f32 :=
  Host.divf
    (Host.scatterAdd scatter_S200000x128_S1000000x1_S1000000x128_1_0_0_1
      (broadcastInDim S200000x128 ![] bcast_S_S200000x128 (constant S_ .f32 0x00000000#32))
      (broadcastInDim S1000000x1 ![0] bcast_S1000000_S1000000x1_0 res)
      (Host.gather gather_S100000x128_S1000000x1_S1000000x128_1_0_n_n_0_1_1128 x
        (broadcastInDim S1000000x1 ![0] bcast_S1000000_S1000000x1_0
          (select (cmpi .slt fg (broadcastInDim S1000000 ![] bcast_S_S1000000 (constantI S_ 32 0#32)))
            (addi fg (broadcastInDim S1000000 ![] bcast_S_S1000000 (constantI S_ 32 100000#32))) fg))))
    (broadcastInDim S200000x128 ![0, 1] bcast_S200000x1_S200000x128_0_1
      (maximumf
        (Host.scatterAdd scatter_S200000x1_S1000000x1_S1000000x1_1_0_0_1
          (broadcastInDim S200000x1 ![] bcast_S_S200000x1 (constant S_ .f32 0x00000000#32))
          (broadcastInDim S1000000x1 ![0] bcast_S1000000_S1000000x1_0 res)
          (broadcastInDim S1000000x1 ![] bcast_S_S1000000x1 (constant S_ .f32 0x3F800000#32)))
        (broadcastInDim S200000x1 ![] bcast_S_S200000x1 (constant S_ .f32 0x3F800000#32))))

/-- Mean of the gathered edge messages per node, as @main's second host stretch computes it. -/
def nmK (em : FVec F S200000x128 .f32) (fg res : IVec S1000000 32) : FVec F S100000x128 .f32 :=
  Host.divf
    (Host.scatterAdd scatter_S100000x128_S1000000x1_S1000000x128_1_0_0_1
      (broadcastInDim S100000x128 ![] bcast_S_S100000x128 (constant S_ .f32 0x00000000#32))
      (broadcastInDim S1000000x1 ![0] bcast_S1000000_S1000000x1_0 fg)
      (Host.gather gather_S200000x128_S1000000x1_S1000000x128_1_0_n_n_0_1_1128 em
        (broadcastInDim S1000000x1 ![0] bcast_S1000000_S1000000x1_0
          (select (cmpi .slt res (broadcastInDim S1000000 ![] bcast_S_S1000000 (constantI S_ 32 0#32)))
            (addi res (broadcastInDim S1000000 ![] bcast_S_S1000000 (constantI S_ 32 200000#32))) res))))
    (broadcastInDim S100000x128 ![0, 1] bcast_S100000x1_S100000x128_0_1
      (maximumf
        (Host.scatterAdd scatter_S100000x1_S1000000x1_S1000000x1_1_0_0_1
          (broadcastInDim S100000x1 ![] bcast_S_S100000x1 (constant S_ .f32 0x00000000#32))
          (broadcastInDim S1000000x1 ![0] bcast_S1000000_S1000000x1_0 fg)
          (broadcastInDim S1000000x1 ![] bcast_S_S1000000x1 (constant S_ .f32 0x3F800000#32)))
        (broadcastInDim S100000x1 ![] bcast_S_S100000x1 (constant S_ .f32 0x3F800000#32))))

/-! ## Region 0's entry: the first host stretch over the launch memory -/

theorem W1_v17 (c : Dev nD) : W1 m ρ c (Proc.devRef .tc main_v17) =
    enmK (m ((c : Thread nD τ).loc main_arg0)) (m ((c : Thread nD τ).loc main_arg14)) (m ((c : Thread nD τ).loc main_arg15)) := by
  show StableHlo.after hostOps0 (W0 m ρ c) (Proc.devRef .tc main_v17) = _
  after_results_simp <;> rfl
theorem W1_v20 (c : Dev nD) : W1 m ρ c (Proc.devRef .tc main_v20) =
    transpose S128x128 [1, 0] (extractStridedSlice S128x128 ![0, 0] (m ((c : Thread nD τ).loc main_arg4)) slices_S128x192_S128x128_0_0) transposes_S128x128_S128x128_1_0 := by
  show StableHlo.after hostOps0 (W0 m ρ c) (Proc.devRef .tc main_v20) = _
  after_results_simp <;> rfl
theorem W1_v21 (c : Dev nD) : W1 m ρ c (Proc.devRef .tc main_v21) =
    transpose S64x128 [1, 0] (extractStridedSlice S128x64 ![0, 128] (m ((c : Thread nD τ).loc main_arg4)) slices_S128x192_S128x64_0_128) transposes_S128x64_S64x128_1_0 := by
  show StableHlo.after hostOps0 (W0 m ρ c) (Proc.devRef .tc main_v21) = _
  after_results_simp <;> rfl
theorem W1_v22 (c : Dev nD) : W1 m ρ c (Proc.devRef .tc main_v22) =
    transpose S128x128 [1, 0] (m ((c : Thread nD τ).loc main_arg6)) transposes_S128x128_S128x128_1_0 := by
  show StableHlo.after hostOps0 (W0 m ρ c) (Proc.devRef .tc main_v22) = _
  after_results_simp <;> rfl
theorem W1_v23 (c : Dev nD) : W1 m ρ c (Proc.devRef .tc main_v23) =
    shapeCast S1x128 (m ((c : Thread nD τ).loc main_arg5)) shapeCasts_S128_S1x128 := by
  show StableHlo.after hostOps0 (W0 m ρ c) (Proc.devRef .tc main_v23) = _
  after_results_simp <;> rfl
theorem W1_v24 (c : Dev nD) : W1 m ρ c (Proc.devRef .tc main_v24) =
    shapeCast S1x128 (m ((c : Thread nD τ).loc main_arg7)) shapeCasts_S128_S1x128 := by
  show StableHlo.after hostOps0 (W0 m ρ c) (Proc.devRef .tc main_v24) = _
  after_results_simp <;> rfl
theorem W1_arg0 (c : Dev nD) : W1 m ρ c (Proc.devRef .tc main_arg0) =
    (m ((c : Thread nD τ).loc main_arg0)) := by
  show StableHlo.after hostOps0 (W0 m ρ c) (Proc.devRef .tc main_arg0) = _
  after_results_simp <;> rfl
theorem W1_arg1 (c : Dev nD) : W1 m ρ c (Proc.devRef .tc main_arg1) =
    (m ((c : Thread nD τ).loc main_arg1)) := by
  show StableHlo.after hostOps0 (W0 m ρ c) (Proc.devRef .tc main_arg1) = _
  after_results_simp <;> rfl
theorem W1_arg2 (c : Dev nD) : W1 m ρ c (Proc.devRef .tc main_arg2) =
    (m ((c : Thread nD τ).loc main_arg2)) := by
  show StableHlo.after hostOps0 (W0 m ρ c) (Proc.devRef .tc main_arg2) = _
  after_results_simp <;> rfl
theorem W1_arg3 (c : Dev nD) : W1 m ρ c (Proc.devRef .tc main_arg3) =
    (m ((c : Thread nD τ).loc main_arg3)) := by
  show StableHlo.after hostOps0 (W0 m ρ c) (Proc.devRef .tc main_arg3) = _
  after_results_simp <;> rfl
theorem W1_arg8 (c : Dev nD) : W1 m ρ c (Proc.devRef .tc main_arg8) =
    (m ((c : Thread nD τ).loc main_arg8)) := by
  show StableHlo.after hostOps0 (W0 m ρ c) (Proc.devRef .tc main_arg8) = _
  after_results_simp <;> rfl
theorem W1_arg9 (c : Dev nD) : W1 m ρ c (Proc.devRef .tc main_arg9) =
    (m ((c : Thread nD τ).loc main_arg9)) := by
  show StableHlo.after hostOps0 (W0 m ρ c) (Proc.devRef .tc main_arg9) = _
  after_results_simp <;> rfl
theorem W1_arg10 (c : Dev nD) : W1 m ρ c (Proc.devRef .tc main_arg10) =
    (m ((c : Thread nD τ).loc main_arg10)) := by
  show StableHlo.after hostOps0 (W0 m ρ c) (Proc.devRef .tc main_arg10) = _
  after_results_simp <;> rfl
theorem W1_arg11 (c : Dev nD) : W1 m ρ c (Proc.devRef .tc main_arg11) =
    (m ((c : Thread nD τ).loc main_arg11)) := by
  show StableHlo.after hostOps0 (W0 m ρ c) (Proc.devRef .tc main_arg11) = _
  after_results_simp <;> rfl
theorem W1_arg12 (c : Dev nD) : W1 m ρ c (Proc.devRef .tc main_arg12) =
    (m ((c : Thread nD τ).loc main_arg12)) := by
  show StableHlo.after hostOps0 (W0 m ρ c) (Proc.devRef .tc main_arg12) = _
  after_results_simp <;> rfl
theorem W1_arg13 (c : Dev nD) : W1 m ρ c (Proc.devRef .tc main_arg13) =
    (m ((c : Thread nD τ).loc main_arg13)) := by
  show StableHlo.after hostOps0 (W0 m ρ c) (Proc.devRef .tc main_arg13) = _
  after_results_simp <;> rfl
theorem W1_arg14 (c : Dev nD) : W1 m ρ c (Proc.devRef .tc main_arg14) =
    (m ((c : Thread nD τ).loc main_arg14)) := by
  show StableHlo.after hostOps0 (W0 m ρ c) (Proc.devRef .tc main_arg14) = _
  after_results_simp <;> rfl
theorem W1_arg15 (c : Dev nD) : W1 m ρ c (Proc.devRef .tc main_arg15) =
    (m ((c : Thread nD τ).loc main_arg15)) := by
  show StableHlo.after hostOps0 (W0 m ρ c) (Proc.devRef .tc main_arg15) = _
  after_results_simp <;> rfl

/-! ## Region 0's exit: its result array is what the write-backs leave, everything else as entered -/

theorem W2_v25 (c : Dev nD) : W2 m ρ c (Proc.devRef .tc main_v25) = (dat0 (V1 m ρ) c).arrAt 7 cfg0.N :=
  W2_arr m ρ c 7
theorem W2_arg0 (c : Dev nD) : W2 m ρ c (Proc.devRef .tc main_arg0) = (m ((c : Thread nD τ).loc main_arg0)) :=
  (W2_of_ne m ρ c main_arg0 (by decide)).trans (W1_arg0 m ρ c)
theorem W2_arg2 (c : Dev nD) : W2 m ρ c (Proc.devRef .tc main_arg2) = (m ((c : Thread nD τ).loc main_arg2)) :=
  (W2_of_ne m ρ c main_arg2 (by decide)).trans (W1_arg2 m ρ c)
theorem W2_arg3 (c : Dev nD) : W2 m ρ c (Proc.devRef .tc main_arg3) = (m ((c : Thread nD τ).loc main_arg3)) :=
  (W2_of_ne m ρ c main_arg3 (by decide)).trans (W1_arg3 m ρ c)
theorem W2_arg8 (c : Dev nD) : W2 m ρ c (Proc.devRef .tc main_arg8) = (m ((c : Thread nD τ).loc main_arg8)) :=
  (W2_of_ne m ρ c main_arg8 (by decide)).trans (W1_arg8 m ρ c)
theorem W2_arg9 (c : Dev nD) : W2 m ρ c (Proc.devRef .tc main_arg9) = (m ((c : Thread nD τ).loc main_arg9)) :=
  (W2_of_ne m ρ c main_arg9 (by decide)).trans (W1_arg9 m ρ c)
theorem W2_arg10 (c : Dev nD) : W2 m ρ c (Proc.devRef .tc main_arg10) = (m ((c : Thread nD τ).loc main_arg10)) :=
  (W2_of_ne m ρ c main_arg10 (by decide)).trans (W1_arg10 m ρ c)
theorem W2_arg11 (c : Dev nD) : W2 m ρ c (Proc.devRef .tc main_arg11) = (m ((c : Thread nD τ).loc main_arg11)) :=
  (W2_of_ne m ρ c main_arg11 (by decide)).trans (W1_arg11 m ρ c)
theorem W2_arg12 (c : Dev nD) : W2 m ρ c (Proc.devRef .tc main_arg12) = (m ((c : Thread nD τ).loc main_arg12)) :=
  (W2_of_ne m ρ c main_arg12 (by decide)).trans (W1_arg12 m ρ c)
theorem W2_arg13 (c : Dev nD) : W2 m ρ c (Proc.devRef .tc main_arg13) = (m ((c : Thread nD τ).loc main_arg13)) :=
  (W2_of_ne m ρ c main_arg13 (by decide)).trans (W1_arg13 m ρ c)
theorem W2_arg14 (c : Dev nD) : W2 m ρ c (Proc.devRef .tc main_arg14) = (m ((c : Thread nD τ).loc main_arg14)) :=
  (W2_of_ne m ρ c main_arg14 (by decide)).trans (W1_arg14 m ρ c)
theorem W2_arg15 (c : Dev nD) : W2 m ρ c (Proc.devRef .tc main_arg15) = (m ((c : Thread nD τ).loc main_arg15)) :=
  (W2_of_ne m ρ c main_arg15 (by decide)).trans (W1_arg15 m ρ c)

/-! ## Region 1's entry: the second host stretch over region 0's exit -/

theorem W3_v43 (c : Dev nD) : W3 m ρ c (Proc.devRef .tc main_v43) =
    nmK (W2 m ρ c (Proc.devRef .tc main_v25)) (W2 m ρ c (Proc.devRef .tc main_arg14)) (W2 m ρ c (Proc.devRef .tc main_arg15)) := by
  show StableHlo.after hostOps1 (W2 m ρ c) (Proc.devRef .tc main_v43) = _
  after_results_simp <;> rfl
theorem W3_arg0 (c : Dev nD) : W3 m ρ c (Proc.devRef .tc main_arg0) =
    W2 m ρ c (Proc.devRef .tc main_arg0) := by
  show StableHlo.after hostOps1 (W2 m ρ c) (Proc.devRef .tc main_arg0) = _
  after_results_simp <;> rfl
theorem W3_v44 (c : Dev nD) : W3 m ρ c (Proc.devRef .tc main_v44) =
    transpose S128x128 [1, 0] (W2 m ρ c (Proc.devRef .tc main_arg2)) transposes_S128x128_S128x128_1_0 := by
  show StableHlo.after hostOps1 (W2 m ρ c) (Proc.devRef .tc main_v44) = _
  after_results_simp <;> rfl
theorem W3_v45 (c : Dev nD) : W3 m ρ c (Proc.devRef .tc main_v45) =
    transpose S128x128 [1, 0] (W2 m ρ c (Proc.devRef .tc main_arg8)) transposes_S128x128_S128x128_1_0 := by
  show StableHlo.after hostOps1 (W2 m ρ c) (Proc.devRef .tc main_v45) = _
  after_results_simp <;> rfl
theorem W3_v46 (c : Dev nD) : W3 m ρ c (Proc.devRef .tc main_v46) =
    transpose S128x128 [1, 0] (W2 m ρ c (Proc.devRef .tc main_arg10)) transposes_S128x128_S128x128_1_0 := by
  show StableHlo.after hostOps1 (W2 m ρ c) (Proc.devRef .tc main_v46) = _
  after_results_simp <;> rfl
theorem W3_v47 (c : Dev nD) : W3 m ρ c (Proc.devRef .tc main_v47) =
    shapeCast S1x128 (W2 m ρ c (Proc.devRef .tc main_arg3)) shapeCasts_S128_S1x128 := by
  show StableHlo.after hostOps1 (W2 m ρ c) (Proc.devRef .tc main_v47) = _
  after_results_simp <;> rfl
theorem W3_v48 (c : Dev nD) : W3 m ρ c (Proc.devRef .tc main_v48) =
    shapeCast S1x128 (W2 m ρ c (Proc.devRef .tc main_arg9)) shapeCasts_S128_S1x128 := by
  show StableHlo.after hostOps1 (W2 m ρ c) (Proc.devRef .tc main_v48) = _
  after_results_simp <;> rfl
theorem W3_v49 (c : Dev nD) : W3 m ρ c (Proc.devRef .tc main_v49) =
    shapeCast S1x128 (W2 m ρ c (Proc.devRef .tc main_arg11)) shapeCasts_S128_S1x128 := by
  show StableHlo.after hostOps1 (W2 m ρ c) (Proc.devRef .tc main_v49) = _
  after_results_simp <;> rfl
theorem W3_v50 (c : Dev nD) : W3 m ρ c (Proc.devRef .tc main_v50) =
    shapeCast S1x128 (W2 m ρ c (Proc.devRef .tc main_arg12)) shapeCasts_S128_S1x128 := by
  show StableHlo.after hostOps1 (W2 m ρ c) (Proc.devRef .tc main_v50) = _
  after_results_simp <;> rfl
theorem W3_v51 (c : Dev nD) : W3 m ρ c (Proc.devRef .tc main_v51) =
    shapeCast S1x128 (W2 m ρ c (Proc.devRef .tc main_arg13)) shapeCasts_S128_S1x128 := by
  show StableHlo.after hostOps1 (W2 m ρ c) (Proc.devRef .tc main_v51) = _
  after_results_simp <;> rfl

/-! ## Region 1's exit: the program's result array is what region 1's write-backs leave -/

theorem W4_v52 (c : Dev nD) : W4 m ρ c (Proc.devRef .tc main_v52) = (dat1 (V3 m ρ) c).arrAt 10 cfg1.N :=
  W4_arr m ρ c 10

end Cert.KernelIdeal.HostValue

end
-- ==== Proof.Spec.lean ====
/-
  The two kernels' results as whole-array functions over the extended reals, in the operand layout the
  kernels receive (weights already transposed to [in, out], biases as one row).

  Both kernels work row by row.  For a hyperedge row with mean member features `a` (128 entries) and edge
  attributes `b` (64 entries) the edge message is
      msg j = (∑ k, max ((∑ t, a t · w1a t k) + (∑ t, b t · w1b t k) + b1 k) 0 · w2 k j) + b2 j,
  and for a node row with features `x` and mean incident message `n`
      z j   = max (((∑ t, x t · wp t j) + bp j) + ((∑ k, max ((∑ t, n t · wn1 t k) + bn1 k) 0 · wn2 k j) + bn2 j)) 0,
      μ     = (∑ j, z j) / 128,      zc j = z j − μ,      var = (∑ j, zc j · zc j) / 128,
      out j = zc j · rsqrt (var + ε) · γ j + β j.
  Float literals stay as their bit patterns: the same pattern stands on both sides of every equation below.
-/
import Idealize.ShloMosaic.PureOps.Ideal
import Idealize.ShloMosaic.Lib.ValueIdx

noncomputable section

namespace Cert.Spec

open Idealize.ShloMosaic Idealize.ShloMosaic.ValueIdx

/-- The float zero, the divisor 128 and the LayerNorm ε, as the bit patterns both programs print. -/
abbrev Z : EReal := Ideal.ofBits .f32 0x00000000#32
abbrev C128 : EReal := Ideal.ofBits .f32 0x43000000#32
abbrev EPS : EReal := Ideal.ofBits .f32 0x3727C5AC#32

/-- A rank-two array of extended reals. -/
abbrev Arr (m n : Nat) : Type := FVec Ideal (⟨2, ![m, n]⟩ : Shape) .f32

/-- One row of the edge MLP: two partial products summed (the concatenation never built), bias, ReLU,
    second linear layer. -/
def edgeRow (a : Fin 128 → EReal) (b : Fin 64 → EReal) (w1a : Fin 128 → Fin 128 → EReal)
    (w1b : Fin 64 → Fin 128 → EReal) (b1 : Fin 128 → EReal) (w2 : Fin 128 → Fin 128 → EReal)
    (b2 : Fin 128 → EReal) (j : Fin 128) : EReal :=
  (∑ k : Fin 128, max (((∑ t : Fin 128, a t * w1a t k) + (∑ t : Fin 64, b t * w1b t k)) + b1 k) Z * w2 k j) + b2 j

/-- The pre-normalisation activations of one node row. -/
def nodeAct (x n : Fin 128 → EReal) (wp : Fin 128 → Fin 128 → EReal) (bp : Fin 128 → EReal)
    (wn1 : Fin 128 → Fin 128 → EReal) (bn1 : Fin 128 → EReal) (wn2 : Fin 128 → Fin 128 → EReal)
    (bn2 : Fin 128 → EReal) (j : Fin 128) : EReal :=
  max (((∑ t : Fin 128, x t * wp t j) + bp j)
        + ((∑ k : Fin 128, max ((∑ t : Fin 128, n t * wn1 t k) + bn1 k) Z * wn2 k j) + bn2 j)) Z

/-- LayerNorm of one row of activations `z`, with scale `g` and shift `be`. -/
def layerNormRow (z g be : Fin 128 → EReal) (j : Fin 128) : EReal :=
  (z j - Ideal.div (∑ q : Fin 128, z q) C128)
    * Ideal.rsqrt (Ideal.div (∑ q : Fin 128, (z q - Ideal.div (∑ q' : Fin 128, z q') C128) * (z q - Ideal.div (∑ q' : Fin 128, z q') C128)) C128 + EPS)
    * g j + be j

/-- One row of the node update. -/
def nodeRow (x n : Fin 128 → EReal) (wp : Fin 128 → Fin 128 → EReal) (bp : Fin 128 → EReal)
    (wn1 : Fin 128 → Fin 128 → EReal) (bn1 : Fin 128 → EReal) (wn2 : Fin 128 → Fin 128 → EReal)
    (bn2 g be : Fin 128 → EReal) (j : Fin 128) : EReal :=
  layerNormRow (nodeAct x n wp bp wn1 bn1 wn2 bn2) g be j

/-- The edge kernel's whole result: row `r` of the output from row `r` of the two row-blocked operands. -/
def edgeK (enm : Arr 200000 128) (ea : Arr 200000 64) (w1a : Arr 128 128) (w1b : Arr 64 128) (b1 : Arr 1 128)
    (w2 : Arr 128 128) (b2 : Arr 1 128) : Arr 200000 128 := fun i =>
  edgeRow (fun t => enm (ix2 (n0 := 200000) (i 0) t)) (fun t => ea (ix2 (n0 := 200000) (i 0) t))
    (fun t k => w1a (ix2 t k)) (fun t k => w1b (ix2 t k)) (fun k => b1 (ix2 (0 : Fin 1) k))
    (fun k j => w2 (ix2 k j)) (fun j => b2 (ix2 (0 : Fin 1) j)) (i 1)

/-- The node kernel's whole result. -/
def nodeK (x nm : Arr 100000 128) (wp : Arr 128 128) (bp : Arr 1 128) (wn1 : Arr 128 128) (bn1 : Arr 1 128)
    (wn2 : Arr 128 128) (bn2 g be : Arr 1 128) : Arr 100000 128 := fun i =>
  nodeRow (fun t => x (ix2 (n0 := 100000) (i 0) t)) (fun t => nm (ix2 (n0 := 100000) (i 0) t))
    (fun t j => wp (ix2 t j)) (fun j => bp (ix2 (0 : Fin 1) j))
    (fun t k => wn1 (ix2 t k)) (fun k => bn1 (ix2 (0 : Fin 1) k))
    (fun k j => wn2 (ix2 k j)) (fun j => bn2 (ix2 (0 : Fin 1) j))
    (fun j => g (ix2 (0 : Fin 1) j)) (fun j => be (ix2 (0 : Fin 1) j)) (i 1)

end Cert.Spec

end
-- ==== Proof.KernelValue.lean ====
/-
  The kernel program's result array as one function of the sixteen arguments: the node kernel's whole
  result over the mean incident message, which is the second host stretch applied to the edge kernel's
  whole result, which in turn is taken over the mean member features the first host stretch computes.
-/
import proofs.«175380_j12695923327692_1_alg».proof.Proof.KernelHost
import proofs.«175380_j12695923327692_1_alg».proof.Proof.Spec

set_option maxRecDepth 16384

noncomputable section

namespace Cert.KernelIdeal.HostValue

open Idealize.ShloMosaic Idealize.ShloMosaic.TcCoe Idealize.SL.Sem Idealize.ShloMosaic.StableHlo
open Cert.KernelIdeal Cert.KernelIdeal.Gen Cert.KernelIdeal.GenP

variable (m : (ℓ : Loc nD τ sig) → Buf (Elt Ideal) ℓ) (ρ : Dev nD → PrngReg)

/-- The program's result as a function of the launch memory's argument arrays. -/
def kOut (c : Dev nD) : FVec Ideal S100000x128 .f32 :=
    Cert.Spec.nodeK (m ((c : Thread nD τ).loc main_arg0))
      (nmK
        (Cert.Spec.edgeK (enmK (m ((c : Thread nD τ).loc main_arg0)) (m ((c : Thread nD τ).loc main_arg14)) (m ((c : Thread nD τ).loc main_arg15))) (m ((c : Thread nD τ).loc main_arg1))
          (transpose S128x128 [1, 0] (extractStridedSlice S128x128 ![0, 0] (m ((c : Thread nD τ).loc main_arg4)) slices_S128x192_S128x128_0_0) transposes_S128x128_S128x128_1_0)
          (transpose S64x128 [1, 0] (extractStridedSlice S128x64 ![0, 128] (m ((c : Thread nD τ).loc main_arg4)) slices_S128x192_S128x64_0_128) transposes_S128x64_S64x128_1_0)
          (shapeCast S1x128 (m ((c : Thread nD τ).loc main_arg5)) shapeCasts_S128_S1x128) (transpose S128x128 [1, 0] (m ((c : Thread nD τ).loc main_arg6)) transposes_S128x128_S128x128_1_0) (shapeCast S1x128 (m ((c : Thread nD τ).loc main_arg7)) shapeCasts_S128_S1x128))
        (m ((c : Thread nD τ).loc main_arg14)) (m ((c : Thread nD τ).loc main_arg15)))
      (transpose S128x128 [1, 0] (m ((c : Thread nD τ).loc main_arg2)) transposes_S128x128_S128x128_1_0) (shapeCast S1x128 (m ((c : Thread nD τ).loc main_arg3)) shapeCasts_S128_S1x128) (transpose S128x128 [1, 0] (m ((c : Thread nD τ).loc main_arg8)) transposes_S128x128_S128x128_1_0) (shapeCast S1x128 (m ((c : Thread nD τ).loc main_arg9)) shapeCasts_S128_S1x128) (transpose S128x128 [1, 0] (m ((c : Thread nD τ).loc main_arg10)) transposes_S128x128_S128x128_1_0) (shapeCast S1x128 (m ((c : Thread nD τ).loc main_arg11)) shapeCasts_S128_S1x128) (shapeCast S1x128 (m ((c : Thread nD τ).loc main_arg12)) shapeCasts_S128_S1x128) (shapeCast S1x128 (m ((c : Thread nD τ).loc main_arg13)) shapeCasts_S128_S1x128)

/-- Given what each region leaves in its result array as a function of the arrays it finds, the last
    boundary's contents at the result buffer are `kOut`. -/
theorem W4_v52_eq
    (hE : ∀ (V : (c : Dev nD) → (b : Ref sig .tc) → Buf (Elt Ideal) ((c : Thread nD τ).loc b)) (c : Dev nD),
      (dat0 (F := Ideal) V c).arrAt 7 cfg0.N =
        Cert.Spec.edgeK (V c main_v17) (V c main_arg1) (V c main_v20) (V c main_v21) (V c main_v23) (V c main_v22) (V c main_v24))
    (hN : ∀ (V : (c : Dev nD) → (b : Ref sig .tc) → Buf (Elt Ideal) ((c : Thread nD τ).loc b)) (c : Dev nD),
      (dat1 (F := Ideal) V c).arrAt 10 cfg1.N =
        Cert.Spec.nodeK (V c main_arg0) (V c main_v43) (V c main_v44) (V c main_v47) (V c main_v45) (V c main_v48)
          (V c main_v46) (V c main_v49) (V c main_v50) (V c main_v51))
    (c : Dev nD) : W4 m ρ c (Proc.devRef .tc main_v52) = kOut m c := by
  rw [W4_v52, hN (V3 m ρ) c]
  show Cert.Spec.nodeK (W3 m ρ c (Proc.devRef .tc main_arg0)) (W3 m ρ c (Proc.devRef .tc main_v43))
    (W3 m ρ c (Proc.devRef .tc main_v44)) (W3 m ρ c (Proc.devRef .tc main_v47)) (W3 m ρ c (Proc.devRef .tc main_v45))
    (W3 m ρ c (Proc.devRef .tc main_v48)) (W3 m ρ c (Proc.devRef .tc main_v46)) (W3 m ρ c (Proc.devRef .tc main_v49))
    (W3 m ρ c (Proc.devRef .tc main_v50)) (W3 m ρ c (Proc.devRef .tc main_v51)) = _
  rw [W3_arg0, W3_v43, W3_v44, W3_v47, W3_v45, W3_v48, W3_v46, W3_v49, W3_v50, W3_v51,
    W2_arg0, W2_arg2, W2_arg3, W2_arg8, W2_arg9, W2_arg10, W2_arg11, W2_arg12, W2_arg13, W2_arg14, W2_arg15,
    W2_v25, hE (V1 m ρ) c]
  show Cert.Spec.nodeK _ (nmK (Cert.Spec.edgeK (W1 m ρ c (Proc.devRef .tc main_v17)) (W1 m ρ c (Proc.devRef .tc main_arg1))
    (W1 m ρ c (Proc.devRef .tc main_v20)) (W1 m ρ c (Proc.devRef .tc main_v21)) (W1 m ρ c (Proc.devRef .tc main_v23))
    (W1 m ρ c (Proc.devRef .tc main_v22)) (W1 m ρ c (Proc.devRef .tc main_v24))) _ _) _ _ _ _ _ _ _ _ = _
  rw [W1_v17, W1_arg1, W1_v20, W1_v21, W1_v23, W1_v22, W1_v24]
  rfl

end Cert.KernelIdeal.HostValue

end
-- ==== Proof.LibPlainDot.lean ====
/-
  A plain matrix product's contraction, read through coordinates.

  For dimension numbers that contract the left operand's second axis with the right operand's first,
  with no batch axes — the product of an [M, K] array with a [K, N] array — the contraction index is a
  single coordinate `k < K`, the left operand is read at (row of the output, k) and the right operand
  at (k, column of the output).  The sum over the contraction shape is therefore the familiar
  `∑ k, l (i, k) · r (k, j)`, whatever the record's name and whatever M, K and N are.
-/
import Idealize.ShloMosaic.PureOps.Ideal.Laws
import Idealize.ShloMosaic.Lib.ValueIdx

noncomputable section

namespace Cert.LibPlainDot

open Idealize.ShloMosaic Idealize.ShloMosaic.ValueIdx

variable {M K N : Nat} (d : DotDims (⟨2, ![M, K]⟩ : Shape) (⟨2, ![K, N]⟩ : Shape) (⟨2, ![M, N]⟩ : Shape))

/-- The left operand's row is the output's row. -/
theorem lhs_row (hb : d.lhsBatch = []) (hn : d.lhsNonContracting = [0]) (j : (⟨2, ![M, N]⟩ : Shape).Idx)
    (k : d.contr.Idx) : (d.lhsIdx j k 0).val = (j 0).val := by
  unfold DotDims.lhsIdx
  have h1 : (0 : Fin (⟨2, ![M, K]⟩ : Shape).rank) ∉ d.lhsBatch := by rw [hb]; exact List.not_mem_nil
  have h2 : (0 : Fin (⟨2, ![M, K]⟩ : Shape).rank) ∈ d.lhsNonContracting := by rw [hn]; exact List.mem_singleton.mpr rfl
  rw [dif_neg h1, dif_pos h2]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq h => by subst h; rfl
  exact key _ _ _ _ (by simp [hb, hn])

/-- The right operand's column is the output's column. -/
theorem rhs_col (hlb : d.lhsBatch = []) (hln : d.lhsNonContracting = [0]) (hb : d.rhsBatch = []) (hn : d.rhsNonContracting = [1])
    (j : (⟨2, ![M, N]⟩ : Shape).Idx) (k : d.contr.Idx) : (d.rhsIdx j k 1).val = (j 1).val := by
  unfold DotDims.rhsIdx
  have h1 : (1 : Fin (⟨2, ![K, N]⟩ : Shape).rank) ∉ d.rhsBatch := by rw [hb]; exact List.not_mem_nil
  have h2 : (1 : Fin (⟨2, ![K, N]⟩ : Shape).rank) ∈ d.rhsNonContracting := by rw [hn]; exact List.mem_singleton.mpr rfl
  rw [dif_neg h1, dif_pos h2]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq h => by subst h; rfl
  exact key _ _ _ _ (by simp [hlb, hln, hn])

/-- The contraction shape has one axis. -/
theorem contr_rank (hc : d.lhsContracting = [1]) : d.contr.rank = 1 := by rw [d.rank_contr, hc]; rfl

/-- Its extent is the shared dimension `K`. -/
theorem contr_size (hc : d.lhsContracting = [1]) :
    d.contr.size ⟨0, by rw [contr_rank d hc]; exact Nat.one_pos⟩ = K := by
  have h := d.size_contr 0 (by rw [hc]; exact Nat.one_pos)
  rw [h]
  simp [hc]

/-- The sum over the contraction shape is the sum over `k < K` of the left operand at (row, k) times the
    right operand at (k, column). -/
theorem sum_eq (hlc : d.lhsContracting = [1]) (hrc : d.rhsContracting = [0]) (hlb : d.lhsBatch = [])
    (hln : d.lhsNonContracting = [0]) (hrb : d.rhsBatch = []) (hrn : d.rhsNonContracting = [1])
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  rw [← Equiv.sum_comp (contrEquiv1 d K (contr_rank d hlc) (contr_size d hlc)).symm]
  refine Finset.sum_congr rfl fun k _ => ?_
  have hl : d.lhsIdx j ((contrEquiv1 d K (contr_rank d hlc) (contr_size d hlc)).symm k) = ix2 (j 0) k := by
    funext a
    apply Fin.ext
    match a with
    | ⟨0, _⟩ => exact lhs_row d hlb hln j _
    | ⟨1, _⟩ => exact (d.lhsIdx_val_of_single hlc j _).trans (contrEquiv1_symm_val d K _ _ k)
  have hr : d.rhsIdx j ((contrEquiv1 d K (contr_rank d hlc) (contr_size d hlc)).symm k) = ix2 k (j 1) := by
    funext a
    apply Fin.ext
    match a with
    | ⟨0, _⟩ => exact (d.rhsIdx_val_of_single hrc j _).trans (contrEquiv1_symm_val d K _ _ k)
    | ⟨1, _⟩ => exact rhs_col d hlb hln hrb hrn j _
  exact congrArg₂ (· * ·) (congrArg l hl) (congrArg r hr)

/-- A block product into a zero accumulator, at an output index: `∑ k, l (i, k) · r (k, j)`. -/
theorem matmul_zero_apply (hlc : d.lhsContracting = [1]) (hrc : d.rhsContracting = [0]) (hlb : d.lhsBatch = [])
    (hln : d.lhsNonContracting = [0]) (hrb : d.rhsBatch = []) (hrn : d.rhsNonContracting = [1])
    {φ₁ φ₂ : FTy} (prec : Option ContractPrecision)
    (l : FVec Ideal (⟨2, ![M, K]⟩ : Shape) φ₁) (r : FVec Ideal (⟨2, ![K, N]⟩ : Shape) φ₂) (j : (⟨2, ![M, N]⟩ : Shape).Idx) :
    matmul d prec l r (constant (⟨2, ![M, N]⟩ : Shape) .f32 0x00000000#32) j = ∑ k : Fin K, l (ix2 (j 0) k) * r (ix2 k (j 1)) :=
  (Ideal.matmul_constant_zero_apply d prec l r j).trans (sum_eq d hlc hrc hlb hln hrb hrn l r j)

/-- The host's general dot of the same dimension numbers, at an output index: the same sum. -/
theorem dotGeneral_apply (hlc : d.lhsContracting = [1]) (hrc : d.rhsContracting = [0]) (hlb : d.lhsBatch = [])
    (hln : d.lhsNonContracting = [0]) (hrb : d.rhsBatch = []) (hrn : d.rhsNonContracting = [1])
    {φ₁ φ₂ : FTy} (prec : Option ContractPrecision)
    (l : FVec Ideal (⟨2, ![M, K]⟩ : Shape) φ₁) (r : FVec Ideal (⟨2, ![K, N]⟩ : Shape) φ₂) (j : (⟨2, ![M, N]⟩ : Shape).Idx) :
    Host.dotGeneral d prec l r j = ∑ k : Fin K, l (ix2 (j 0) k) * r (ix2 k (j 1)) :=
  (Ideal.dotGeneral_apply d prec _ l r j).trans (sum_eq d hlc hrc hlb hln hrb hrn l r j)

end Cert.LibPlainDot

end
-- ==== Proof.EdgeValue.lean ====
/-
  The edge kernel's region: its result array is the edge function of the arrays the region finds.

  Three steps.
  (1) One stored block, entry by entry.  The body loads one block of each operand, forms the two partial
      products of the first linear layer, adds the bias row, clamps at zero, applies the second linear layer
      and adds its bias row.  Over the extended reals the narrowing casts and the same-shape reshapes are
      identities, each product into a zero accumulator is the plain sum over the shared dimension, and a
      one-row operand broadcast over the rows reads its single row.  So entry (p, q) of the stored block is
      the edge message of row p of the two row-blocked operands, at column q.
  (2) The blocks at grid point t.  The two row-blocked operands and the result sit at row block t (rows
      5000 t … 5000 t + 4999, all columns); the weights and bias rows are whole at every point.  Hence what
      point t writes back is block t of the whole-array edge function.
  (3) The forty row blocks cover the 200000 rows: row r lies in block r / 5000.
-/
import proofs.«175380_j12695923327692_1_alg».proof.Proof.KIFrame
import proofs.«175380_j12695923327692_1_alg».proof.Proof.Spec
import proofs.«175380_j12695923327692_1_alg».proof.Proof.LibPlainDot
import Idealize.ShloMosaic.Lib.ValueIdx
import Idealize.ShloMosaic.Lib.ValueLayout
import Idealize.ShloMosaic.Lib.Pipeline.Value
import Mathlib.Algebra.BigOperators.Group.Finset.Basic

noncomputable section
namespace Cert.KernelIdeal.EdgeValue
open Idealize.ShloMosaic Idealize.ShloMosaic.TcCoe Idealize.ShloMosaic.ValueIdx Idealize.SL.Sem
open Cert.KernelIdeal Cert.KernelIdeal.Gen Cert.KernelIdeal.GenP

/-! ## One stored block, entry by entry -/

/-- The [5000,128]·[128,128] product into a zero accumulator, at (p, q). -/
theorem mm128_apply {φ₁ φ₂ : FTy} (l : FVec Ideal S5000x128 φ₁) (r : FVec Ideal S128x128 φ₂) (p : Fin 5000) (q : Fin 128) :
    matmul dot_S5000x128_S128x128_S5000x128_1_0_0_1_n_n none l r (constant (F := Ideal) S5000x128 .f32 0x00000000#32) (ix2 p q) =
      ∑ k : Fin 128, l (ix2 p k) * r (ix2 k q) :=
  Cert.LibPlainDot.matmul_zero_apply dot_S5000x128_S128x128_S5000x128_1_0_0_1_n_n rfl rfl rfl rfl rfl rfl none l r (ix2 p q)

/-- The [5000,64]·[64,128] product into a zero accumulator, at (p, q). -/
theorem mm64_apply {φ₁ φ₂ : FTy} (l : FVec Ideal S5000x64 φ₁) (r : FVec Ideal S64x128 φ₂) (p : Fin 5000) (q : Fin 128) :
    matmul dot_S5000x64_S64x128_S5000x128_1_0_0_1_n_n none l r (constant (F := Ideal) S5000x128 .f32 0x00000000#32) (ix2 p q) =
      ∑ k : Fin 64, l (ix2 p k) * r (ix2 k q) :=
  Cert.LibPlainDot.matmul_zero_apply dot_S5000x64_S64x128_S5000x128_1_0_0_1_n_n rfl rfl rfl rfl rfl rfl none l r (ix2 p q)

/-- Entry (p, q) of the value the body stores is the edge message of row p at column q. -/
theorem pay_apply (x0 : Vec Ideal S5000x128 .f32) (x1 : Vec Ideal S5000x64 .f32) (x2 x5 : Vec Ideal S128x128 .f32)
    (x3 : Vec Ideal S64x128 .f32) (x4 x6 : Vec Ideal S1x128 .f32) (p : Fin 5000) (q : Fin 128) :
    k0_pay1 (F := Ideal) x0 x1 x2 x3 x4 x5 x6 (ix2 p q) =
      Cert.Spec.edgeRow (fun t => x0 (ix2 p t)) (fun t => x1 (ix2 p t)) (fun t k => x2 (ix2 t k))
        (fun t k => x3 (ix2 t k)) (fun k => x4 (ix2 0 k)) (fun k j => x5 (ix2 k j)) (fun j => x6 (ix2 0 j)) q := by
  unfold k0_pay1 Cert.Spec.edgeRow
  simp only [shapeCast_self]
  rw [addf_apply, mm128_apply, broadcastTo_1b_ab_apply]
  refine congrArg (· + x6 (ix2 0 q)) (Finset.sum_congr rfl fun k _ => ?_)
  rw [truncf_apply, truncf_apply, maximumf_apply, addf_apply, addf_apply, mm128_apply, mm64_apply, broadcastTo_1b_ab_apply,
    broadcast_apply]
  simp only [truncf_apply]
  rfl

/-! ## The blocks at a grid point -/

/-- The all-zero offset vector, as a constant function. -/
theorem hz : (![0, 0] : Fin 2 → Nat) = fun _ => 0 := funext fun a => by fin_cases a <;> rfl

/-- The printed block-index maps over the forty grid points: the two row-blocked operands and the result sit
    at row block `t`, column block 0; the five weight and bias operands always at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Row `p` of the first operand's block at point `t` is row `5000 t + p` of its array. -/
theorem iblk_row0 (V : (c : Dev nD) → (b : Ref sig .tc) → Buf (Elt Ideal) ((c : Thread nD τ).loc b)) (c : Dev nD)
    (t : Fin cfg0.N) (p : Fin 5000) (k : Fin 128) (r : Fin 200000) (hr : r.val = 5000 * t.val + p.val) :
    (iblk0 V c 0 t : Vec Ideal S5000x128 .f32) (ix2 p k) = (V c main_v17 : S200000x128.Idx → EReal) (ix2 r k) := by
  obtain ⟨e0, e1, -⟩ := idx_facts t
  unfold iblk0
  rw [View.read_apply]
  show V c main_v17 _ = V c main_v17 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- Row `p` of the second operand's block at point `t` is row `5000 t + p` of its array. -/
theorem iblk_row1 (V : (c : Dev nD) → (b : Ref sig .tc) → Buf (Elt Ideal) ((c : Thread nD τ).loc b)) (c : Dev nD)
    (t : Fin cfg0.N) (p : Fin 5000) (k : Fin 64) (r : Fin 200000) (hr : r.val = 5000 * t.val + p.val) :
    (iblk0 V c 1 t : Vec Ideal S5000x64 .f32) (ix2 p k) = (V c main_arg1 : S200000x64.Idx → EReal) (ix2 r k) := by
  obtain ⟨-, -, e0, e1, -⟩ := idx_facts t
  unfold iblk0
  rw [View.read_apply]
  show V c main_arg1 _ = V c main_arg1 _
  congr 1
  funext a
  apply Fin.ext
  match a with
  | ⟨0, _⟩ => show win0_1.index t (0 : Fin 2) * 5000 + 1 * p.val = r.val; rw [e0, hr]; omega
  | ⟨1, _⟩ => show win0_1.index t (1 : Fin 2) * 64 + 1 * k.val = k.val; rw [e1]; omega

/-- The first weight operand's block is its whole array at every point. -/
theorem iblk_whole2 (V : (c : Dev nD) → (b : Ref sig .tc) → Buf (Elt Ideal) ((c : Thread nD τ).loc b)) (c : Dev nD)
    (t : Fin cfg0.N) (a : Fin 128) (b : Fin 128) :
    (iblk0 V c 2 t : Vec Ideal S128x128 .f32) (ix2 a b) = (V c main_v20 : S128x128.Idx → EReal) (ix2 a b) := by
  have e := idx_facts t
  unfold iblk0
  rw [View.read_apply]
  show V c main_v20 _ = V c main_v20 _
  congr 1
  funext x
  apply Fin.ext
  match x with
  | ⟨0, _⟩ => show win0_2.index t (0 : Fin 2) * 128 + 1 * a.val = a.val; omega
  | ⟨1, _⟩ => show win0_2.index t (1 : Fin 2) * 128 + 1 * b.val = b.val; omega

/-- The second weight operand's block is its whole array at every point. -/
theorem iblk_whole3 (V : (c : Dev nD) → (b : Ref sig .tc) → Buf (Elt Ideal) ((c : Thread nD τ).loc b)) (c : Dev nD)
    (t : Fin cfg0.N) (a : Fin 64) (b : Fin 128) :
    (iblk0 V c 3 t : Vec Ideal S64x128 .f32) (ix2 a b) = (V c main_v21 : S64x128.Idx → EReal) (ix2 a b) := by
  have e := idx_facts t
  unfold iblk0
  rw [View.read_apply]
  show V c main_v21 _ = V c main_v21 _
  congr 1
  funext x
  apply Fin.ext
  match x with
  | ⟨0, _⟩ => show win0_3.index t (0 : Fin 2) * 64 + 1 * a.val = a.val; omega
  | ⟨1, _⟩ => show win0_3.index t (1 : Fin 2) * 128 + 1 * b.val = b.val; omega

/-- The first bias row's block is its whole array at every point. -/
theorem iblk_whole4 (V : (c : Dev nD) → (b : Ref sig .tc) → Buf (Elt Ideal) ((c : Thread nD τ).loc b)) (c : Dev nD)
    (t : Fin cfg0.N) (a : Fin 1) (b : Fin 128) :
    (iblk0 V c 4 t : Vec Ideal S1x128 .f32) (ix2 a b) = (V c main_v23 : S1x128.Idx → EReal) (ix2 a b) := by
  have e := idx_facts t
  unfold iblk0
  rw [View.read_apply]
  show V c main_v23 _ = V c main_v23 _
  congr 1
  funext x
  apply Fin.ext
  match x with
  | ⟨0, _⟩ => show win0_4.index t (0 : Fin 2) * 1 + 1 * a.val = a.val; omega
  | ⟨1, _⟩ => show win0_4.index t (1 : Fin 2) * 128 + 1 * b.val = b.val; omega

/-- The third weight operand's block is its whole array at every point. -/
theorem iblk_whole5 (V : (c : Dev nD) → (b : Ref sig .tc) → Buf (Elt Ideal) ((c : Thread nD τ).loc b)) (c : Dev nD)
    (t : Fin cfg0.N) (a : Fin 128) (b : Fin 128) :
    (iblk0 V c 5 t : Vec Ideal S128x128 .f32) (ix2 a b) = (V c main_v22 : S128x128.Idx → EReal) (ix2 a b) := by
  have e := idx_facts t
  unfold iblk0
  rw [View.read_apply]
  show V c main_v22 _ = V c main_v22 _
  congr 1
  funext x
  apply Fin.ext
  match x with
  | ⟨0, _⟩ => show win0_5.index t (0 : Fin 2) * 128 + 1 * a.val = a.val; omega
  | ⟨1, _⟩ => show win0_5.index t (1 : Fin 2) * 128 + 1 * b.val = b.val; omega

/-- The second bias row's block is its whole array at every point. -/
theorem iblk_whole6 (V : (c : Dev nD) → (b : Ref sig .tc) → Buf (Elt Ideal) ((c : Thread nD τ).loc b)) (c : Dev nD)
    (t : Fin cfg0.N) (a : Fin 1) (b : Fin 128) :
    (iblk0 V c 6 t : Vec Ideal S1x128 .f32) (ix2 a b) = (V c main_v24 : S1x128.Idx → EReal) (ix2 a b) := by
  have e := idx_facts t
  unfold iblk0
  rw [View.read_apply]
  show V c main_v24 _ = V c main_v24 _
  congr 1
  funext x
  apply Fin.ext
  match x with
  | ⟨0, _⟩ => show win0_6.index t (0 : Fin 2) * 1 + 1 * a.val = a.val; omega
  | ⟨1, _⟩ => show win0_6.index t (1 : Fin 2) * 128 + 1 * b.val = b.val; omega

/-! ## What a point writes back, the cover, the array -/

/-- The region's result as a whole-array function of the arrays it finds. -/
abbrev G (V : (c : Dev nD) → (b : Ref sig .tc) → Buf (Elt Ideal) ((c : Thread nD τ).loc b)) (c : Dev nD) : S200000x128.Idx → EReal :=
  Cert.Spec.edgeK (V c main_v17) (V c main_arg1) (V c main_v20) (V c main_v21) (V c main_v23) (V c main_v22) (V c main_v24)

/-- What point `t` writes back is block `t` of the whole-array function. -/
theorem flushed_eq (V : (c : Dev nD) → (b : Ref sig .tc) → Buf (Elt Ideal) ((c : Thread nD τ).loc b)) (c : Dev nD) (t : Fin cfg0.N) :
    (dat0 (F := Ideal) V c).flushed 7 t = ((cfg0.win 7).blk t).view.read (Elt Ideal) (G V c) := by
  show (cfg0.win 7).cut (grid0.coords t) ((dat0 V c).after 7 t) = _
  rw [after0_7]
  unfold out0_7
  rw [View.canon_unit_zero hz]
  simp only [View.ld_unit_zero (S := S5000x128) hz, View.ld_unit_zero (S := S5000x64) hz, View.ld_unit_zero (S := S128x128) hz,
    View.ld_unit_zero (S := S64x128) hz, View.ld_unit_zero (S := S1x128) hz]
  have ht : t.val < 40 := lt_of_lt_of_eq t.isLt N_0
  obtain ⟨-, -, -, -, -, -, -, -, -, -, -, -, -, -, e0, e1⟩ := idx_facts t
  have key : ∀ j : S5000x128.Idx,
      k0_pay1 (F := Ideal) (iblk0 V c 0 t) (iblk0 V c 1 t) (iblk0 V c 2 t) (iblk0 V c 3 t) (iblk0 V c 4 t) (iblk0 V c 5 t) (iblk0 V c 6 t) j
        = G V c (((cfg0.win 7).blk t).view.emb j) := by
    intro j
    obtain ⟨p, q, rfl⟩ : ∃ (p : Fin 5000) (q : Fin 128), j = ix2 p q := ⟨j 0, j 1, eq_ix2 j⟩
    have hp : p.val < 5000 := p.isLt
    have hemb : ((cfg0.win 7).blk t).view.emb (ix2 p q) = (ix2 (⟨5000 * t.val + p.val, by omega⟩ : Fin 200000) q : S200000x128.Idx) := by
      funext a
      apply Fin.ext
      match a with
      | ⟨0, _⟩ => show win0_7.index t (0 : Fin 2) * 5000 + 1 * p.val = 5000 * t.val + p.val; rw [e0]; omega
      | ⟨1, _⟩ => show win0_7.index t (1 : Fin 2) * 128 + 1 * q.val = q.val; rw [e1]; omega
    rw [hemb, pay_apply]
    show Cert.Spec.edgeRow _ _ _ _ _ _ _ q = Cert.Spec.edgeRow _ _ _ _ _ _ _ q
    congr 1
    · funext k; exact iblk_row0 V c t p k _ rfl
    · funext k; exact iblk_row1 V c t p k _ rfl
    · funext a b; exact iblk_whole2 V c t a b
    · funext a b; exact iblk_whole3 V c t a b
    · funext b; exact iblk_whole4 V c t 0 b
    · funext a b; exact iblk_whole5 V c t a b
    · funext b; exact iblk_whole6 V c t 0 b
  exact funext key

/-- An index of the result array is in point `t`'s block iff each coordinate is in the block's range on its axis. -/
theorem mem_blk (t : Fin cfg0.N) (i : S200000x128.Idx) :
    i ∈ ((cfg0.win 7).blk t).view.set ↔
      ∀ a : Fin 2, win0_7.index t a * S5000x128.size a ≤ (i a).val ∧ (i a).val < win0_7.index t a * S5000x128.size a + S5000x128.size a := by
  show i ∈ ((View.whole main_v25).slice (win0_7.rect t)).set ↔ _
  rw [View.set_slice_whole, Rect.mem_set_unit]
  exact Iff.rfl

/-- Every index of the result array lies in the block of the point its row selects: row `r` in block `r / 5000`. -/
theorem covered (i : S200000x128.Idx) :
    ∃ t : Fin cfg0.N, (cfg0.win 7).flush t = true ∧ i ∈ ((cfg0.win 7).blk t).view.set := by
  have hi0 : (i 0).val < 200000 := (i 0).isLt
  have hi1 : (i 1).val < 128 := (i 1).isLt
  have hN : cfg0.N = 40 := N_0
  have ht : (i 0).val / 5000 < cfg0.N := by rw [hN]; omega
  refine ⟨⟨(i 0).val / 5000, ht⟩, flush0_7 _, ?_⟩
  rw [mem_blk]
  obtain ⟨-, -, -, -, -, -, -, -, -, -, -, -, -, -, e0, e1⟩ := idx_facts ⟨(i 0).val / 5000, ht⟩
  intro a
  match a with
  | ⟨0, _⟩ =>
    show win0_7.index ⟨(i 0).val / 5000, ht⟩ (0 : Fin 2) * 5000 ≤ (i 0).val
      ∧ (i 0).val < win0_7.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win0_7.index ⟨(i 0).val / 5000, ht⟩ (1 : Fin 2) * 128 ≤ (i 1).val
      ∧ (i 1).val < win0_7.index ⟨(i 0).val / 5000, ht⟩ (1 : Fin 2) * 128 + 128
    rw [e1]
    omega

/-- The region's result array is the edge function of the arrays the region finds: every point writes back its
    block of that function, and the forty blocks cover the array. -/
theorem edge_arrAt (V : (c : Dev nD) → (b : Ref sig .tc) → Buf (Elt Ideal) ((c : Thread nD τ).loc b)) (c : Dev nD) :
    (dat0 (F := Ideal) V c).arrAt 7 cfg0.N =
      Cert.Spec.edgeK (V c main_v17) (V c main_arg1) (V c main_v20) (V c main_v21) (V c main_v23) (V c main_v22) (V c main_v24) :=
  (dat0 (F := Ideal) V c).arrAt_eq_of_cover 7 (G V c) (fun t _ => flushed_eq V c t) covered

end Cert.KernelIdeal.EdgeValue
end
-- ==== Proof.NodeValue.lean ====
/-
  The node kernel's result array, read off the frame's proof data: after the twenty grid points the result
  array is `Cert.Spec.nodeK` of the arrays the region finds.

  On one block of 5000 rows the body computes, entry by entry over the extended reals,
    * the activations  z (p, j) = max ((x·wp + bp) (p, j) + (max (n·wn1 + bn1) 0 · wn2 + bn2) (p, j)) 0:
      three block products into a zero accumulator, each `∑ k, l (p, k) · r (k, j)`; rounding to the narrower
      float format and a cast to the same shape are the identity over the extended reals; a bias row is
      broadcast over the rows;
    * the column of row sums  s (p, 0) = ∑ j, z (p, j)  (a sum over the second axis kept as a [5000, 1] column);
    * LayerNorm of z with those sums: the mean s / 128 broadcast back over its row, the centred values, the
      row sum of their squares over 128 plus ε, its reciprocal square root, the scale row and the shift row.
  The float literals 0, 128 and ε stay as bit patterns: they are the specification's constants by definition.

  From blocks to the array: grid point t reads rows 5000 t … 5000 t + 4999 of the two row-blocked operands and
  the eight parameter arrays whole (the index maps, decided over the 20 points), so what it writes back is block
  t of `nodeK`; every point writes back, and row r of the result lies in the block of point r / 5000.
-/
import proofs.«175380_j12695923327692_1_alg».proof.Proof.KIFrame
import proofs.«175380_j12695923327692_1_alg».proof.Proof.Spec
import proofs.«175380_j12695923327692_1_alg».proof.Proof.LibPlainDot
import Idealize.ShloMosaic.Lib.Pipeline.Value
import Idealize.ShloMosaic.Lib.ValueLayout
import Idealize.ShloMosaic.PureOps.Ideal.Laws

noncomputable section
namespace Cert.KernelIdeal.NodeValue
open Idealize.ShloMosaic Idealize.ShloMosaic.TcCoe Idealize.ShloMosaic.ValueIdx Idealize.SL.Sem
open Cert.KernelIdeal Cert.KernelIdeal.Gen Cert.KernelIdeal.GenP

/-- An `[a]` array cast to `[a, 1]` reads, at `(p, u)`, the operand at `p`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, q)`, the column's entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A block product into a zero accumulator at row `p`, column `q`: the row of the left operand against the column of the right. -/
theorem matmul_at {φ₁ φ₂ : FTy} (l : FVec Ideal S5000x128 φ₁) (r : FVec Ideal S128x128 φ₂) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) :=
  Cert.LibPlainDot.matmul_zero_apply (M := 5000) (K := 128) (N := 128) dot_S5000x128_S128x128_S5000x128_1_0_0_1_n_n rfl rfl rfl rfl rfl rfl none l r (ix2 p q)

/-- The activations at row `p`, column `q` of a block: the specification's `nodeAct` of the block's rows `p` and the
    parameter arrays. -/
theorem act_apply (x0 x1 : Vec Ideal S5000x128 .f32) (x2 : Vec Ideal S128x128 .f32) (x3 : Vec Ideal S1x128 .f32)
    (x4 : Vec Ideal S128x128 .f32) (x5 : Vec Ideal S1x128 .f32) (x6 : Vec Ideal S128x128 .f32) (x7 : Vec Ideal S1x128 .f32)
    (p : Fin 5000) (q : Fin 128) :
    k1_pay2 (F := Ideal) x0 x1 x2 x3 x4 x5 x6 x7 (ix2 p q) =
      Cert.Spec.nodeAct (fun t => x0 (ix2 p t)) (fun t => x1 (ix2 p t)) (fun t j => x2 (ix2 t j)) (fun j => x3 (ix2 (0 : Fin 1) j))
        (fun t k => x4 (ix2 t k)) (fun k => x5 (ix2 (0 : Fin 1) k)) (fun k j => x6 (ix2 k j)) (fun j => x7 (ix2 (0 : Fin 1) j)) q := by
  unfold k1_pay2 Cert.Spec.nodeAct
  dsimp only
  simp only [shapeCast_self]
  simp only [maximumf_apply, addf_apply, broadcast_apply, matmul_at, truncf_apply, broadcastTo_1b_ab_apply]
  rfl

/-- A row sum kept as a column: at `(p, u)` it is the sum of row `p`. -/
theorem rowSum_apply (z : FVec Ideal S5000x128 .f32) (hφ : FTy.f32 = FTy.f32 ∨ FTy.f32 = FTy.bf16)
    (hacc : (0x00000000#32 : BitVec 32) = 0x00000000#32) (p : Fin 5000) (u : Fin 1) :
    shapeCast S5000x1 (multiReduction (F := Ideal) .add [1] S5000 z 0x00000000#32 reduces_S5000x128_S5000 hφ hacc)
        shapeCasts_S5000_S5000x1 (ix2 p u) = ∑ q : Fin 128, z (ix2 p q) := by
  refine (shapeCast_a_a1_apply _ shapeCasts_S5000_S5000x1 p u).trans ?_
  refine (Ideal.multiReduction_add_single z 0x00000000#32 reduces_S5000x128_S5000 hφ hacc (ix1 p)).trans ?_
  show ∑ k : Fin 128, z (reduces_S5000x128_S5000.lift (ix1 p) k) = _
  refine Finset.sum_congr rfl fun k _ => congrArg z ?_
  funext a
  apply Fin.ext
  match a with
  | ⟨0, _⟩ => rfl
  | ⟨1, _⟩ => rfl

/-- The column of row sums the first part hands on is the row sums of the activations. -/
theorem actSum_apply (x0 x1 : Vec Ideal S5000x128 .f32) (x2 : Vec Ideal S128x128 .f32) (x3 : Vec Ideal S1x128 .f32)
    (x4 : Vec Ideal S128x128 .f32) (x5 : Vec Ideal S1x128 .f32) (x6 : Vec Ideal S128x128 .f32) (x7 : Vec Ideal S1x128 .f32)
    (p : Fin 5000) (u : Fin 1) :
    k1_pay3 (F := Ideal) x0 x1 x2 x3 x4 x5 x6 x7 (ix2 p u) = ∑ q : Fin 128, k1_pay2 (F := Ideal) x0 x1 x2 x3 x4 x5 x6 x7 (ix2 p q) := by
  unfold k1_pay3
  exact rowSum_apply _ _ _ p u

/-- The reciprocal square root of a vector, read at an index. -/
theorem rsqrt_apply {s : Shape} {φ : FTy} (a : FVec Ideal s φ) (i : s.Idx) : rsqrt a i = Ideal.rsqrt (a i) := rfl

/-- The stored value at row `p`, column `q`, for ANY activations `z` and any column `s` that holds row `p`'s sum of `z`:
    the specification's LayerNorm of row `p` of `z` with the scale row `g` and the shift row `b`. -/
theorem layerNorm_apply (z : FVec Ideal S5000x128 .f32) (s : FVec Ideal S5000x1 .f32) (g b : Vec Ideal S1x128 .f32)
    (p : Fin 5000) (q : Fin 128) (hs : s (ix2 p (0 : Fin 1)) = ∑ t : Fin 128, z (ix2 p t)) :
    k1_pay1 (F := Ideal) z s g b (ix2 p q) =
      Cert.Spec.layerNormRow (fun t => z (ix2 p t)) (fun j => g (ix2 (0 : Fin 1) j)) (fun j => b (ix2 (0 : Fin 1) j)) q := by
  unfold k1_pay1 Cert.Spec.layerNormRow
  dsimp only
  simp only [shapeCast_self]
  simp only [subf_apply, mulf_apply, addf_apply, divf_apply, broadcast_apply, broadcastTo_a1_ab_apply, broadcastTo_1b_ab_apply, rsqrt_apply, hs]
  rw [rowSum_apply]
  simp only [subf_apply, mulf_apply, divf_apply, broadcast_apply, broadcastTo_a1_ab_apply, hs]
  rfl

/-- The zero offsets of a whole-buffer access. -/
theorem hz : (![0, 0] : Fin 2 → Nat) = fun _ => 0 :=
  funext fun a => by match a with | ⟨0, _⟩ => rfl | ⟨1, _⟩ => rfl

/-- What the body leaves in the result window's buffer, at row `p`, column `q`: its one store covers the buffer, its
    loads read whole buffers, and the payload is LayerNorm of the activations with their own row sums. -/
theorem out_apply (x0 x1 : Vec Ideal S5000x128 .f32) (x2 : Vec Ideal S128x128 .f32) (x3 : Vec Ideal S1x128 .f32)
    (x4 : Vec Ideal S128x128 .f32) (x5 : Vec Ideal S1x128 .f32) (x6 : Vec Ideal S128x128 .f32) (x7 x8 x9 : Vec Ideal S1x128 .f32)
    (p : Fin 5000) (q : Fin 128) :
    out1_10 (F := Ideal) x0 x1 x2 x3 x4 x5 x6 x7 x8 x9 (ix2 p q) =
      Cert.Spec.nodeRow (fun t => x0 (ix2 p t)) (fun t => x1 (ix2 p t)) (fun t j => x2 (ix2 t j)) (fun j => x3 (ix2 (0 : Fin 1) j))
        (fun t k => x4 (ix2 t k)) (fun k => x5 (ix2 (0 : Fin 1) k)) (fun k j => x6 (ix2 k j)) (fun j => x7 (ix2 (0 : Fin 1) j))
        (fun j => x8 (ix2 (0 : Fin 1) j)) (fun j => x9 (ix2 (0 : Fin 1) j)) q := by
  unfold out1_10
  rw [View.canon_unit_zero hz]
  simp only [View.ld_unit_zero (S := S5000x128) hz, View.ld_unit_zero (S := S128x128) hz, View.ld_unit_zero (S := S1x128) hz]
  unfold Cert.Spec.nodeRow
  refine (layerNorm_apply _ _ x8 x9 p q (actSum_apply x0 x1 x2 x3 x4 x5 x6 x7 p 0)).trans ?_
  exact congrArg (fun z => Cert.Spec.layerNormRow z _ _ q) (funext fun t => act_apply x0 x1 x2 x3 x4 x5 x6 x7 p t)

/-- The row-blocked windows (the two operands and the result) sit at block row `t`, block column 0, at point `t`. -/
theorem idx_rows : ∀ t : Fin cfg1.N,
    win1_0.index t (0 : Fin 2) = t.val ∧ win1_0.index t (1 : Fin 2) = 0
    ∧ win1_1.index t (0 : Fin 2) = t.val ∧ win1_1.index t (1 : Fin 2) = 0
    ∧ win1_10.index t (0 : Fin 2) = t.val ∧ win1_10.index t (1 : Fin 2) = 0 :=
  (by decide +kernel : ∀ t : Fin grid1.N, _)

/-- The eight parameter windows sit at block (0, 0) at every point. -/
theorem idx_whole : ∀ t : Fin cfg1.N,
    win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0 :=
  (by decide +kernel : ∀ t : Fin grid1.N, _)

/-- Window 0's block at point `t` is rows `5000 t … 5000 t + 4999` of its array. -/
theorem rows0_apply (V : (c : Dev nD) → (b : Ref sig .tc) → Buf (Elt Ideal) ((c : Thread nD τ).loc b)) (c : Dev nD) (t : Fin cfg1.N) (p : Fin 5000) (q : Fin 128)
    (r : Fin 100000) (hr : r.val = 5000 * t.val + p.val) :
    (iblk1 (F := Ideal) V c 0 t : Vec Ideal S5000x128 .f32) (ix2 p q) = (V c main_arg0 : Vec Ideal S100000x128 .f32) (ix2 r q) := by
  have h0 : win1_0.index t (0 : Fin 2) = t.val := (idx_rows t).1
  have h1 : win1_0.index t (1 : Fin 2) = 0 := (idx_rows t).2.1
  unfold iblk1
  rw [View.read_apply]
  show V c main_arg0 _ = V c main_arg0 _
  congr 1
  funext a
  apply Fin.ext
  match a with
  | ⟨0, _⟩ => show win1_0.index t (0 : Fin 2) * 5000 + 1 * p.val = r.val; rw [h0, hr]; omega
  | ⟨1, _⟩ => show win1_0.index t (1 : Fin 2) * 128 + 1 * q.val = q.val; rw [h1]; omega

/-- Window 1's block at point `t` is rows `5000 t … 5000 t + 4999` of its array. -/
theorem rows1_apply (V : (c : Dev nD) → (b : Ref sig .tc) → Buf (Elt Ideal) ((c : Thread nD τ).loc b)) (c : Dev nD) (t : Fin cfg1.N) (p : Fin 5000) (q : Fin 128)
    (r : Fin 100000) (hr : r.val = 5000 * t.val + p.val) :
    (iblk1 (F := Ideal) V c 1 t : Vec Ideal S5000x128 .f32) (ix2 p q) = (V c main_v43 : Vec Ideal S100000x128 .f32) (ix2 r q) := by
  have h0 : win1_1.index t (0 : Fin 2) = t.val := (idx_rows t).2.2.1
  have h1 : win1_1.index t (1 : Fin 2) = 0 := (idx_rows t).2.2.2.1
  unfold iblk1
  rw [View.read_apply]
  show V c main_v43 _ = V c main_v43 _
  congr 1
  funext a
  apply Fin.ext
  match a with
  | ⟨0, _⟩ => show win1_1.index t (0 : Fin 2) * 5000 + 1 * p.val = r.val; rw [h0, hr]; omega
  | ⟨1, _⟩ => show win1_1.index t (1 : Fin 2) * 128 + 1 * q.val = q.val; rw [h1]; omega

/-- Window 2 holds its whole array at every point. -/
theorem whole2_apply (V : (c : Dev nD) → (b : Ref sig .tc) → Buf (Elt Ideal) ((c : Thread nD τ).loc b)) (c : Dev nD) (t : Fin cfg1.N) (a : Fin 128) (b : Fin 128) :
    (iblk1 (F := Ideal) V c 2 t : Vec Ideal S128x128 .f32) (ix2 a b) = (V c main_v44 : Vec Ideal S128x128 .f32) (ix2 a b) := by
  have h0 : win1_2.index t (0 : Fin 2) = 0 := (idx_whole t).1
  have h1 : win1_2.index t (1 : Fin 2) = 0 := (idx_whole t).2.1
  unfold iblk1
  rw [View.read_apply]
  show V c main_v44 _ = V c main_v44 _
  congr 1
  funext x
  apply Fin.ext
  match x with
  | ⟨0, _⟩ => show win1_2.index t (0 : Fin 2) * 128 + 1 * a.val = a.val; rw [h0]; omega
  | ⟨1, _⟩ => show win1_2.index t (1 : Fin 2) * 128 + 1 * b.val = b.val; rw [h1]; omega

/-- Window 3 holds its whole array at every point. -/
theorem whole3_apply (V : (c : Dev nD) → (b : Ref sig .tc) → Buf (Elt Ideal) ((c : Thread nD τ).loc b)) (c : Dev nD) (t : Fin cfg1.N) (a : Fin 1) (b : Fin 128) :
    (iblk1 (F := Ideal) V c 3 t : Vec Ideal S1x128 .f32) (ix2 a b) = (V c main_v47 : Vec Ideal S1x128 .f32) (ix2 a b) := by
  have h0 : win1_3.index t (0 : Fin 2) = 0 := (idx_whole t).2.2.1
  have h1 : win1_3.index t (1 : Fin 2) = 0 := (idx_whole t).2.2.2.1
  unfold iblk1
  rw [View.read_apply]
  show V c main_v47 _ = V c main_v47 _
  congr 1
  funext x
  apply Fin.ext
  match x with
  | ⟨0, _⟩ => show win1_3.index t (0 : Fin 2) * 1 + 1 * a.val = a.val; rw [h0]; omega
  | ⟨1, _⟩ => show win1_3.index t (1 : Fin 2) * 128 + 1 * b.val = b.val; rw [h1]; omega

/-- Window 4 holds its whole array at every point. -/
theorem whole4_apply (V : (c : Dev nD) → (b : Ref sig .tc) → Buf (Elt Ideal) ((c : Thread nD τ).loc b)) (c : Dev nD) (t : Fin cfg1.N) (a : Fin 128) (b : Fin 128) :
    (iblk1 (F := Ideal) V c 4 t : Vec Ideal S128x128 .f32) (ix2 a b) = (V c main_v45 : Vec Ideal S128x128 .f32) (ix2 a b) := by
  have h0 : win1_4.index t (0 : Fin 2) = 0 := (idx_whole t).2.2.2.2.1
  have h1 : win1_4.index t (1 : Fin 2) = 0 := (idx_whole t).2.2.2.2.2.1
  unfold iblk1
  rw [View.read_apply]
  show V c main_v45 _ = V c main_v45 _
  congr 1
  funext x
  apply Fin.ext
  match x with
  | ⟨0, _⟩ => show win1_4.index t (0 : Fin 2) * 128 + 1 * a.val = a.val; rw [h0]; omega
  | ⟨1, _⟩ => show win1_4.index t (1 : Fin 2) * 128 + 1 * b.val = b.val; rw [h1]; omega

/-- Window 5 holds its whole array at every point. -/
theorem whole5_apply (V : (c : Dev nD) → (b : Ref sig .tc) → Buf (Elt Ideal) ((c : Thread nD τ).loc b)) (c : Dev nD) (t : Fin cfg1.N) (a : Fin 1) (b : Fin 128) :
    (iblk1 (F := Ideal) V c 5 t : Vec Ideal S1x128 .f32) (ix2 a b) = (V c main_v48 : Vec Ideal S1x128 .f32) (ix2 a b) := by
  have h0 : win1_5.index t (0 : Fin 2) = 0 := (idx_whole t).2.2.2.2.2.2.1
  have h1 : win1_5.index t (1 : Fin 2) = 0 := (idx_whole t).2.2.2.2.2.2.2.1
  unfold iblk1
  rw [View.read_apply]
  show V c main_v48 _ = V c main_v48 _
  congr 1
  funext x
  apply Fin.ext
  match x with
  | ⟨0, _⟩ => show win1_5.index t (0 : Fin 2) * 1 + 1 * a.val = a.val; rw [h0]; omega
  | ⟨1, _⟩ => show win1_5.index t (1 : Fin 2) * 128 + 1 * b.val = b.val; rw [h1]; omega

/-- Window 6 holds its whole array at every point. -/
theorem whole6_apply (V : (c : Dev nD) → (b : Ref sig .tc) → Buf (Elt Ideal) ((c : Thread nD τ).loc b)) (c : Dev nD) (t : Fin cfg1.N) (a : Fin 128) (b : Fin 128) :
    (iblk1 (F := Ideal) V c 6 t : Vec Ideal S128x128 .f32) (ix2 a b) = (V c main_v46 : Vec Ideal S128x128 .f32) (ix2 a b) := by
  have h0 : win1_6.index t (0 : Fin 2) = 0 := (idx_whole t).2.2.2.2.2.2.2.2.1
  have h1 : win1_6.index t (1 : Fin 2) = 0 := (idx_whole t).2.2.2.2.2.2.2.2.2.1
  unfold iblk1
  rw [View.read_apply]
  show V c main_v46 _ = V c main_v46 _
  congr 1
  funext x
  apply Fin.ext
  match x with
  | ⟨0, _⟩ => show win1_6.index t (0 : Fin 2) * 128 + 1 * a.val = a.val; rw [h0]; omega
  | ⟨1, _⟩ => show win1_6.index t (1 : Fin 2) * 128 + 1 * b.val = b.val; rw [h1]; omega

/-- Window 7 holds its whole array at every point. -/
theorem whole7_apply (V : (c : Dev nD) → (b : Ref sig .tc) → Buf (Elt Ideal) ((c : Thread nD τ).loc b)) (c : Dev nD) (t : Fin cfg1.N) (a : Fin 1) (b : Fin 128) :
    (iblk1 (F := Ideal) V c 7 t : Vec Ideal S1x128 .f32) (ix2 a b) = (V c main_v49 : Vec Ideal S1x128 .f32) (ix2 a b) := by
  have h0 : win1_7.index t (0 : Fin 2) = 0 := (idx_whole t).2.2.2.2.2.2.2.2.2.2.1
  have h1 : win1_7.index t (1 : Fin 2) = 0 := (idx_whole t).2.2.2.2.2.2.2.2.2.2.2.1
  unfold iblk1
  rw [View.read_apply]
  show V c main_v49 _ = V c main_v49 _
  congr 1
  funext x
  apply Fin.ext
  match x with
  | ⟨0, _⟩ => show win1_7.index t (0 : Fin 2) * 1 + 1 * a.val = a.val; rw [h0]; omega
  | ⟨1, _⟩ => show win1_7.index t (1 : Fin 2) * 128 + 1 * b.val = b.val; rw [h1]; omega

/-- Window 8 holds its whole array at every point. -/
theorem whole8_apply (V : (c : Dev nD) → (b : Ref sig .tc) → Buf (Elt Ideal) ((c : Thread nD τ).loc b)) (c : Dev nD) (t : Fin cfg1.N) (a : Fin 1) (b : Fin 128) :
    (iblk1 (F := Ideal) V c 8 t : Vec Ideal S1x128 .f32) (ix2 a b) = (V c main_v50 : Vec Ideal S1x128 .f32) (ix2 a b) := by
  have h0 : win1_8.index t (0 : Fin 2) = 0 := (idx_whole t).2.2.2.2.2.2.2.2.2.2.2.2.1
  have h1 : win1_8.index t (1 : Fin 2) = 0 := (idx_whole t).2.2.2.2.2.2.2.2.2.2.2.2.2.1
  unfold iblk1
  rw [View.read_apply]
  show V c main_v50 _ = V c main_v50 _
  congr 1
  funext x
  apply Fin.ext
  match x with
  | ⟨0, _⟩ => show win1_8.index t (0 : Fin 2) * 1 + 1 * a.val = a.val; rw [h0]; omega
  | ⟨1, _⟩ => show win1_8.index t (1 : Fin 2) * 128 + 1 * b.val = b.val; rw [h1]; omega

/-- Window 9 holds its whole array at every point. -/
theorem whole9_apply (V : (c : Dev nD) → (b : Ref sig .tc) → Buf (Elt Ideal) ((c : Thread nD τ).loc b)) (c : Dev nD) (t : Fin cfg1.N) (a : Fin 1) (b : Fin 128) :
    (iblk1 (F := Ideal) V c 9 t : Vec Ideal S1x128 .f32) (ix2 a b) = (V c main_v51 : Vec Ideal S1x128 .f32) (ix2 a b) := by
  have h0 : win1_9.index t (0 : Fin 2) = 0 := (idx_whole t).2.2.2.2.2.2.2.2.2.2.2.2.2.2.1
  have h1 : win1_9.index t (1 : Fin 2) = 0 := (idx_whole t).2.2.2.2.2.2.2.2.2.2.2.2.2.2.2
  unfold iblk1
  rw [View.read_apply]
  show V c main_v51 _ = V c main_v51 _
  congr 1
  funext x
  apply Fin.ext
  match x with
  | ⟨0, _⟩ => show win1_9.index t (0 : Fin 2) * 1 + 1 * a.val = a.val; rw [h0]; omega
  | ⟨1, _⟩ => show win1_9.index t (1 : Fin 2) * 128 + 1 * b.val = b.val; rw [h1]; omega

/-- One entry of what point `t` leaves in the result window: the node update of row `5000 t + p` of the arrays. -/
theorem point_eq (V : (c : Dev nD) → (b : Ref sig .tc) → Buf (Elt Ideal) ((c : Thread nD τ).loc b)) (c : Dev nD) (t : Fin cfg1.N) (p : Fin 5000) (q : Fin 128) (i : S100000x128.Idx)
    (h0 : (i 0).val = 5000 * t.val + p.val) (h1 : (i 1).val = q.val) :
    out1_10 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (ix2 p q)
      = Cert.Spec.nodeK (V c main_arg0) (V c main_v43) (V c main_v44) (V c main_v47) (V c main_v45) (V c main_v48) (V c main_v46) (V c main_v49) (V c main_v50) (V c main_v51) i := by
  obtain ⟨r, q', rfl⟩ : ∃ (r : Fin 100000) (q' : Fin 128), i = ix2 r q' := ⟨i 0, i 1, eq_ix2 i⟩
  obtain rfl : q' = q := Fin.ext h1
  have hr : r.val = 5000 * t.val + p.val := h0
  refine (out_apply (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) p q').trans ?_
  show _ = Cert.Spec.nodeRow (fun t' => V c main_arg0 (ix2 r t')) (fun t' => V c main_v43 (ix2 r t'))
    (fun t' j => V c main_v44 (ix2 t' j)) (fun j => V c main_v47 (ix2 (0 : Fin 1) j))
    (fun t' k => V c main_v45 (ix2 t' k)) (fun k => V c main_v48 (ix2 (0 : Fin 1) k))
    (fun k j => V c main_v46 (ix2 k j)) (fun j => V c main_v49 (ix2 (0 : Fin 1) j))
    (fun j => V c main_v50 (ix2 (0 : Fin 1) j)) (fun j => V c main_v51 (ix2 (0 : Fin 1) j)) q'
  rw [funext fun t' => rows0_apply V c t p t' r hr, funext fun t' => rows1_apply V c t p t' r hr,
    funext fun t' => funext fun j => whole2_apply V c t t' j, funext fun j => whole3_apply V c t 0 j,
    funext fun t' => funext fun k => whole4_apply V c t t' k, funext fun k => whole5_apply V c t 0 k,
    funext fun k => funext fun j => whole6_apply V c t k j, funext fun j => whole7_apply V c t 0 j,
    funext fun j => whole8_apply V c t 0 j, funext fun j => whole9_apply V c t 0 j]

/-- WHAT POINT `t` WRITES BACK is block `t` of the node update of the arrays as the region finds them. -/
theorem flushed_eq (V : (c : Dev nD) → (b : Ref sig .tc) → Buf (Elt Ideal) ((c : Thread nD τ).loc b)) (c : Dev nD) (t : Fin cfg1.N) :
    (dat1 (F := Ideal) V c).flushed 10 t = ((cfg1.win 10).blk t).view.read (Elt Ideal) (Cert.Spec.nodeK (V c main_arg0) (V c main_v43) (V c main_v44) (V c main_v47) (V c main_v45) (V c main_v48) (V c main_v46) (V c main_v49) (V c main_v50) (V c main_v51)) := by
  show (cfg1.win 10).cut (grid1.coords t) ((dat1 V c).after 10 t) = _
  rw [after1_10]
  funext j
  obtain ⟨p, q, rfl⟩ : ∃ (p : Fin 5000) (q : Fin 128), j = ix2 p q := ⟨j 0, j 1, eq_ix2 j⟩
  have h0 : win1_10.index t (0 : Fin 2) = t.val := (idx_rows t).2.2.2.2.1
  have h1 : win1_10.index t (1 : Fin 2) = 0 := (idx_rows t).2.2.2.2.2
  rw [View.read_apply]
  refine point_eq V c t p q _ ?_ ?_
  · show win1_10.index t (0 : Fin 2) * 5000 + 1 * p.val = 5000 * t.val + p.val
    rw [h0]; omega
  · show win1_10.index t (1 : Fin 2) * 128 + 1 * q.val = q.val
    rw [h1]; omega

/-- An index of the result array is in point `t`'s block iff each coordinate is in the block's range on its axis. -/
theorem mem_blk (t : Fin cfg1.N) (i : S100000x128.Idx) :
    i ∈ ((cfg1.win 10).blk t).view.set ↔ ∀ a : Fin 2, win1_10.index t a * S5000x128.size a ≤ (i a).val
      ∧ (i a).val < win1_10.index t a * S5000x128.size a + S5000x128.size a := by
  show i ∈ ((View.whole main_v52).slice (win1_10.rect t)).set ↔ _
  rw [View.set_slice_whole, Rect.mem_set_unit]
  exact Iff.rfl

/-- Row `r` of the result array is written back by point `r / 5000`. -/
theorem covered (i : S100000x128.Idx) :
    ∃ t : Fin cfg1.N, (cfg1.win 10).flush t = true ∧ i ∈ ((cfg1.win 10).blk t).view.set := by
  have hi0 : (i 0).val < 100000 := (i 0).isLt
  have hi1 : (i 1).val < 128 := (i 1).isLt
  have hN : cfg1.N = 20 := N_1
  obtain ⟨t, ht⟩ : ∃ t : Fin cfg1.N, t.val = (i 0).val / 5000 := ⟨⟨(i 0).val / 5000, by rw [hN]; omega⟩, rfl⟩
  have h0 : win1_10.index t (0 : Fin 2) = t.val := (idx_rows t).2.2.2.2.1
  have h1 : win1_10.index t (1 : Fin 2) = 0 := (idx_rows t).2.2.2.2.2
  refine ⟨t, flush1_10 t, ?_⟩
  rw [mem_blk]
  intro a
  match a with
  | ⟨0, _⟩ =>
    show win1_10.index t (0 : Fin 2) * 5000 ≤ (i 0).val ∧ (i 0).val < win1_10.index t (0 : Fin 2) * 5000 + 5000
    rw [h0, ht]; omega
  | ⟨1, _⟩ =>
    show win1_10.index t (1 : Fin 2) * 128 ≤ (i 1).val ∧ (i 1).val < win1_10.index t (1 : Fin 2) * 128 + 128
    rw [h1]; omega

/-- THE ARRAY after the region's last point: the node update of the arrays the region finds, row by row. -/
theorem node_arrAt (V : (c : Dev nD) → (b : Ref sig .tc) → Buf (Elt Ideal) ((c : Thread nD τ).loc b)) (c : Dev nD) :
    (dat1 (F := Ideal) V c).arrAt 10 cfg1.N =
      Cert.Spec.nodeK (V c main_arg0) (V c main_v43) (V c main_v44) (V c main_v47) (V c main_v45) (V c main_v48)
        (V c main_v46) (V c main_v49) (V c main_v50) (V c main_v51) :=
  (dat1 (F := Ideal) V c).arrAt_eq_of_cover 10 _ (fun t _ => flushed_eq V c t) covered

end Cert.KernelIdeal.NodeValue
end
-- ==== Proof.RefTerm.lean ====
/-
  The reference's result as four composed stages, each the reference's own host operations in order:
  the mean of member node features per hyperedge, the edge MLP, the mean of incident edge messages per
  node, and the node update with LayerNorm.  The first and third are the gather / segment-sum / divide
  chains both programs share; they are carried as opaque functions and never opened.
-/
import proofs.«175380_j12695923327692_1_alg».proof.ReferenceIdeal

noncomputable section

namespace Cert.ReferenceIdeal.RefTerm

open Idealize.ShloMosaic Cert.ReferenceIdeal

variable {F : FTy → Type} [FloatOps F] [Facts]
open Facts₀ Facts

/-- A bias vector broadcast down the rows of an [n, 128] array, the way the reference prints it:
    first to one row, then down. -/
abbrev zeros128 (S : Shape) (h : S_.BroadcastsInDim S ![]) : FVec F S .f32 :=
  broadcastInDim S ![] h (constant S_ .f32 0x00000000#32)

/-- Mean of the gathered node rows per hyperedge: gather rows `fg` of `x` (negative indices wrapped),
    segment-sum them by `res`, divide by the segment sizes clamped below at one. -/
def enmStage (x : FVec F S100000x128 .f32) (fg res : IVec S1000000 32) : FVec F S200000x128 .f32 :=
  Host.divf
    (Host.scatterAdd scatter_S200000x128_S1000000x1_S1000000x128_1_0_0_1
      (broadcastInDim S200000x128 ![] bcast_S_S200000x128 (constant S_ .f32 0x00000000#32))
      (broadcastInDim S1000000x1 ![0] bcast_S1000000_S1000000x1_0 res)
      (Host.gather gather_S100000x128_S1000000x1_S1000000x128_1_0_n_n_0_1_1128 x
        (broadcastInDim S1000000x1 ![0] bcast_S1000000_S1000000x1_0
          (select (cmpi .slt fg (broadcastInDim S1000000 ![] bcast_S_S1000000 (constantI S_ 32 0#32)))
            (addi fg (broadcastInDim S1000000 ![] bcast_S_S1000000 (constantI S_ 32 100000#32))) fg))))
    (broadcastInDim S200000x128 ![0, 1] bcast_S200000x1_S200000x128_0_1
      (maximumf
        (Host.scatterAdd scatter_S200000x1_S1000000x1_S1000000x1_1_0_0_1
          (broadcastInDim S200000x1 ![] bcast_S_S200000x1 (constant S_ .f32 0x00000000#32))
          (broadcastInDim S1000000x1 ![0] bcast_S1000000_S1000000x1_0 res)
          (broadcastInDim S1000000x1 ![] bcast_S_S1000000x1 (constant S_ .f32 0x3F800000#32)))
        (broadcastInDim S200000x1 ![] bcast_S_S200000x1 (constant S_ .f32 0x3F800000#32))))

/-- The edge MLP on the concatenation [mean | attributes]: linear, ReLU, linear. -/
def edgeStage (enm : FVec F S200000x128 .f32) (ea : FVec F S200000x64 .f32) (We1 : FVec F S128x192 .f32)
    (be1 : FVec F S128 .f32) (We2 : FVec F S128x128 .f32) (be2 : FVec F S128 .f32) : FVec F S200000x128 .f32 :=
  addf
    (Host.dotGeneral dot_S200000x128_S128x128_S200000x128_1_0_0_1_n_n none
      (maximumf
        (addf
          (Host.dotGeneral dot_S200000x192_S192x128_S200000x128_1_0_0_1_n_n none
            (concatenate S200000x192 1 [⟨S200000x128, enm⟩, ⟨S200000x64, ea⟩] concatenates_S200000x128_S200000x64_S200000x192_d1)
            (transpose S192x128 [1, 0] We1 transposes_S128x192_S192x128_1_0))
          (broadcastInDim S200000x128 ![0, 1] bcast_S1x128_S200000x128_0_1 (broadcastInDim S1x128 ![1] bcast_S128_S1x128_1 be1)))
        (broadcastInDim S200000x128 ![] bcast_S_S200000x128 (constant S_ .f32 0x00000000#32)))
      (transpose S128x128 [1, 0] We2 transposes_S128x128_S128x128_1_0))
    (broadcastInDim S200000x128 ![0, 1] bcast_S1x128_S200000x128_0_1 (broadcastInDim S1x128 ![1] bcast_S128_S1x128_1 be2))

/-- Mean of the gathered edge messages per node: gather rows `res` of `em`, segment-sum by `fg`,
    divide by the clamped segment sizes. -/
def nmStage (em : FVec F S200000x128 .f32) (fg res : IVec S1000000 32) : FVec F S100000x128 .f32 :=
  Host.divf
    (Host.scatterAdd scatter_S100000x128_S1000000x1_S1000000x128_1_0_0_1
      (broadcastInDim S100000x128 ![] bcast_S_S100000x128 (constant S_ .f32 0x00000000#32))
      (broadcastInDim S1000000x1 ![0] bcast_S1000000_S1000000x1_0 fg)
      (Host.gather gather_S200000x128_S1000000x1_S1000000x128_1_0_n_n_0_1_1128 em
        (broadcastInDim S1000000x1 ![0] bcast_S1000000_S1000000x1_0
          (select (cmpi .slt res (broadcastInDim S1000000 ![] bcast_S_S1000000 (constantI S_ 32 0#32)))
            (addi res (broadcastInDim S1000000 ![] bcast_S_S1000000 (constantI S_ 32 200000#32))) res))))
    (broadcastInDim S100000x128 ![0, 1] bcast_S100000x1_S100000x128_0_1
      (maximumf
        (Host.scatterAdd scatter_S100000x1_S1000000x1_S1000000x1_1_0_0_1
          (broadcastInDim S100000x1 ![] bcast_S_S100000x1 (constant S_ .f32 0x00000000#32))
          (broadcastInDim S1000000x1 ![0] bcast_S1000000_S1000000x1_0 fg)
          (broadcastInDim S1000000x1 ![] bcast_S_S1000000x1 (constant S_ .f32 0x3F800000#32)))
        (broadcastInDim S100000x1 ![] bcast_S_S100000x1 (constant S_ .f32 0x3F800000#32))))

/-- The pre-normalisation activations: ReLU of the projected node features plus the node MLP of the
    mean message. -/
def actStage (x nm : FVec F S100000x128 .f32) (Wp : FVec F S128x128 .f32) (bp : FVec F S128 .f32)
    (Wn1 : FVec F S128x128 .f32) (bn1 : FVec F S128 .f32) (Wn2 : FVec F S128x128 .f32) (bn2 : FVec F S128 .f32) :
    FVec F S100000x128 .f32 :=
  maximumf
    (addf
      (addf
        (Host.dotGeneral dot_S100000x128_S128x128_S100000x128_1_0_0_1_n_n none x
          (transpose S128x128 [1, 0] Wp transposes_S128x128_S128x128_1_0))
        (broadcastInDim S100000x128 ![0, 1] bcast_S1x128_S100000x128_0_1 (broadcastInDim S1x128 ![1] bcast_S128_S1x128_1 bp)))
      (addf
        (Host.dotGeneral dot_S100000x128_S128x128_S100000x128_1_0_0_1_n_n none
          (maximumf
            (addf
              (Host.dotGeneral dot_S100000x128_S128x128_S100000x128_1_0_0_1_n_n none nm
                (transpose S128x128 [1, 0] Wn1 transposes_S128x128_S128x128_1_0))
              (broadcastInDim S100000x128 ![0, 1] bcast_S1x128_S100000x128_0_1 (broadcastInDim S1x128 ![1] bcast_S128_S1x128_1 bn1)))
            (broadcastInDim S100000x128 ![] bcast_S_S100000x128 (constant S_ .f32 0x00000000#32)))
          (transpose S128x128 [1, 0] Wn2 transposes_S128x128_S128x128_1_0))
        (broadcastInDim S100000x128 ![0, 1] bcast_S1x128_S100000x128_0_1 (broadcastInDim S1x128 ![1] bcast_S128_S1x128_1 bn2))))
    (broadcastInDim S100000x128 ![] bcast_S_S100000x128 (constant S_ .f32 0x00000000#32))

/-- jnp.var along the last axis (ddof `c`, here the integer zero): the mean of the squared deviations
    from the row mean, guarded by a select on `128 − ddof > 0` that always takes the quotient. -/
def varStage (z : FVec F S100000x128 .f32) (c : IVec S_ 32) : FVec F S100000x1 .f32 :=
  select
    (broadcastInDim S100000x1 ![] bcast_S_S100000x1
      (cmpf (F := F) .ogt (subf (constant S_ .f32 0x43000000#32) (sitofp (F := F) .f32 c)) (constant S_ .f32 0x00000000#32)))
    (Host.divf
      (broadcastInDim S100000x1 ![0] bcast_S100000_S100000x1_0
        (Host.reduceAdd
          (mulf
            (subf z (broadcastInDim S100000x128 ![0, 1] bcast_S100000x1_S100000x128_0_1
              (Host.divf
                (broadcastInDim S100000x1 ![0] bcast_S100000_S100000x1_0
                  (Host.reduceAdd z (constant S_ .f32 0x00000000#32) reducesTo_S100000x128_S100000_d1 h_S_))
                (broadcastInDim S100000x1 ![] bcast_S_S100000x1 (constant S_ .f32 0x43000000#32)))))
            (subf z (broadcastInDim S100000x128 ![0, 1] bcast_S100000x1_S100000x128_0_1
              (Host.divf
                (broadcastInDim S100000x1 ![0] bcast_S100000_S100000x1_0
                  (Host.reduceAdd z (constant S_ .f32 0x00000000#32) reducesTo_S100000x128_S100000_d1 h_S_))
                (broadcastInDim S100000x1 ![] bcast_S_S100000x1 (constant S_ .f32 0x43000000#32))))))
          (constant S_ .f32 0x00000000#32) reducesTo_S100000x128_S100000_d1 h_S_))
      (broadcastInDim S100000x1 ![] bcast_S_S100000x1
        (subf (constant S_ .f32 0x43000000#32) (sitofp (F := F) .f32 c))))
    (broadcastInDim S100000x1 ![] bcast_S_S100000x1 (id (constant S_ .f32 0x7FC00000#32)))

/-- LayerNorm of the activations `z`: centre on the row mean, scale by rsqrt (var + ε), then γ and β. -/
def normStage (z : FVec F S100000x128 .f32) (gamma beta : FVec F S128 .f32) : FVec F S100000x128 .f32 :=
  addf
    (mulf
      (mulf
        (subf z
          (broadcastInDim S100000x128 ![0, 1] bcast_S100000x1_S100000x128_0_1
            (Host.divf
              (broadcastInDim S100000x1 ![0] bcast_S100000_S100000x1_0
                (Host.reduceAdd z (constant S_ .f32 0x00000000#32) reducesTo_S100000x128_S100000_d1 h_S_))
              (broadcastInDim S100000x1 ![] bcast_S_S100000x1 (constant S_ .f32 0x43000000#32)))))
        (broadcastInDim S100000x128 ![0, 1] bcast_S100000x1_S100000x128_0_1
          (Host.rsqrt
            (addf (varStage z (constantI S_ 32 0#32))
              (broadcastInDim S100000x1 ![] bcast_S_S100000x1 (constant S_ .f32 0x3727C5AC#32))))))
      (broadcastInDim S100000x128 ![0, 1] bcast_S1x128_S100000x128_0_1 (broadcastInDim S1x128 ![1] bcast_S128_S1x128_1 gamma)))
    (broadcastInDim S100000x128 ![0, 1] bcast_S1x128_S100000x128_0_1 (broadcastInDim S1x128 ![1] bcast_S128_S1x128_1 beta))

/-- The node update: the activations, then LayerNorm. -/
def nodeStage (x nm : FVec F S100000x128 .f32) (Wp : FVec F S128x128 .f32) (bp : FVec F S128 .f32)
    (Wn1 : FVec F S128x128 .f32) (bn1 : FVec F S128 .f32) (Wn2 : FVec F S128x128 .f32) (bn2 gamma beta : FVec F S128 .f32) :
    FVec F S100000x128 .f32 :=
  normStage (actStage x nm Wp bp Wn1 bn1 Wn2 bn2) gamma beta

/-- The reference's result from its sixteen arguments. -/
def refOut (x : FVec F S100000x128 .f32) (ea : FVec F S200000x64 .f32) (Wp : FVec F S128x128 .f32) (bp : FVec F S128 .f32)
    (We1 : FVec F S128x192 .f32) (be1 : FVec F S128 .f32) (We2 : FVec F S128x128 .f32) (be2 : FVec F S128 .f32)
    (Wn1 : FVec F S128x128 .f32) (bn1 : FVec F S128 .f32) (Wn2 : FVec F S128x128 .f32) (bn2 gamma beta : FVec F S128 .f32)
    (fg res : IVec S1000000 32) : FVec F S100000x128 .f32 :=
  nodeStage x (nmStage (edgeStage (enmStage x fg res) ea We1 be1 We2 be2) fg res) Wp bp Wn1 bn1 Wn2 bn2 gamma beta

end Cert.ReferenceIdeal.RefTerm

end
-- ==== Proof.RefRun.lean ====
/-
  The reference program's run.  @main is a straight line of host operations once
  its four calls (two ReLUs on the node side, one on the edge side, and the variance with its guarding
  select) are unfolded at their call sites over the calls' own buffers.  The line is cut into five
  stretches, one per stage of the composed term: the per-hyperedge mean, the edge MLP (the cut falls
  just before its concatenate), the per-node mean, the node activations, and the LayerNorm.  Each
  stretch is read back on its own — its result buffer holds the stage's function of what the stretch
  reads, and it leaves the sixteen arguments alone — and the five facts are chained through the fold.
-/
import proofs.«175380_j12695923327692_1_alg».proof.Proof.Gen.ReferenceIdeal
import proofs.«175380_j12695923327692_1_alg».proof.Proof.RefTerm
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The gather of node rows, its segment sum and the division by the clamped segment sizes: the per-hyperedge mean. -/
abbrev opsA1 : List (HloOp τ sig (Elt F)) :=
  [ StableHlo.nullary main_c (constantI S_ 32 0#32),
    StableHlo.unary main_c main_v0 (broadcastInDim S1000000 ![] bcast_S_S1000000 : (⟨S_, .i32⟩ : BufTy).Contents (Elt F) → (⟨S1000000, .i32⟩ : BufTy).Contents (Elt F)),
    StableHlo.binary main_arg14 main_v0 main_v1 (cmpi .slt : (⟨S1000000, .i32⟩ : BufTy).Contents (Elt F) → (⟨S1000000, .i32⟩ : BufTy).Contents (Elt F) → (⟨S1000000, .i1⟩ : BufTy).Contents (Elt F)),
    StableHlo.nullary main_c_0 (constantI S_ 32 100000#32),
    StableHlo.unary main_c_0 main_v2 (broadcastInDim S1000000 ![] bcast_S_S1000000 : (⟨S_, .i32⟩ : BufTy).Contents (Elt F) → (⟨S1000000, .i32⟩ : BufTy).Contents (Elt F)),
    StableHlo.binary main_arg14 main_v2 main_v3 (addi : (⟨S1000000, .i32⟩ : BufTy).Contents (Elt F) → (⟨S1000000, .i32⟩ : BufTy).Contents (Elt F) → (⟨S1000000, .i32⟩ : BufTy).Contents (Elt F)),
    StableHlo.ternary main_v1 main_v3 main_arg14 main_v4 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v4 main_v5 (broadcastInDim S1000000x1 ![0] bcast_S1000000_S1000000x1_0 : (⟨S1000000, .i32⟩ : BufTy).Contents (Elt F) → (⟨S1000000x1, .i32⟩ : BufTy).Contents (Elt F)),
    StableHlo.binary main_arg0 main_v5 main_v6 ((fun x i => Host.gather gather_S100000x128_S1000000x1_S1000000x128_1_0_n_n_0_1_1128 x i) : (⟨S100000x128, .f32⟩ : BufTy).Contents (Elt F) → (⟨S1000000x1, .i32⟩ : BufTy).Contents (Elt F) → (⟨S1000000x128, .f32⟩ : BufTy).Contents (Elt F)),
    StableHlo.nullary main_cst (constant S_ .f32 0x00000000#32),
    StableHlo.unary main_cst main_v7 (broadcastInDim S200000x128 ![] bcast_S_S200000x128 : (⟨S_, .f32⟩ : BufTy).Contents (Elt F) → (⟨S200000x128, .f32⟩ : BufTy).Contents (Elt F)),
    StableHlo.unary main_arg15 main_v8 (broadcastInDim S1000000x1 ![0] bcast_S1000000_S1000000x1_0 : (⟨S1000000, .i32⟩ : BufTy).Contents (Elt F) → (⟨S1000000x1, .i32⟩ : BufTy).Contents (Elt F)),
    StableHlo.ternary main_v7 main_v8 main_v6 main_v9 ((fun x i u => Host.scatterAdd scatter_S200000x128_S1000000x1_S1000000x128_1_0_0_1 x i u) : (⟨S200000x128, .f32⟩ : BufTy).Contents (Elt F) → (⟨S1000000x1, .i32⟩ : BufTy).Contents (Elt F) → (⟨S1000000x128, .f32⟩ : BufTy).Contents (Elt F) → (⟨S200000x128, .f32⟩ : BufTy).Contents (Elt F)),
    StableHlo.nullary main_cst_1 (constant S_ .f32 0x3F800000#32),
    StableHlo.unary main_cst_1 main_v10 (broadcastInDim S1000000x1 ![] bcast_S_S1000000x1 : (⟨S_, .f32⟩ : BufTy).Contents (Elt F) → (⟨S1000000x1, .f32⟩ : BufTy).Contents (Elt F)),
    StableHlo.nullary main_cst_2 (constant S_ .f32 0x00000000#32),
    StableHlo.unary main_cst_2 main_v11 (broadcastInDim S200000x1 ![] bcast_S_S200000x1 : (⟨S_, .f32⟩ : BufTy).Contents (Elt F) → (⟨S200000x1, .f32⟩ : BufTy).Contents (Elt F)),
    StableHlo.unary main_arg15 main_v12 (broadcastInDim S1000000x1 ![0] bcast_S1000000_S1000000x1_0 : (⟨S1000000, .i32⟩ : BufTy).Contents (Elt F) → (⟨S1000000x1, .i32⟩ : BufTy).Contents (Elt F)),
    StableHlo.ternary main_v11 main_v12 main_v10 main_v13 ((fun x i u => Host.scatterAdd scatter_S200000x1_S1000000x1_S1000000x1_1_0_0_1 x i u) : (⟨S200000x1, .f32⟩ : BufTy).Contents (Elt F) → (⟨S1000000x1, .i32⟩ : BufTy).Contents (Elt F) → (⟨S1000000x1, .f32⟩ : BufTy).Contents (Elt F) → (⟨S200000x1, .f32⟩ : BufTy).Contents (Elt F)),
    StableHlo.nullary main_cst_3 (constant S_ .f32 0x3F800000#32),
    StableHlo.unary main_cst_3 main_v14 (broadcastInDim S200000x1 ![] bcast_S_S200000x1 : (⟨S_, .f32⟩ : BufTy).Contents (Elt F) → (⟨S200000x1, .f32⟩ : BufTy).Contents (Elt F)),
    StableHlo.binary main_v13 main_v14 main_v15 (maximumf : (⟨S200000x1, .f32⟩ : BufTy).Contents (Elt F) → (⟨S200000x1, .f32⟩ : BufTy).Contents (Elt F) → (⟨S200000x1, .f32⟩ : BufTy).Contents (Elt F)),
    StableHlo.unary main_v15 main_v16 (broadcastInDim S200000x128 ![0, 1] bcast_S200000x1_S200000x128_0_1 : (⟨S200000x1, .f32⟩ : BufTy).Contents (Elt F) → (⟨S200000x128, .f32⟩ : BufTy).Contents (Elt F)),
    StableHlo.binary main_v9 main_v16 main_v17 (Host.divf : (⟨S200000x128, .f32⟩ : BufTy).Contents (Elt F) → (⟨S200000x128, .f32⟩ : BufTy).Contents (Elt F) → (⟨S200000x128, .f32⟩ : BufTy).Contents (Elt F)) ]

/-- The first stretch touches TensorCore references only. -/
theorem opsA1_sub : (opsA1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub ..⟩
/-- Every operation of the first stretch determines its results. -/
theorem opsA1_fresh : (opsA1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩

/-- From the concatenate on: the edge MLP (linear, the ReLU's three operations at its call, linear). -/
abbrev opsA2 : List (HloOp τ sig (Elt F)) :=
  [ StableHlo.binary main_v17 main_arg1 main_v18 ((fun a b => concatenate S200000x192 1 [⟨S200000x128, a⟩, ⟨S200000x64, b⟩] concatenates_S200000x128_S200000x64_S200000x192_d1) : (⟨S200000x128, .f32⟩ : BufTy).Contents (Elt F) → (⟨S200000x64, .f32⟩ : BufTy).Contents (Elt F) → (⟨S200000x192, .f32⟩ : BufTy).Contents (Elt F)),
    StableHlo.unary main_arg4 main_v19 ((transpose S192x128 [1, 0] · transposes_S128x192_S192x128_1_0) : (⟨S128x192, .f32⟩ : BufTy).Contents (Elt F) → (⟨S192x128, .f32⟩ : BufTy).Contents (Elt F)),
    StableHlo.binary main_v18 main_v19 main_v20 ((fun l r => Host.dotGeneral dot_S200000x192_S192x128_S200000x128_1_0_0_1_n_n none l r) : (⟨S200000x192, .f32⟩ : BufTy).Contents (Elt F) → (⟨S192x128, .f32⟩ : BufTy).Contents (Elt F) → (⟨S200000x128, .f32⟩ : BufTy).Contents (Elt F)),
    StableHlo.unary main_arg5 main_v21 (broadcastInDim S1x128 ![1] bcast_S128_S1x128_1 : (⟨S128, .f32⟩ : BufTy).Contents (Elt F) → (⟨S1x128, .f32⟩ : BufTy).Contents (Elt F)),
    StableHlo.unary main_v21 main_v22 (broadcastInDim S200000x128 ![0, 1] bcast_S1x128_S200000x128_0_1 : (⟨S1x128, .f32⟩ : BufTy).Contents (Elt F) → (⟨S200000x128, .f32⟩ : BufTy).Contents (Elt F)),
    StableHlo.binary main_v20 main_v22 main_v23 (addf : (⟨S200000x128, .f32⟩ : BufTy).Contents (Elt F) → (⟨S200000x128, .f32⟩ : BufTy).Contents (Elt F) → (⟨S200000x128, .f32⟩ : BufTy).Contents (Elt F)),
    StableHlo.TRef.nullary main_call0.cst (constant S_ .f32 0x00000000#32),
    StableHlo.TRef.unary main_call0.cst main_call0.v0 (broadcastInDim S200000x128 ![] bcast_S_S200000x128),
    StableHlo.TRef.binary (.of main_v23 : StableHlo.TRef sig ⟨S200000x128, .f32⟩) main_call0.v0 main_call0.v1 maximumf,
    StableHlo.unary main_arg6 main_v25 ((transpose S128x128 [1, 0] · transposes_S128x128_S128x128_1_0) : (⟨S128x128, .f32⟩ : BufTy).Contents (Elt F) → (⟨S128x128, .f32⟩ : BufTy).Contents (Elt F)),
    StableHlo.binary main_v24 main_v25 main_v26 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.unary main_arg7 main_v27 (broadcastInDim S1x128 ![1] bcast_S128_S1x128_1 : (⟨S128, .f32⟩ : BufTy).Contents (Elt F) → (⟨S1x128, .f32⟩ : BufTy).Contents (Elt F)),
    StableHlo.unary main_v27 main_v28 (broadcastInDim S200000x128 ![0, 1] bcast_S1x128_S200000x128_0_1 : (⟨S1x128, .f32⟩ : BufTy).Contents (Elt F) → (⟨S200000x128, .f32⟩ : BufTy).Contents (Elt F)),
    StableHlo.binary main_v26 main_v28 main_v29 (addf : (⟨S200000x128, .f32⟩ : BufTy).Contents (Elt F) → (⟨S200000x128, .f32⟩ : BufTy).Contents (Elt F) → (⟨S200000x128, .f32⟩ : BufTy).Contents (Elt F)) ]

/-- The second stretch touches TensorCore references only. -/
theorem opsA2_sub : (opsA2 : List (HloOp τ sig (Elt F))).Forall fun op => op.bufs ⊆ tcRefs τ sig :=
  ⟨binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub ..⟩
/-- Every operation of the second stretch determines its results. -/
theorem opsA2_fresh : (opsA2 : List (HloOp τ sig (Elt F))).Forall fun op => op.fresh = ∅ :=
  ⟨rfl, rfl, rfl, rfl, rfl, rfl, rfl, rfl, rfl, rfl, rfl, rfl, rfl, rfl⟩

/-- The gather of edge messages, its segment sum and the division by the clamped segment sizes: the per-node mean. -/
abbrev opsA3 : List (HloOp τ sig (Elt F)) :=
  [ StableHlo.nullary main_c_4 (constantI S_ 32 0#32),
    StableHlo.unary main_c_4 main_v30 (broadcastInDim S1000000 ![] bcast_S_S1000000 : (⟨S_, .i32⟩ : BufTy).Contents (Elt F) → (⟨S1000000, .i32⟩ : BufTy).Contents (Elt F)),
    StableHlo.binary main_arg15 main_v30 main_v31 (cmpi .slt : (⟨S1000000, .i32⟩ : BufTy).Contents (Elt F) → (⟨S1000000, .i32⟩ : BufTy).Contents (Elt F) → (⟨S1000000, .i1⟩ : BufTy).Contents (Elt F)),
    StableHlo.nullary main_c_5 (constantI S_ 32 200000#32),
    StableHlo.unary main_c_5 main_v32 (broadcastInDim S1000000 ![] bcast_S_S1000000 : (⟨S_, .i32⟩ : BufTy).Contents (Elt F) → (⟨S1000000, .i32⟩ : BufTy).Contents (Elt F)),
    StableHlo.binary main_arg15 main_v32 main_v33 (addi : (⟨S1000000, .i32⟩ : BufTy).Contents (Elt F) → (⟨S1000000, .i32⟩ : BufTy).Contents (Elt F) → (⟨S1000000, .i32⟩ : BufTy).Contents (Elt F)),
    StableHlo.ternary main_v31 main_v33 main_arg15 main_v34 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v34 main_v35 (broadcastInDim S1000000x1 ![0] bcast_S1000000_S1000000x1_0 : (⟨S1000000, .i32⟩ : BufTy).Contents (Elt F) → (⟨S1000000x1, .i32⟩ : BufTy).Contents (Elt F)),
    StableHlo.binary main_v29 main_v35 main_v36 ((fun x i => Host.gather gather_S200000x128_S1000000x1_S1000000x128_1_0_n_n_0_1_1128 x i) : (⟨S200000x128, .f32⟩ : BufTy).Contents (Elt F) → (⟨S1000000x1, .i32⟩ : BufTy).Contents (Elt F) → (⟨S1000000x128, .f32⟩ : BufTy).Contents (Elt F)),
    StableHlo.nullary main_cst_6 (constant S_ .f32 0x00000000#32),
    StableHlo.unary main_cst_6 main_v37 (broadcastInDim S100000x128 ![] bcast_S_S100000x128 : (⟨S_, .f32⟩ : BufTy).Contents (Elt F) → (⟨S100000x128, .f32⟩ : BufTy).Contents (Elt F)),
    StableHlo.unary main_arg14 main_v38 (broadcastInDim S1000000x1 ![0] bcast_S1000000_S1000000x1_0 : (⟨S1000000, .i32⟩ : BufTy).Contents (Elt F) → (⟨S1000000x1, .i32⟩ : BufTy).Contents (Elt F)),
    StableHlo.ternary main_v37 main_v38 main_v36 main_v39 ((fun x i u => Host.scatterAdd scatter_S100000x128_S1000000x1_S1000000x128_1_0_0_1 x i u) : (⟨S100000x128, .f32⟩ : BufTy).Contents (Elt F) → (⟨S1000000x1, .i32⟩ : BufTy).Contents (Elt F) → (⟨S1000000x128, .f32⟩ : BufTy).Contents (Elt F) → (⟨S100000x128, .f32⟩ : BufTy).Contents (Elt F)),
    StableHlo.nullary main_cst_7 (constant S_ .f32 0x3F800000#32),
    StableHlo.unary main_cst_7 main_v40 (broadcastInDim S1000000x1 ![] bcast_S_S1000000x1 : (⟨S_, .f32⟩ : BufTy).Contents (Elt F) → (⟨S1000000x1, .f32⟩ : BufTy).Contents (Elt F)),
    StableHlo.nullary main_cst_8 (constant S_ .f32 0x00000000#32),
    StableHlo.unary main_cst_8 main_v41 (broadcastInDim S100000x1 ![] bcast_S_S100000x1 : (⟨S_, .f32⟩ : BufTy).Contents (Elt F) → (⟨S100000x1, .f32⟩ : BufTy).Contents (Elt F)),
    StableHlo.unary main_arg14 main_v42 (broadcastInDim S1000000x1 ![0] bcast_S1000000_S1000000x1_0 : (⟨S1000000, .i32⟩ : BufTy).Contents (Elt F) → (⟨S1000000x1, .i32⟩ : BufTy).Contents (Elt F)),
    StableHlo.ternary main_v41 main_v42 main_v40 main_v43 ((fun x i u => Host.scatterAdd scatter_S100000x1_S1000000x1_S1000000x1_1_0_0_1 x i u) : (⟨S100000x1, .f32⟩ : BufTy).Contents (Elt F) → (⟨S1000000x1, .i32⟩ : BufTy).Contents (Elt F) → (⟨S1000000x1, .f32⟩ : BufTy).Contents (Elt F) → (⟨S100000x1, .f32⟩ : BufTy).Contents (Elt F)),
    StableHlo.nullary main_cst_9 (constant S_ .f32 0x3F800000#32),
    StableHlo.unary main_cst_9 main_v44 (broadcastInDim S100000x1 ![] bcast_S_S100000x1 : (⟨S_, .f32⟩ : BufTy).Contents (Elt F) → (⟨S100000x1, .f32⟩ : BufTy).Contents (Elt F)),
    StableHlo.binary main_v43 main_v44 main_v45 (maximumf : (⟨S100000x1, .f32⟩ : BufTy).Contents (Elt F) → (⟨S100000x1, .f32⟩ : BufTy).Contents (Elt F) → (⟨S100000x1, .f32⟩ : BufTy).Contents (Elt F)),
    StableHlo.unary main_v45 main_v46 (broadcastInDim S100000x128 ![0, 1] bcast_S100000x1_S100000x128_0_1 : (⟨S100000x1, .f32⟩ : BufTy).Contents (Elt F) → (⟨S100000x128, .f32⟩ : BufTy).Contents (Elt F)),
    StableHlo.binary main_v39 main_v46 main_v47 (Host.divf : (⟨S100000x128, .f32⟩ : BufTy).Contents (Elt F) → (⟨S100000x128, .f32⟩ : BufTy).Contents (Elt F) → (⟨S100000x128, .f32⟩ : BufTy).Contents (Elt F)) ]

/-- The third stretch touches TensorCore references only. -/
theorem opsA3_sub : (opsA3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub ..⟩
/-- Every operation of the third stretch determines its results. -/
theorem opsA3_fresh : (opsA3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩

/-- The projection of the node features, the node MLP of the mean message (its ReLU's three operations at the call), their sum, and the outer ReLU's three. -/
abbrev opsB1 : List (HloOp τ sig (Elt F)) :=
  [ StableHlo.unary main_arg2 main_v48 ((transpose S128x128 [1, 0] · transposes_S128x128_S128x128_1_0) : (⟨S128x128, .f32⟩ : BufTy).Contents (Elt F) → (⟨S128x128, .f32⟩ : BufTy).Contents (Elt F)),
    StableHlo.binary main_arg0 main_v48 main_v49 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg3 main_v50 (broadcastInDim S1x128 ![1] bcast_S128_S1x128_1 : (⟨S128, .f32⟩ : BufTy).Contents (Elt F) → (⟨S1x128, .f32⟩ : BufTy).Contents (Elt F)),
    StableHlo.unary main_v50 main_v51 (broadcastInDim S100000x128 ![0, 1] bcast_S1x128_S100000x128_0_1 : (⟨S1x128, .f32⟩ : BufTy).Contents (Elt F) → (⟨S100000x128, .f32⟩ : BufTy).Contents (Elt F)),
    StableHlo.binary main_v49 main_v51 main_v52 (addf : (⟨S100000x128, .f32⟩ : BufTy).Contents (Elt F) → (⟨S100000x128, .f32⟩ : BufTy).Contents (Elt F) → (⟨S100000x128, .f32⟩ : BufTy).Contents (Elt F)),
    StableHlo.unary main_arg8 main_v53 ((transpose S128x128 [1, 0] · transposes_S128x128_S128x128_1_0) : (⟨S128x128, .f32⟩ : BufTy).Contents (Elt F) → (⟨S128x128, .f32⟩ : BufTy).Contents (Elt F)),
    StableHlo.binary main_v47 main_v53 main_v54 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg9 main_v55 (broadcastInDim S1x128 ![1] bcast_S128_S1x128_1 : (⟨S128, .f32⟩ : BufTy).Contents (Elt F) → (⟨S1x128, .f32⟩ : BufTy).Contents (Elt F)),
    StableHlo.unary main_v55 main_v56 (broadcastInDim S100000x128 ![0, 1] bcast_S1x128_S100000x128_0_1 : (⟨S1x128, .f32⟩ : BufTy).Contents (Elt F) → (⟨S100000x128, .f32⟩ : BufTy).Contents (Elt F)),
    StableHlo.binary main_v54 main_v56 main_v57 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v57 : StableHlo.TRef sig ⟨S100000x128, .f32⟩) main_call1.v0 main_call1.v1 maximumf,
    StableHlo.unary main_arg10 main_v59 ((transpose S128x128 [1, 0] · transposes_S128x128_S128x128_1_0) : (⟨S128x128, .f32⟩ : BufTy).Contents (Elt F) → (⟨S128x128, .f32⟩ : BufTy).Contents (Elt F)),
    StableHlo.binary main_v58 main_v59 main_v60 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg11 main_v61 (broadcastInDim S1x128 ![1] bcast_S128_S1x128_1 : (⟨S128, .f32⟩ : BufTy).Contents (Elt F) → (⟨S1x128, .f32⟩ : BufTy).Contents (Elt F)),
    StableHlo.unary main_v61 main_v62 (broadcastInDim S100000x128 ![0, 1] bcast_S1x128_S100000x128_0_1 : (⟨S1x128, .f32⟩ : BufTy).Contents (Elt F) → (⟨S100000x128, .f32⟩ : BufTy).Contents (Elt F)),
    StableHlo.binary main_v60 main_v62 main_v63 (addf : (⟨S100000x128, .f32⟩ : BufTy).Contents (Elt F) → (⟨S100000x128, .f32⟩ : BufTy).Contents (Elt F) → (⟨S100000x128, .f32⟩ : BufTy).Contents (Elt F)),
    StableHlo.binary main_v52 main_v63 main_v64 (addf : (⟨S100000x128, .f32⟩ : BufTy).Contents (Elt F) → (⟨S100000x128, .f32⟩ : BufTy).Contents (Elt F) → (⟨S100000x128, .f32⟩ : BufTy).Contents (Elt F)),
    StableHlo.TRef.nullary main_call2.cst (constant S_ .f32 0x00000000#32),
    StableHlo.TRef.unary main_call2.cst main_call2.v0 (broadcastInDim S100000x128 ![] bcast_S_S100000x128),
    StableHlo.TRef.binary (.of main_v64 : StableHlo.TRef sig ⟨S100000x128, .f32⟩) main_call2.v0 main_call2.v1 maximumf ]

/-- The fourth stretch touches TensorCore references only. -/
theorem opsB1_sub : (opsB1 : List (HloOp τ sig (Elt F))).Forall fun op => op.bufs ⊆ tcRefs τ sig :=
  ⟨unary_bufs_sub .., binary_bufs_sub .., unary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., binary_bufs_sub .., nullary_bufs_sub .., unary_bufs_sub .., binary_bufs_sub ..⟩
/-- Every operation of the fourth stretch determines its results. -/
theorem opsB1_fresh : (opsB1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

/-- The row mean, the variance (its twenty operations and the guarding select's three, at their calls), and the normalisation with its scale and shift. -/
abbrev opsB2 : List (HloOp τ sig (Elt F)) :=
  [ StableHlo.nullary main_cst_10 (constant S_ .f32 0x00000000#32),
    StableHlo.binary main_v65 main_cst_10 main_v66 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    StableHlo.unary main_v66 main_v67 (broadcastInDim S100000x1 ![0] bcast_S100000_S100000x1_0 : (⟨S100000, .f32⟩ : BufTy).Contents (Elt F) → (⟨S100000x1, .f32⟩ : BufTy).Contents (Elt F)),
    StableHlo.nullary main_cst_11 (constant S_ .f32 0x43000000#32),
    StableHlo.unary main_cst_11 main_v68 (broadcastInDim S100000x1 ![] bcast_S_S100000x1 : (⟨S_, .f32⟩ : BufTy).Contents (Elt F) → (⟨S100000x1, .f32⟩ : BufTy).Contents (Elt F)),
    StableHlo.binary main_v67 main_v68 main_v69 (Host.divf : (⟨S100000x1, .f32⟩ : BufTy).Contents (Elt F) → (⟨S100000x1, .f32⟩ : BufTy).Contents (Elt F) → (⟨S100000x1, .f32⟩ : BufTy).Contents (Elt F)),
    StableHlo.nullary main_c_12 (constantI S_ 32 0#32),
    StableHlo.TRef.nullary main_call3.cst (constant S_ .f32 0x00000000#32),
    StableHlo.TRef.binary (.of main_v65 : StableHlo.TRef sig ⟨S100000x128, .f32⟩) main_call3.cst main_call3.v0 (fun x v => Host.reduceAdd x v reducesTo_S100000x128_S100000_d1 h_S_),
    StableHlo.TRef.unary main_call3.v0 main_call3.v1 (broadcastInDim S100000x1 ![0] bcast_S100000_S100000x1_0),
    StableHlo.TRef.nullary main_call3.cst_0 (constant S_ .f32 0x43000000#32),
    StableHlo.TRef.unary main_call3.cst_0 main_call3.v2 (broadcastInDim S100000x1 ![] bcast_S_S100000x1),
    StableHlo.TRef.binary main_call3.v1 main_call3.v2 main_call3.v3 Host.divf,
    StableHlo.TRef.unary main_call3.v3 main_call3.v4 (broadcastInDim S100000x128 ![0, 1] bcast_S100000x1_S100000x128_0_1),
    StableHlo.TRef.binary (.of main_v65 : StableHlo.TRef sig ⟨S100000x128, .f32⟩) main_call3.v4 main_call3.v5 subf,
    StableHlo.TRef.binary main_call3.v5 main_call3.v5 main_call3.v6 mulf,
    StableHlo.TRef.unary (.of main_c_12 : StableHlo.TRef sig ⟨S_, .i32⟩) main_call3.v7 (sitofp .f32),
    StableHlo.TRef.nullary main_call3.cst_1 (constant S_ .f32 0x43000000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S100000x128_S100000_d1 h_S_),
    StableHlo.TRef.unary main_call3.v9 main_call3.v10 (broadcastInDim S100000x1 ![0] bcast_S100000_S100000x1_0),
    StableHlo.TRef.unary main_call3.v8 main_call3.v11 (broadcastInDim S100000x1 ![] bcast_S_S100000x1),
    StableHlo.TRef.binary main_call3.v10 main_call3.v11 main_call3.v12 Host.divf,
    StableHlo.TRef.nullary main_call3.cst_3 (constant S_ .f32 0x00000000#32),
    StableHlo.TRef.binary main_call3.v8 main_call3.cst_3 main_call3.v13 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S100000x1 ![] bcast_S_S100000x1),
    StableHlo.TRef.ternary main_call3.v13 main_call3.v12 main_call3.call0.v1 main_call3.call0.v2 (fun p a b => select (broadcastInDim S100000x1 ![] bcast_S_S100000x1 p) a b),
    StableHlo.unary main_v69 main_v71 (broadcastInDim S100000x128 ![0, 1] bcast_S100000x1_S100000x128_0_1 : (⟨S100000x1, .f32⟩ : BufTy).Contents (Elt F) → (⟨S100000x128, .f32⟩ : BufTy).Contents (Elt F)),
    StableHlo.binary main_v65 main_v71 main_v72 (subf : (⟨S100000x128, .f32⟩ : BufTy).Contents (Elt F) → (⟨S100000x128, .f32⟩ : BufTy).Contents (Elt F) → (⟨S100000x128, .f32⟩ : BufTy).Contents (Elt F)),
    StableHlo.nullary main_cst_13 (constant S_ .f32 0x3727C5AC#32),
    StableHlo.unary main_cst_13 main_v73 (broadcastInDim S100000x1 ![] bcast_S_S100000x1 : (⟨S_, .f32⟩ : BufTy).Contents (Elt F) → (⟨S100000x1, .f32⟩ : BufTy).Contents (Elt F)),
    StableHlo.binary main_v70 main_v73 main_v74 (addf : (⟨S100000x1, .f32⟩ : BufTy).Contents (Elt F) → (⟨S100000x1, .f32⟩ : BufTy).Contents (Elt F) → (⟨S100000x1, .f32⟩ : BufTy).Contents (Elt F)),
    StableHlo.unary main_v74 main_v75 (Host.rsqrt : (⟨S100000x1, .f32⟩ : BufTy).Contents (Elt F) → (⟨S100000x1, .f32⟩ : BufTy).Contents (Elt F)),
    StableHlo.unary main_v75 main_v76 (broadcastInDim S100000x128 ![0, 1] bcast_S100000x1_S100000x128_0_1 : (⟨S100000x1, .f32⟩ : BufTy).Contents (Elt F) → (⟨S100000x128, .f32⟩ : BufTy).Contents (Elt F)),
    StableHlo.binary main_v72 main_v76 main_v77 (mulf : (⟨S100000x128, .f32⟩ : BufTy).Contents (Elt F) → (⟨S100000x128, .f32⟩ : BufTy).Contents (Elt F) → (⟨S100000x128, .f32⟩ : BufTy).Contents (Elt F)),
    StableHlo.unary main_arg12 main_v78 (broadcastInDim S1x128 ![1] bcast_S128_S1x128_1 : (⟨S128, .f32⟩ : BufTy).Contents (Elt F) → (⟨S1x128, .f32⟩ : BufTy).Contents (Elt F)),
    StableHlo.unary main_v78 main_v79 (broadcastInDim S100000x128 ![0, 1] bcast_S1x128_S100000x128_0_1 : (⟨S1x128, .f32⟩ : BufTy).Contents (Elt F) → (⟨S100000x128, .f32⟩ : BufTy).Contents (Elt F)),
    StableHlo.binary main_v77 main_v79 main_v80 (mulf : (⟨S100000x128, .f32⟩ : BufTy).Contents (Elt F) → (⟨S100000x128, .f32⟩ : BufTy).Contents (Elt F) → (⟨S100000x128, .f32⟩ : BufTy).Contents (Elt F)),
    StableHlo.unary main_arg13 main_v81 (broadcastInDim S1x128 ![1] bcast_S128_S1x128_1 : (⟨S128, .f32⟩ : BufTy).Contents (Elt F) → (⟨S1x128, .f32⟩ : BufTy).Contents (Elt F)),
    StableHlo.unary main_v81 main_v82 (broadcastInDim S100000x128 ![0, 1] bcast_S1x128_S100000x128_0_1 : (⟨S1x128, .f32⟩ : BufTy).Contents (Elt F) → (⟨S100000x128, .f32⟩ : BufTy).Contents (Elt F)),
    StableHlo.binary main_v80 main_v82 main_v83 (addf : (⟨S100000x128, .f32⟩ : BufTy).Contents (Elt F) → (⟨S100000x128, .f32⟩ : BufTy).Contents (Elt F) → (⟨S100000x128, .f32⟩ : BufTy).Contents (Elt F)) ]

/-- The fifth stretch touches TensorCore references only. -/
theorem opsB2_sub : (opsB2 : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩
/-- Every operation of the fifth stretch determines its results. -/
theorem opsB2_fresh : (opsB2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-! ## Each stretch read back -/

/-- The sixteen arguments' buffers. -/
abbrev argRefs : List (Ref sig .tc) :=
  [main_arg0, main_arg1, main_arg2, main_arg3, main_arg4, main_arg5, main_arg6, main_arg7, main_arg8, main_arg9, main_arg10, main_arg11, main_arg12, main_arg13, main_arg14, main_arg15]

set_option maxHeartbeats 1000000 in
/-- The first stretch leaves the per-hyperedge mean in its last buffer. -/
theorem opsA1_out (V : Valuation τ sig (Elt F)) :
    after opsA1 V (main_v17 : DevRef τ sig) = RefTerm.enmStage (V (main_arg0 : DevRef τ sig)) (V (main_arg14 : DevRef τ sig)) (V (main_arg15 : DevRef τ sig)) := by
  after_results_simp
  rfl

set_option maxHeartbeats 1000000 in
/-- The second stretch, from the mean in its buffer, leaves the edge messages. -/
theorem opsA2_out (V : Valuation τ sig (Elt F)) :
    after opsA2 V (main_v29 : DevRef τ sig) = RefTerm.edgeStage (V (main_v17 : DevRef τ sig)) (V (main_arg1 : DevRef τ sig)) (V (main_arg4 : DevRef τ sig)) (V (main_arg5 : DevRef τ sig)) (V (main_arg6 : DevRef τ sig)) (V (main_arg7 : DevRef τ sig)) := by
  after_results_simp <;> (try simp only [TRef.ofBuf, TRef.toBuf, cast_eq]) <;> rfl

set_option maxHeartbeats 1000000 in
/-- The third stretch, from the edge messages in their buffer, leaves the per-node mean. -/
theorem opsA3_out (V : Valuation τ sig (Elt F)) :
    after opsA3 V (main_v47 : DevRef τ sig) = RefTerm.nmStage (V (main_v29 : DevRef τ sig)) (V (main_arg14 : DevRef τ sig)) (V (main_arg15 : DevRef τ sig)) := by
  after_results_simp
  rfl

set_option maxHeartbeats 1000000 in
/-- The fourth stretch, from the per-node mean in its buffer, leaves the activations. -/
theorem opsB1_out (V : Valuation τ sig (Elt F)) :
    after opsB1 V (main_v65 : DevRef τ sig) = RefTerm.actStage (V (main_arg0 : DevRef τ sig)) (V (main_v47 : DevRef τ sig)) (V (main_arg2 : DevRef τ sig)) (V (main_arg3 : DevRef τ sig)) (V (main_arg8 : DevRef τ sig)) (V (main_arg9 : DevRef τ sig)) (V (main_arg10 : DevRef τ sig)) (V (main_arg11 : DevRef τ sig)) := by
  after_results_simp <;> (try simp only [TRef.ofBuf, TRef.toBuf, cast_eq]) <;> rfl

set_option maxHeartbeats 2000000 in
/-- The fifth stretch, from the activations in their buffer, leaves their LayerNorm. -/
theorem opsB2_out (V : Valuation τ sig (Elt F)) :
    after opsB2 V (main_v83 : DevRef τ sig) = RefTerm.normStage (V (main_v65 : DevRef τ sig)) (V (main_arg12 : DevRef τ sig)) (V (main_arg13 : DevRef τ sig)) := by
  after_results_simp <;> (try simp only [TRef.ofBuf, TRef.toBuf, cast_eq]) <;> rfl

/-! ## No stretch writes an argument -/

set_option maxHeartbeats 2000000 in
/-- The first stretch writes no argument. -/
theorem opsA1_keep (V : Valuation τ sig (Elt F)) :
    ∀ r ∈ argRefs, after opsA1 V (r : DevRef τ sig) = V (r : DevRef τ sig) := by
  intro r hr
  simp only [argRefs, List.mem_cons, List.not_mem_nil, or_false] at hr
  rcases hr with rfl | rfl | rfl | rfl | rfl | rfl | rfl | rfl | rfl | rfl | rfl | rfl | rfl | rfl | rfl | rfl <;> after_results_simp

set_option maxHeartbeats 2000000 in
/-- The second stretch writes no argument. -/
theorem opsA2_keep (V : Valuation τ sig (Elt F)) :
    ∀ r ∈ argRefs, after opsA2 V (r : DevRef τ sig) = V (r : DevRef τ sig) := by
  intro r hr
  simp only [argRefs, List.mem_cons, List.not_mem_nil, or_false] at hr
  rcases hr with rfl | rfl | rfl | rfl | rfl | rfl | rfl | rfl | rfl | rfl | rfl | rfl | rfl | rfl | rfl | rfl <;> after_results_simp

set_option maxHeartbeats 2000000 in
/-- The third stretch writes no argument. -/
theorem opsA3_keep (V : Valuation τ sig (Elt F)) :
    ∀ r ∈ argRefs, after opsA3 V (r : DevRef τ sig) = V (r : DevRef τ sig) := by
  intro r hr
  simp only [argRefs, List.mem_cons, List.not_mem_nil, or_false] at hr
  rcases hr with rfl | rfl | rfl | rfl | rfl | rfl | rfl | rfl | rfl | rfl | rfl | rfl | rfl | rfl | rfl | rfl <;> after_results_simp

set_option maxHeartbeats 2000000 in
/-- The fourth stretch writes no argument. -/
theorem opsB1_keep (V : Valuation τ sig (Elt F)) :
    ∀ r ∈ argRefs, after opsB1 V (r : DevRef τ sig) = V (r : DevRef τ sig) := by
  intro r hr
  simp only [argRefs, List.mem_cons, List.not_mem_nil, or_false] at hr
  rcases hr with rfl | rfl | rfl | rfl | rfl | rfl | rfl | rfl | rfl | rfl | rfl | rfl | rfl | rfl | rfl | rfl <;> after_results_simp

set_option maxHeartbeats 2000000 in
/-- The fifth stretch writes no argument. -/
theorem opsB2_keep (V : Valuation τ sig (Elt F)) :
    ∀ r ∈ argRefs, after opsB2 V (r : DevRef τ sig) = V (r : DevRef τ sig) := by
  intro r hr
  simp only [argRefs, List.mem_cons, List.not_mem_nil, or_false] at hr
  rcases hr with rfl | rfl | rfl | rfl | rfl | rfl | rfl | rfl | rfl | rfl | rfl | rfl | rfl | rfl | rfl | rfl <;> after_results_simp

/-! ## The whole line -/

/-- @main's operations in order: the five stretches. -/
abbrev ops : List (HloOp τ sig (Elt F)) := (opsA1 ++ (opsA2 ++ opsA3)) ++ (opsB1 ++ opsB2)

set_option maxRecDepth 4096 in
/-- The first window is its three stretches in order: the ReLU's definition unfolded at its call, both sides
    are one chain of steps once sequencing is reassociated. -/
theorem part0_eq (c : Dev nD) : main_part0 (F := F) c = seq (opsA1 ++ (opsA2 ++ opsA3)) := by
  simp only [main_part0, fn_relu.body, seq_append, seq, bind_assoc, pure_bind]
  rfl

set_option maxRecDepth 4096 in
/-- The second window is its two stretches in order, the three calls unfolded (the variance's own call too). -/
theorem part1_eq (c : Dev nD) : main_part1 (F := F) c = seq (opsB1 ++ opsB2) := by
  simp only [main_part1, fn_relu_0.body, fn_var.body, fn_where.body, seq_append, seq, bind_assoc, pure_bind]

/-- @main is that straight line: its two windows one after the other. -/
theorem main_eq (c : Dev nD) : main (F := F) c = seq ops := by
  show (main_part0 c >>= fun _ => main_part1 c) = seq ((opsA1 ++ (opsA2 ++ opsA3)) ++ (opsB1 ++ opsB2))
  rw [seq_append, part0_eq, part1_eq]

/-- The signature scopes no TensorCore buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- A property of every operation of the five stretches is one of every operation of the line. -/
theorem forall_ops {p : HloOp τ sig (Elt F) → Prop} (h1 : opsA1.Forall p) (h2 : opsA2.Forall p) (h3 : opsA3.Forall p)
    (h4 : opsB1.Forall p) (h5 : opsB2.Forall p) : ∀ op ∈ (ops : List (HloOp τ sig (Elt F))), p op := by
  intro op h
  simp only [ops, List.mem_append] at h
  rcases h with (h | h | h) | h | h
  · exact List.forall_iff_forall_mem.1 h1 op h
  · exact List.forall_iff_forall_mem.1 h2 op h
  · exact List.forall_iff_forall_mem.1 h3 op h
  · exact List.forall_iff_forall_mem.1 h4 op h
  · exact List.forall_iff_forall_mem.1 h5 op h

/-- The line touches TensorCore references only. -/
theorem ops_sub : (ops : List (HloOp τ sig (Elt F))).Forall fun op => op.bufs ⊆ tcRefs τ sig :=
  List.forall_iff_forall_mem.2 (forall_ops opsA1_sub opsA2_sub opsA3_sub opsB1_sub opsB2_sub)

/-- The fold through the five stretches. -/
theorem after_ops (V : Valuation τ sig (Elt F)) :
    after ops V = after opsB2 (after opsB1 (after opsA3 (after opsA2 (after opsA1 V)))) := by
  simp only [ops, StableHlo.after_append]

/-- No operation of the line writes an argument. -/
theorem ops_keep (V : Valuation τ sig (Elt F)) (r : Ref sig .tc) (hr : r ∈ argRefs) :
    after ops V (r : DevRef τ sig) = V (r : DevRef τ sig) := by
  rw [after_ops, opsB2_keep _ r hr, opsB1_keep _ r hr, opsA3_keep _ r hr, opsA2_keep _ r hr, opsA1_keep _ r hr]

/-- The result buffer after the line: the five stages composed over the arguments' launch contents. -/
theorem out_eq (V : Valuation τ sig (Elt F)) :
    after ops V (main_v83 : DevRef τ sig) = RefTerm.refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) := by
  rw [after_ops, opsB2_out, opsB1_out, opsA3_out, opsA2_out, opsA1_out,
    opsB1_keep _ main_arg12 (by decide), opsB1_keep _ main_arg13 (by decide),
    opsA3_keep _ main_arg12 (by decide), opsA3_keep _ main_arg13 (by decide), opsA3_keep _ main_arg0 (by decide), opsA3_keep _ main_arg2 (by decide), opsA3_keep _ main_arg3 (by decide), opsA3_keep _ main_arg8 (by decide), opsA3_keep _ main_arg9 (by decide), opsA3_keep _ main_arg10 (by decide), opsA3_keep _ main_arg11 (by decide),
    opsA2_keep _ main_arg12 (by decide), opsA2_keep _ main_arg13 (by decide), opsA2_keep _ main_arg0 (by decide), opsA2_keep _ main_arg2 (by decide), opsA2_keep _ main_arg3 (by decide), opsA2_keep _ main_arg8 (by decide), opsA2_keep _ main_arg9 (by decide), opsA2_keep _ main_arg10 (by decide), opsA2_keep _ main_arg11 (by decide), opsA2_keep _ main_arg14 (by decide), opsA2_keep _ main_arg15 (by decide),
    opsA1_keep _ main_arg0 (by decide), opsA1_keep _ main_arg1 (by decide), opsA1_keep _ main_arg2 (by decide), opsA1_keep _ main_arg3 (by decide), opsA1_keep _ main_arg4 (by decide), opsA1_keep _ main_arg5 (by decide), opsA1_keep _ main_arg6 (by decide), opsA1_keep _ main_arg7 (by decide), opsA1_keep _ main_arg8 (by decide), opsA1_keep _ main_arg9 (by decide), opsA1_keep _ main_arg10 (by decide), opsA1_keep _ main_arg11 (by decide), opsA1_keep _ main_arg12 (by decide), opsA1_keep _ main_arg13 (by decide), opsA1_keep _ main_arg14 (by decide), opsA1_keep _ main_arg15 (by decide)]
  rfl

/-- On every device, for any float values, from any memory with zero counters: every weakly fair execution of
    @main terminates with the result buffer at the composed term of the arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v83) = RefTerm.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c main_v83).trans (out_eq (launchContents m c)),
      (h c main_arg0).trans (ops_keep (launchContents m c) main_arg0 (by decide)),
      (h c main_arg1).trans (ops_keep (launchContents m c) main_arg1 (by decide)),
      (h c main_arg2).trans (ops_keep (launchContents m c) main_arg2 (by decide)),
      (h c main_arg3).trans (ops_keep (launchContents m c) main_arg3 (by decide)),
      (h c main_arg4).trans (ops_keep (launchContents m c) main_arg4 (by decide)),
      (h c main_arg5).trans (ops_keep (launchContents m c) main_arg5 (by decide)),
      (h c main_arg6).trans (ops_keep (launchContents m c) main_arg6 (by decide)),
      (h c main_arg7).trans (ops_keep (launchContents m c) main_arg7 (by decide)),
      (h c main_arg8).trans (ops_keep (launchContents m c) main_arg8 (by decide)),
      (h c main_arg9).trans (ops_keep (launchContents m c) main_arg9 (by decide)),
      (h c main_arg10).trans (ops_keep (launchContents m c) main_arg10 (by decide)),
      (h c main_arg11).trans (ops_keep (launchContents m c) main_arg11 (by decide)),
      (h c main_arg12).trans (ops_keep (launchContents m c) main_arg12 (by decide)),
      (h c main_arg13).trans (ops_keep (launchContents m c) main_arg13 (by decide)),
      (h c main_arg14).trans (ops_keep (launchContents m c) main_arg14 (by decide)),
      (h c main_arg15).trans (ops_keep (launchContents m c) main_arg15 (by decide))⟩)
    (run_seq scopedRefs_eq scopedSems_eq defs main (fun _ => ops) main_eq (fun _ => ops_sub) m ρ
      (fun _ => forall_ops opsA1_fresh opsA2_fresh opsA3_fresh opsB1_fresh opsB2_fresh))

end Cert.ReferenceIdeal.RefRun

end
-- ==== Proof.RefEdge.lean ====
/-
  The reference's edge MLP is the edge kernel's row-wise specification on the kernel's operand layout.

  The reference forms the concatenation c = [mean | attributes] (192 columns), multiplies by the
  transposed first-layer weights, adds the bias, takes the ReLU, multiplies by the transposed
  second-layer weights and adds the second bias.  At the output element (p, q) this is
      (∑ k < 128, max ((∑ t < 192, c (p, t) · W₁ (k, t)) + b₁ k) 0 · W₂ (q, k)) + b₂ q.
  The specification never builds the concatenation: it has the inner sum as
      (∑ t < 128, mean (p, t) · W₁ (k, t)) + (∑ t < 64, attr (p, t) · W₁ (k, 128 + t)),
  with the two blocks of W₁ cut out and transposed beforehand, and the biases as one-row arrays.
  The two agree because a sum over 192 = 128 + 64 indices is the sum over the first 128 plus the sum
  over the last 64 (in any commutative additive monoid, the extended reals included), the
  concatenation reads its first piece left of column 128 and its second piece from there on, and
  every layout operation (transpose, column cut, one-row cast, broadcast) only renames indices.
-/
import proofs.«175380_j12695923327692_1_alg».proof.Proof.Gen.ReferenceIdeal
import proofs.«175380_j12695923327692_1_alg».proof.Proof.RefTerm
import proofs.«175380_j12695923327692_1_alg».proof.Proof.Spec
import proofs.«175380_j12695923327692_1_alg».proof.Proof.LibPlainDot
import Idealize.ShloMosaic.Lib.ValueLayout
import Idealize.ShloMosaic.Lib.IdealHost
import Idealize.ShloMosaic.Lib.Pipeline.Value
import Mathlib.Algebra.BigOperators.Fin

noncomputable section
namespace Cert.ReferenceIdeal.RefEdge
open Idealize.ShloMosaic Idealize.ShloMosaic.ValueIdx Cert.ReferenceIdeal

/-! ## Layout operations at an index -/

section Reads
variable {α : Type}

/-- A vector of length `a` laid out as one row reads, at `(u, i)`, its entry `i`. -/
theorem bcast_row_apply {a : ℕ} (x : (⟨1, ![a]⟩ : Shape).Idx → α)
    (h : (⟨1, ![a]⟩ : Shape).BroadcastsInDim ⟨2, ![1, a]⟩ ![1]) (u : Fin 1) (i : Fin a) :
    broadcastInDim ⟨2, ![1, a]⟩ ![1] h x (ix2 u i) = x (ix1 i) := by
  refine broadcastInDim_apply _ h x (ix2 u i) (ix1 i) fun ax => ?_
  match ax with
  | ⟨0, _⟩ =>
    show i.val = if a = 1 then 0 else i.val
    split
    · have := i.isLt; omega
    · rfl

/-- One row repeated down `a` rows reads, at `(p, c)`, the row's entry `c`. -/
theorem bcast_rows_apply {a b : ℕ} (y : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h y (ix2 p c) = y (ix2 (0 : Fin 1) c) := by
  refine broadcastInDim_apply _ h y (ix2 p c) (ix2 (0 : Fin 1) c) fun ax => ?_
  match ax with
  | ⟨0, _⟩ => rfl
  | ⟨1, _⟩ =>
    show c.val = if b = 1 then 0 else c.val
    split
    · have := c.isLt; omega
    · rfl

/-- The concatenation [mean | attributes] along the columns reads the mean left of column 128. -/
theorem concat_left (x₁ : S200000x128.Idx → α) (x₂ : S200000x64.Idx → α)
    (h : Shape.Concatenates [S200000x128, S200000x64] S200000x192 1) (p : Fin 200000) (t : Fin 128) :
    concatenate S200000x192 1 [⟨S200000x128, x₁⟩, ⟨S200000x64, x₂⟩] h (ix2 p (Fin.castAdd 64 t)) = x₁ (ix2 p t) :=
  concatenate_pair_apply_left (1 : Fin S200000x192.rank) x₁ x₂ h (ix2 p (Fin.castAdd 64 t)) rfl (ix2 p t) fun b => by
    match b with
    | ⟨0, _⟩ => rfl
    | ⟨1, _⟩ => rfl

/-- … and the attributes from column 128 on, at the column less 128. -/
theorem concat_right (x₁ : S200000x128.Idx → α) (x₂ : S200000x64.Idx → α)
    (h : Shape.Concatenates [S200000x128, S200000x64] S200000x192 1) (p : Fin 200000) (t : Fin 64) :
    concatenate S200000x192 1 [⟨S200000x128, x₁⟩, ⟨S200000x64, x₂⟩] h (ix2 p (Fin.natAdd 128 t)) = x₂ (ix2 p t) :=
  concatenate_pair_apply_right (1 : Fin S200000x192.rank) x₁ x₂ h (ix2 p (Fin.natAdd 128 t)) rfl rfl (ix2 p t)
    (fun b hb => by
      match b, hb with
      | ⟨0, _⟩, _ => rfl
      | ⟨1, _⟩, hb => exact absurd rfl hb)
    (Nat.add_comm _ _)

end Reads

/-- A sum over 192 indices is the sum over the first 128 plus the sum over the last 64. -/
theorem sum_split {M : Type*} [AddCommMonoid M] (f : Fin 192 → M) :
    ∑ t : Fin 192, f t = (∑ t : Fin 128, f (Fin.castAdd 64 t)) + ∑ t : Fin 64, f (Fin.natAdd 128 t) :=
  Fin.sum_univ_add (a := 128) (b := 64) f

/-! ## One linear layer at an index -/

/-- A linear layer the way the reference writes it — the rows of `l` against the transposed weights
    `w` (stored [out, in]), plus the bias laid out as one row and repeated down the rows — is, at the
    element `(p, q)`, `(∑ k, l (p, k) · w (q, k)) + b q`. -/
theorem linear_apply {M K N : ℕ}
    (d : DotDims (⟨2, ![M, K]⟩ : Shape) (⟨2, ![K, N]⟩ : Shape) (⟨2, ![M, N]⟩ : Shape))
    (hlc : d.lhsContracting = [1]) (hrc : d.rhsContracting = [0]) (hlb : d.lhsBatch = [])
    (hln : d.lhsNonContracting = [0]) (hrb : d.rhsBatch = []) (hrn : d.rhsNonContracting = [1])
    (l : FVec Ideal (⟨2, ![M, K]⟩ : Shape) .f32) (w : FVec Ideal (⟨2, ![N, K]⟩ : Shape) .f32)
    (b : FVec Ideal (⟨1, ![N]⟩ : Shape) .f32)
    (ht : (⟨2, ![N, K]⟩ : Shape).Transposes [1, 0] ⟨2, ![K, N]⟩)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    addf (Host.dotGeneral d none l (transpose ⟨2, ![K, N]⟩ [1, 0] w ht))
        (broadcastInDim ⟨2, ![M, N]⟩ ![0, 1] h2 (broadcastInDim ⟨2, ![1, N]⟩ ![1] h1 b)) (ix2 p q)
      = (∑ k : Fin K, l (ix2 p k) * w (ix2 q k)) + b (ix1 q) := by
  rw [addf_apply]
  refine congrArg₂ (· + ·) ?_ ?_
  · refine (Cert.LibPlainDot.dotGeneral_apply d hlc hrc hlb hln hrb hrn none l _ (ix2 p q)).trans ?_
    refine Finset.sum_congr rfl fun k _ => ?_
    exact congrArg (l (ix2 p k) * ·) (transpose_ix2_apply w ht k q)
  · exact (bcast_rows_apply _ h2 p q).trans (bcast_row_apply b h1 0 q)

/-! ## The edge stage -/

theorem edgeStage_eq (enm : FVec Ideal S200000x128 .f32) (ea : FVec Ideal S200000x64 .f32) (We1 : FVec Ideal S128x192 .f32)
    (be1 : FVec Ideal S128 .f32) (We2 : FVec Ideal S128x128 .f32) (be2 : FVec Ideal S128 .f32)
    (hs1 : S128x192.Slices ![0, 0] S128x128) (hs2 : S128x192.Slices ![0, 128] (⟨2, ![128, 64]⟩ : Shape))
    (ht1 : S128x128.Transposes [1, 0] S128x128) (ht2 : (⟨2, ![128, 64]⟩ : Shape).Transposes [1, 0] (⟨2, ![64, 128]⟩ : Shape))
    (hc : S128.ShapeCasts S1x128) :
    RefTerm.edgeStage (F := Ideal) enm ea We1 be1 We2 be2 =
      Cert.Spec.edgeK enm ea
        (transpose S128x128 [1, 0] (extractStridedSlice S128x128 ![0, 0] We1 hs1) ht1)
        (transpose (⟨2, ![64, 128]⟩ : Shape) [1, 0] (extractStridedSlice (⟨2, ![128, 64]⟩ : Shape) ![0, 128] We1 hs2) ht2)
        (shapeCast S1x128 be1 hc)
        (transpose S128x128 [1, 0] We2 ht1)
        (shapeCast S1x128 be2 hc) := by
  funext i
  obtain ⟨p, q, rfl⟩ : ∃ (p : Fin 200000) (q : Fin 128), i = ix2 p q := ⟨i 0, i 1, eq_ix2 i⟩
  unfold RefTerm.edgeStage
  -- the second linear layer at (p, q)
  refine (linear_apply dot_S200000x128_S128x128_S200000x128_1_0_0_1_n_n rfl rfl rfl rfl rfl rfl _ We2 be2 _ _ _ p q).trans ?_
  unfold Cert.Spec.edgeK Cert.Spec.edgeRow
  refine congrArg₂ (· + ·) (Finset.sum_congr rfl fun k _ => congrArg₂ (· * ·) ?_ ?_) ?_
  · -- the hidden activation (p, k)
    rw [maximumf_apply]
    refine congrArg₂ max ?_ ?_
    · -- the first linear layer at (p, k)
      refine (linear_apply dot_S200000x192_S192x128_S200000x128_1_0_0_1_n_n rfl rfl rfl rfl rfl rfl _ We1 be1 _ _ _ p k).trans ?_
      refine congrArg₂ (· + ·) ?_ (shapeCast_a_1a_apply be1 hc 0 k).symm
      -- the sum over the 192 columns, split at column 128
      refine (sum_split _).trans (congrArg₂ (· + ·) (Finset.sum_congr rfl fun t _ => ?_) (Finset.sum_congr rfl fun t _ => ?_))
      · refine congrArg₂ (· * ·) (concat_left enm ea _ p t) ?_
        refine Eq.symm ((transpose_ix2_apply _ ht1 t k).trans ?_)
        exact slice2_axis1_apply 0 We1 hs1 k t (Fin.castAdd 64 t) (Nat.zero_add _).symm
      · refine congrArg₂ (· * ·) (concat_right enm ea _ p t) ?_
        refine Eq.symm ((transpose_ix2_apply _ ht2 t k).trans ?_)
        exact slice2_axis1_apply 128 We1 hs2 k t (Fin.natAdd 128 t) rfl
    · -- the zero of the ReLU
      exact broadcastInDim_scalar_apply _ _ _
  · exact (transpose_ix2_apply We2 ht1 k q).symm
  · exact (shapeCast_a_1a_apply be2 hc 0 q).symm

end Cert.ReferenceIdeal.RefEdge
end
-- ==== Proof.RefNode.lean ====
/-
  The reference's node-update stage, read entry by entry.

  At row p and column q the stage's activations are
      z q = max (((∑ t, x (p, t) · Wp (q, t)) + bp q)
                 + ((∑ k, max ((∑ t, nm (p, t) · Wn1 (k, t)) + bn1 k) 0 · Wn2 (q, k)) + bn2 q)) 0
  (each product against a transposed weight contracts the weight's second coordinate), and the
  normalisation that follows is, with μ = (∑ q, z q) / 128 and var = (∑ q, (z q − μ)²) / 128,
      out q = (z q − μ) · rsqrt (var + ε) · γ q + β q.
  The variance is printed behind a guard on 128 − 0 > 0; that comparison is true, so the guarded
  quotient is always the one read.  These are the row formulas of the kernel-layout specification at
  the transposed weights and the one-row biases.
-/
import proofs.«175380_j12695923327692_1_alg».proof.Proof.Gen.ReferenceIdeal
import proofs.«175380_j12695923327692_1_alg».proof.Proof.RefTerm
import proofs.«175380_j12695923327692_1_alg».proof.Proof.Spec
import proofs.«175380_j12695923327692_1_alg».proof.Proof.LibPlainDot
import Idealize.ShloMosaic.Lib.ValueLayout
import Idealize.ShloMosaic.Lib.IdealHost
import Idealize.ShloMosaic.Lib.Pipeline.Value
import Idealize.ShloMosaic.PureOps.Ideal.Laws

noncomputable section
namespace Cert.ReferenceIdeal.RefNode
open Idealize.ShloMosaic Idealize.ShloMosaic.ValueIdx Cert.ReferenceIdeal

/-! ## Layout readings at an index -/

/-- A vector broadcast to one row and then down the rows reads, at (p, q), the vector at q. -/
theorem bias_apply (h1 : S128.BroadcastsInDim S1x128 ![1]) (h2 : S1x128.BroadcastsInDim S100000x128 ![0, 1])
    (b : FVec Ideal S128 .f32) (p : Fin 100000) (q : Fin 128) :
    broadcastInDim S100000x128 ![0, 1] h2 (broadcastInDim S1x128 ![1] h1 b) (ix2 p q) = b (ix1 q) := by
  rw [broadcastInDim_apply ![0, 1] h2 _ (ix2 p q) (ix2 (0 : Fin 1) q)
    (fun a => match a with | ⟨0, _⟩ => rfl | ⟨1, _⟩ => rfl)]
  exact broadcastInDim_apply ![1] h1 b _ (ix1 q) (fun a => match a with | ⟨0, _⟩ => rfl)

/-- A column broadcast along the rows reads, at (p, q), the column at p. -/
theorem rowBcast_apply (h : S100000x1.BroadcastsInDim S100000x128 ![0, 1]) (v : FVec Ideal S100000x1 .f32)
    (p : Fin 100000) (q : Fin 128) :
    broadcastInDim S100000x128 ![0, 1] h v (ix2 p q) = v (ix2 p (0 : Fin 1)) :=
  broadcastInDim_apply ![0, 1] h v _ (ix2 p (0 : Fin 1)) (fun a => match a with | ⟨0, _⟩ => rfl | ⟨1, _⟩ => rfl)

/-- A vector made a column reads, at (p, u), the vector at p. -/
theorem colBcast_apply (h : S100000.BroadcastsInDim S100000x1 ![0]) (v : FVec Ideal S100000 .f32)
    (p : Fin 100000) (u : Fin 1) :
    broadcastInDim S100000x1 ![0] h v (ix2 p u) = v (ix1 p) :=
  broadcastInDim_apply ![0] h v _ (ix1 p) (fun a => match a with | ⟨0, _⟩ => rfl)

/-- The host's sum along a row from a zero start: the sum of the row's 128 entries. -/
theorem rowSum_apply (h : S100000x128.ReducesTo [1] S100000) (hu : 0 < S_.numel) (z : FVec Ideal S100000x128 .f32)
    (p : Fin 100000) :
    Host.reduceAdd z (constant S_ .f32 0x00000000#32) h hu (ix1 p) = ∑ t : Fin 128, z (ix2 p t) := by
  have hR : S100000x128.Reduces [1] S100000 := by decide
  rw [hostReduceAdd_apply, Ideal.hostReduceAdd_single h hR z _ (ix1 p), constant_apply, Ideal.ofBits_zero_f32, zero_add]
  refine Finset.sum_congr rfl fun t _ => congrArg z (funext fun a => ?_)
  match a with
  | ⟨0, _⟩ => exact Fin.ext rfl
  | ⟨1, _⟩ => exact Fin.ext rfl

/-- A product against a transposed weight: at (p, q) it contracts the weight's second coordinate. -/
theorem dotT_apply (l : FVec Ideal S100000x128 .f32) (W : FVec Ideal S128x128 .f32)
    (ht : S128x128.Transposes [1, 0] S128x128) (p : Fin 100000) (q : Fin 128) :
    Host.dotGeneral dot_S100000x128_S128x128_S100000x128_1_0_0_1_n_n none l (transpose S128x128 [1, 0] W ht) (ix2 p q)
      = ∑ t : Fin 128, l (ix2 p t) * W (ix2 q t) := by
  refine (Cert.LibPlainDot.dotGeneral_apply dot_S100000x128_S128x128_S100000x128_1_0_0_1_n_n rfl rfl rfl rfl rfl rfl
    none l (transpose S128x128 [1, 0] W ht) (ix2 p q)).trans ?_
  exact Finset.sum_congr rfl fun t _ => congrArg (l (ix2 p t) * ·) (transpose_ix2_apply W ht t q)

/-! ## The activations -/

/-- The pre-normalisation activations at (p, q): the row formula at the weights read transposed. -/
theorem act_apply (x nm : FVec Ideal S100000x128 .f32) (Wp : FVec Ideal S128x128 .f32) (bp : FVec Ideal S128 .f32)
    (Wn1 : FVec Ideal S128x128 .f32) (bn1 : FVec Ideal S128 .f32) (Wn2 : FVec Ideal S128x128 .f32) (bn2 : FVec Ideal S128 .f32)
    (p : Fin 100000) (q : Fin 128) :
    RefTerm.actStage (F := Ideal) x nm Wp bp Wn1 bn1 Wn2 bn2 (ix2 p q) =
      Cert.Spec.nodeAct (fun t => x (ix2 p t)) (fun t => nm (ix2 p t)) (fun t j => Wp (ix2 j t)) (fun j => bp (ix1 j))
        (fun t k => Wn1 (ix2 k t)) (fun k => bn1 (ix1 k)) (fun k j => Wn2 (ix2 j k)) (fun j => bn2 (ix1 j)) q := by
  unfold RefTerm.actStage Cert.Spec.nodeAct
  rw [maximumf_apply, addf_apply, addf_apply, addf_apply, dotT_apply, dotT_apply, bias_apply, bias_apply,
    broadcastInDim_scalar_apply, constant_apply]
  refine congrArg (max · Cert.Spec.Z) (congrArg ((∑ t : Fin 128, x (ix2 p t) * Wp (ix2 q t)) + bp (ix1 q) + ·)
    (congrArg (· + bn2 (ix1 q)) (Finset.sum_congr rfl fun k _ => congrArg (· * Wn2 (ix2 q k)) ?_)))
  rw [maximumf_apply, addf_apply, dotT_apply, bias_apply, broadcastInDim_scalar_apply, constant_apply]

/-! ## The normalisation -/

/-- The divisor's bit pattern denotes the real 128, which is positive. -/
theorem c128_pos : (0 : EReal) < Cert.Spec.C128 := by
  have h : Cert.Spec.C128 = ((128 : ℝ) : EReal) := by
    simp [Ideal.ofBits, Ideal.ieee, -EReal.coe_mul]; norm_num
  rw [h]
  exact_mod_cast (by norm_num : (0 : ℝ) < 128)

/-- The host's reciprocal square root at an index. -/
theorem hostRsqrt_apply {s : Shape} (v : FVec Ideal s .f32) (i : s.Idx) : Host.rsqrt v i = Ideal.rsqrt (v i) := rfl

/-- The row mean, as a column, at (p, u): the row's sum over 128. -/
theorem mean_apply (hcol : S100000.BroadcastsInDim S100000x1 ![0]) (hs : S_.BroadcastsInDim S100000x1 ![])
    (h : S100000x128.ReducesTo [1] S100000) (hu : 0 < S_.numel) (z : FVec Ideal S100000x128 .f32)
    (p : Fin 100000) (u : Fin 1) :
    Host.divf (broadcastInDim S100000x1 ![0] hcol (Host.reduceAdd z (constant S_ .f32 0x00000000#32) h hu))
      (broadcastInDim S100000x1 ![] hs (constant S_ .f32 0x43000000#32)) (ix2 p u)
      = Ideal.div (∑ t : Fin 128, z (ix2 p t)) Cert.Spec.C128 := by
  rw [hostDivf_apply, colBcast_apply, rowSum_apply, broadcastInDim_scalar_apply, constant_apply]

/-- The row variance with the integer zero subtracted from the divisor: the guard 128 − 0 > 0 holds, so the
    value is the mean of the squared deviations. -/
theorem var_apply (z : FVec Ideal S100000x128 .f32) (p : Fin 100000) (u : Fin 1) :
    RefTerm.varStage (F := Ideal) z (constantI S_ 32 0#32) (ix2 p u)
      = Ideal.div (∑ t : Fin 128, (z (ix2 p t) - Ideal.div (∑ t' : Fin 128, z (ix2 p t')) Cert.Spec.C128)
          * (z (ix2 p t) - Ideal.div (∑ t' : Fin 128, z (ix2 p t')) Cert.Spec.C128)) Cert.Spec.C128 := by
  have hs0 : (sitofp (F := Ideal) .f32 (constantI S_ 32 0#32)) ix0 = 0 := by
    show (((0#32 : BitVec 32).toInt : ℝ) : EReal) = 0
    simp
  have hd : (subf (constant (F := Ideal) S_ .f32 0x43000000#32) (sitofp (F := Ideal) .f32 (constantI S_ 32 0#32))) ix0
      = Cert.Spec.C128 := by
    rw [subf_apply, hs0, constant_apply, sub_zero]
  have hc : (cmpf (F := Ideal) .ogt (subf (constant S_ .f32 0x43000000#32) (sitofp (F := Ideal) .f32 (constantI S_ 32 0#32)))
      (constant S_ .f32 0x00000000#32)) ix0 = 1#1 := by
    rw [cmpf_apply, hd, constant_apply, Ideal.cmpf_def, Ideal.ofBits_zero_f32]
    show BitVec.ofBool (decide ((0 : EReal) < Cert.Spec.C128)) = 1#1
    rw [decide_eq_true c128_pos]; rfl
  unfold RefTerm.varStage
  rw [select_apply, broadcastInDim_scalar_apply, hc, select_one, hostDivf_apply, colBcast_apply, rowSum_apply,
    broadcastInDim_scalar_apply, hd]
  refine congrArg (Ideal.div · Cert.Spec.C128) (Finset.sum_congr rfl fun t _ => ?_)
  rw [mulf_apply, subf_apply, rowBcast_apply, mean_apply]

/-- The normalisation of any activations `z` at (p, q): the row's LayerNorm formula. -/
theorem norm_apply (z : FVec Ideal S100000x128 .f32) (gamma beta : FVec Ideal S128 .f32) (p : Fin 100000) (q : Fin 128) :
    RefTerm.normStage (F := Ideal) z gamma beta (ix2 p q)
      = Cert.Spec.layerNormRow (fun t => z (ix2 p t)) (fun j => gamma (ix1 j)) (fun j => beta (ix1 j)) q := by
  unfold RefTerm.normStage Cert.Spec.layerNormRow
  rw [addf_apply, mulf_apply, mulf_apply, subf_apply, rowBcast_apply, mean_apply, rowBcast_apply, hostRsqrt_apply,
    addf_apply, var_apply, broadcastInDim_scalar_apply, constant_apply, bias_apply, bias_apply]

/-! ## The stage -/

/-- The node-update stage is the kernel-layout specification at the transposed weights and the one-row
    biases, scale and shift: entry (p, q) of both sides is the LayerNorm of row p's activations. -/
theorem nodeStage_eq (x nm : FVec Ideal S100000x128 .f32) (Wp : FVec Ideal S128x128 .f32) (bp : FVec Ideal S128 .f32)
    (Wn1 : FVec Ideal S128x128 .f32) (bn1 : FVec Ideal S128 .f32) (Wn2 : FVec Ideal S128x128 .f32) (bn2 gamma beta : FVec Ideal S128 .f32)
    (ht : S128x128.Transposes [1, 0] S128x128) (hc : S128.ShapeCasts S1x128) :
    RefTerm.nodeStage (F := Ideal) x nm Wp bp Wn1 bn1 Wn2 bn2 gamma beta =
      Cert.Spec.nodeK x nm (transpose S128x128 [1, 0] Wp ht) (shapeCast S1x128 bp hc)
        (transpose S128x128 [1, 0] Wn1 ht) (shapeCast S1x128 bn1 hc)
        (transpose S128x128 [1, 0] Wn2 ht) (shapeCast S1x128 bn2 hc)
        (shapeCast S1x128 gamma hc) (shapeCast S1x128 beta hc) := by
  have hT : ∀ W : FVec Ideal S128x128 .f32,
      (fun (t j : Fin 128) => transpose S128x128 [1, 0] W ht (ix2 t j)) = fun t j => W (ix2 j t) :=
    fun W => funext fun t => funext fun j => transpose_ix2_apply W ht t j
  have hB : ∀ b : FVec Ideal S128 .f32,
      (fun j : Fin 128 => shapeCast S1x128 b hc (ix2 (0 : Fin 1) j)) = fun j => b (ix1 j) :=
    fun b => funext fun j => shapeCast_a_1a_apply b hc 0 j
  funext i
  obtain ⟨p, q, rfl⟩ : ∃ (p : Fin 100000) (q : Fin 128), i = ix2 p q := ⟨i 0, i 1, eq_ix2 i⟩
  unfold RefTerm.nodeStage
  rw [norm_apply]
  show _ = Cert.Spec.nodeRow (fun t => x (ix2 p t)) (fun t => nm (ix2 p t))
    (fun t j => transpose S128x128 [1, 0] Wp ht (ix2 t j)) (fun j => shapeCast S1x128 bp hc (ix2 (0 : Fin 1) j))
    (fun t k => transpose S128x128 [1, 0] Wn1 ht (ix2 t k)) (fun k => shapeCast S1x128 bn1 hc (ix2 (0 : Fin 1) k))
    (fun k j => transpose S128x128 [1, 0] Wn2 ht (ix2 k j)) (fun j => shapeCast S1x128 bn2 hc (ix2 (0 : Fin 1) j))
    (fun j => shapeCast S1x128 gamma hc (ix2 (0 : Fin 1) j)) (fun j => shapeCast S1x128 beta hc (ix2 (0 : Fin 1) j)) q
  rw [hT Wp, hT Wn1, hT Wn2, hB bp, hB bn1, hB bn2, hB gamma, hB beta]
  unfold Cert.Spec.nodeRow
  exact congrArg (fun f => Cert.Spec.layerNormRow f (fun j => gamma (ix1 j)) (fun j => beta (ix1 j)) q)
    (funext fun t => act_apply x nm Wp bp Wn1 bn1 Wn2 bn2 p t)

end Cert.ReferenceIdeal.RefNode
end
-- ==== Proof.Bridge.lean ====
/-
  The reference's result is the kernel program's result, as functions of the sixteen arguments.

  Both programs compute the mean of member features and the mean incident message with the same gather,
  segment-sum and divide operations, so those two stages are one function on both sides.  In between, the
  reference's edge MLP on the concatenation [mean | attributes] equals the edge kernel's row-wise result
  (a sum over 192 columns split as 128 + 64), and its node update with jnp.mean / jnp.var LayerNorm equals
  the node kernel's row-wise result.
-/
import proofs.«175380_j12695923327692_1_alg».proof.Proof.KernelValue
import proofs.«175380_j12695923327692_1_alg».proof.Proof.RefEdge
import proofs.«175380_j12695923327692_1_alg».proof.Proof.RefNode

noncomputable section

namespace Cert.Bridge

open Idealize.ShloMosaic
open Cert.KernelIdeal Cert.KernelIdeal.HostValue Cert.KernelIdeal.Facts₀ Cert.KernelIdeal.Facts

/-- The shared first stage: the two programs' terms for the mean of member features are one function. -/
theorem enm_eq {F : FTy → Type} [FloatOps F] (x : FVec F S100000x128 .f32) (fg res : IVec S1000000 32) :
    enmK x fg res = Cert.ReferenceIdeal.RefTerm.enmStage x fg res := rfl

/-- The shared third stage: the two programs' terms for the mean incident message are one function. -/
theorem nm_eq {F : FTy → Type} [FloatOps F] (em : FVec F S200000x128 .f32) (fg res : IVec S1000000 32) :
    nmK em fg res = Cert.ReferenceIdeal.RefTerm.nmStage em fg res := rfl

/-- The reference's composed result is the kernel program's, for any argument arrays. -/
theorem ref_eq_kernel (x : FVec Ideal S100000x128 .f32) (ea : FVec Ideal S200000x64 .f32) (Wp : FVec Ideal S128x128 .f32)
    (bp : FVec Ideal S128 .f32) (We1 : FVec Ideal S128x192 .f32) (be1 : FVec Ideal S128 .f32) (We2 : FVec Ideal S128x128 .f32)
    (be2 : FVec Ideal S128 .f32) (Wn1 : FVec Ideal S128x128 .f32) (bn1 : FVec Ideal S128 .f32) (Wn2 : FVec Ideal S128x128 .f32)
    (bn2 gamma beta : FVec Ideal S128 .f32) (fg res : IVec S1000000 32) :
    Cert.ReferenceIdeal.RefTerm.refOut (F := Ideal) x ea Wp bp We1 be1 We2 be2 Wn1 bn1 Wn2 bn2 gamma beta fg res =
    Cert.Spec.nodeK x
      (nmK
        (Cert.Spec.edgeK (enmK x fg res) ea
          (transpose S128x128 [1, 0] (extractStridedSlice S128x128 ![0, 0] We1 slices_S128x192_S128x128_0_0) transposes_S128x128_S128x128_1_0)
          (transpose S64x128 [1, 0] (extractStridedSlice S128x64 ![0, 128] We1 slices_S128x192_S128x64_0_128) transposes_S128x64_S64x128_1_0)
          (shapeCast S1x128 be1 shapeCasts_S128_S1x128) (transpose S128x128 [1, 0] We2 transposes_S128x128_S128x128_1_0) (shapeCast S1x128 be2 shapeCasts_S128_S1x128))
        fg res)
      (transpose S128x128 [1, 0] Wp transposes_S128x128_S128x128_1_0) (shapeCast S1x128 bp shapeCasts_S128_S1x128) (transpose S128x128 [1, 0] Wn1 transposes_S128x128_S128x128_1_0) (shapeCast S1x128 bn1 shapeCasts_S128_S1x128) (transpose S128x128 [1, 0] Wn2 transposes_S128x128_S128x128_1_0) (shapeCast S1x128 bn2 shapeCasts_S128_S1x128) (shapeCast S1x128 gamma shapeCasts_S128_S1x128) (shapeCast S1x128 beta shapeCasts_S128_S1x128) := by
  unfold Cert.ReferenceIdeal.RefTerm.refOut
  refine (Cert.ReferenceIdeal.RefNode.nodeStage_eq x _ Wp bp Wn1 bn1 Wn2 bn2 gamma beta
    transposes_S128x128_S128x128_1_0 shapeCasts_S128_S1x128).trans ?_
  refine congrArg (fun nm => Cert.Spec.nodeK x nm _ _ _ _ _ _ _ _) ?_
  refine (nm_eq _ fg res).symm.trans (congrArg (fun em => nmK em fg res) ?_)
  refine (Cert.ReferenceIdeal.RefEdge.edgeStage_eq _ ea We1 be1 We2 be2 slices_S128x192_S128x128_0_0
    slices_S128x192_S128x64_0_128 transposes_S128x128_S128x128_1_0 transposes_S128x64_S64x128_1_0
    shapeCasts_S128_S1x128).trans ?_
  exact congrArg (fun e => Cert.Spec.edgeK e ea _ _ _ _ _) (enm_eq x fg res).symm

end Cert.Bridge

end
-- ==== Proof.lean ====
/-
  A hypergraph message-passing layer: two fused TPU kernels (the edge MLP, and the node update with
  LayerNorm) around gather / segment-mean host operations, against its plain jnp reference.

  At the ideal instance both programs compute, for every node row, LayerNorm of
      max ((x·Wpᵀ + bp) + (max (n·Wn1ᵀ + bn1) 0 · Wn2ᵀ + bn2)) 0,
  where n is the mean over incident hyperedges of the edge message
      max ([a | e]·We1ᵀ + be1) 0 · We2ᵀ + be2
  and a is the mean of the member nodes' features.  The two means are the same host operations in both
  programs; the kernels differ from the reference only in tiling (row blocks of 5000), in receiving the
  weights transposed and the biases as one row, in summing the first layer's 192 columns as 128 + 64
  instead of concatenating, and in bf16 conversions that are the identity on the extended reals.  No law
  used needs finiteness: sums are only regrouped, never distributed over.

  The frames of the two kernel programs are the generated frame certificate; the reference's frame and run
  are read off its host operations; the idealization rewrote nothing, so `preserves` is trivial.
-/
import proofs.«175380_j12695923327692_1_alg».proof.Defs
import proofs.«175380_j12695923327692_1_alg».proof.Proof.Gen.Kernel
import proofs.«175380_j12695923327692_1_alg».proof.Proof.KFrame
import proofs.«175380_j12695923327692_1_alg».proof.Proof.Gen.KernelIdeal
import proofs.«175380_j12695923327692_1_alg».proof.Proof.KIFrame
import proofs.«175380_j12695923327692_1_alg».proof.Proof.Gen.ReferenceIdeal
import proofs.«175380_j12695923327692_1_alg».proof.Proof.Gen.Pre_finite_inputs
import proofs.«175380_j12695923327692_1_alg».proof.Proof.KernelRun
import proofs.«175380_j12695923327692_1_alg».proof.Proof.KernelValue
import proofs.«175380_j12695923327692_1_alg».proof.Proof.EdgeValue
import proofs.«175380_j12695923327692_1_alg».proof.Proof.NodeValue
import proofs.«175380_j12695923327692_1_alg».proof.Proof.RefRun
import proofs.«175380_j12695923327692_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.GenP.frame m ρ

theorem frame_ki : Cert.frame_KernelIdeal := fun m ρ _ => Cert.KernelIdeal.GenP.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealized kernel program's run with its result named: every execution ends with the result array at
    the node kernel's whole-array function of the arguments, the arguments unchanged. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v52) = Cert.KernelIdeal.HostValue.kOut m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)) :=
  (θ_run (Cert.KernelIdeal.defs (F := Ideal)) _ _).mono (fun r h c =>
    ⟨(h c _ (Cert.KernelIdeal.GenP.mem_uc Cert.KernelIdeal.main_v52 (by decide))).trans
        (Cert.KernelIdeal.HostValue.W4_v52_eq m ρ Cert.KernelIdeal.EdgeValue.edge_arrAt Cert.KernelIdeal.NodeValue.node_arrAt c),
      (h c _ (Cert.KernelIdeal.GenP.mem_uc Cert.KernelIdeal.main_arg0 (by decide))).trans (Cert.KernelIdeal.GenP.W4_main_arg0 m ρ c),
      (h c _ (Cert.KernelIdeal.GenP.mem_uc Cert.KernelIdeal.main_arg1 (by decide))).trans (Cert.KernelIdeal.GenP.W4_main_arg1 m ρ c),
      (h c _ (Cert.KernelIdeal.GenP.mem_uc Cert.KernelIdeal.main_arg2 (by decide))).trans (Cert.KernelIdeal.GenP.W4_main_arg2 m ρ c),
      (h c _ (Cert.KernelIdeal.GenP.mem_uc Cert.KernelIdeal.main_arg3 (by decide))).trans (Cert.KernelIdeal.GenP.W4_main_arg3 m ρ c),
      (h c _ (Cert.KernelIdeal.GenP.mem_uc Cert.KernelIdeal.main_arg4 (by decide))).trans (Cert.KernelIdeal.GenP.W4_main_arg4 m ρ c),
      (h c _ (Cert.KernelIdeal.GenP.mem_uc Cert.KernelIdeal.main_arg5 (by decide))).trans (Cert.KernelIdeal.GenP.W4_main_arg5 m ρ c),
      (h c _ (Cert.KernelIdeal.GenP.mem_uc Cert.KernelIdeal.main_arg6 (by decide))).trans (Cert.KernelIdeal.GenP.W4_main_arg6 m ρ c),
      (h c _ (Cert.KernelIdeal.GenP.mem_uc Cert.KernelIdeal.main_arg7 (by decide))).trans (Cert.KernelIdeal.GenP.W4_main_arg7 m ρ c),
      (h c _ (Cert.KernelIdeal.GenP.mem_uc Cert.KernelIdeal.main_arg8 (by decide))).trans (Cert.KernelIdeal.GenP.W4_main_arg8 m ρ c),
      (h c _ (Cert.KernelIdeal.GenP.mem_uc Cert.KernelIdeal.main_arg9 (by decide))).trans (Cert.KernelIdeal.GenP.W4_main_arg9 m ρ c),
      (h c _ (Cert.KernelIdeal.GenP.mem_uc Cert.KernelIdeal.main_arg10 (by decide))).trans (Cert.KernelIdeal.GenP.W4_main_arg10 m ρ c),
      (h c _ (Cert.KernelIdeal.GenP.mem_uc Cert.KernelIdeal.main_arg11 (by decide))).trans (Cert.KernelIdeal.GenP.W4_main_arg11 m ρ c),
      (h c _ (Cert.KernelIdeal.GenP.mem_uc Cert.KernelIdeal.main_arg12 (by decide))).trans (Cert.KernelIdeal.GenP.W4_main_arg12 m ρ c),
      (h c _ (Cert.KernelIdeal.GenP.mem_uc Cert.KernelIdeal.main_arg13 (by decide))).trans (Cert.KernelIdeal.GenP.W4_main_arg13 m ρ c),
      (h c _ (Cert.KernelIdeal.GenP.mem_uc Cert.KernelIdeal.main_arg14 (by decide))).trans (Cert.KernelIdeal.GenP.W4_main_arg14 m ρ c),
      (h c _ (Cert.KernelIdeal.GenP.mem_uc Cert.KernelIdeal.main_arg15 (by decide))).trans (Cert.KernelIdeal.GenP.W4_main_arg15 m ρ c)⟩)
    (Cert.KernelIdeal.GenP.run_all m ρ)

/-- From memories agreeing on the arguments both idealized programs end with the same result array: the
    reference's composed term of the arguments is the kernel program's. -/
theorem algebraic : Cert.algebraic_KernelIdeal_ReferenceIdeal := by
  intro m ρ m' ρ' _ hagree
  refine ⟨fun c => Cert.KernelIdeal.HostValue.kOut m c, kernel_run m ρ, ?_⟩
  refine (θ_run Cert.ReferenceIdeal.defs _ _).mono (fun _ h c => ⟨(h c).1.trans ?_, (h c).2⟩)
    (Cert.ReferenceIdeal.RefRun.run (F := Ideal) m' ρ')
  obtain ⟨h0, h1, h2, h3, h4, h5, h6, h7, h8, h9, h10, h11, h12, h13, h14, h15⟩ := hagree c
  rw [h0, h1, h2, h3, h4, h5, h6, h7, h8, h9, h10, h11, h12, h13, h14, h15]
  exact Cert.Bridge.ref_eq_kernel _ _ _ _ _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
